-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x5000000 : Shape := ⟨2, ![2, 5000000]⟩
abbrev S3x3 : Shape := ⟨2, ![3, 3]⟩
abbrev S3 : Shape := ⟨1, ![3]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_arg16 : FVec F S16x1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S16x1 .f32 := Host.absf main_arg16
  let main_cst_28 : FVec F S_ .f32 := constant S_ .f32 0x7F800000#32
  let main_v75 : FVec F S16x1 .f32 := broadcastInDim S16x1 ![] bcast_S_S16x1 main_cst_28
  let main_v76 : IVec S16x1 1 := cmpf .olt main_v74 main_v75
  let main_c_29 : IVec S_ 1 := constantI S_ 1 1#1
  let main_v77 : IVec S_ 1 := (fun x v => Host.reduce IntOp.andi x v reducesTo_S16x1_S_d0_1 h_S_) main_v76 main_c_29
  let main_v78 : IVec S_ 1 := andi main_v73 main_v77
  main_v78

def fn_part3 {F : FTy → Type} [FloatOps F] (main_arg12 : FVec F S16x16 .f32) (main_arg13 : FVec F S16 .f32) (main_arg14 : FVec F S16x1 .f32) (main_arg15 : FVec F S1 .f32) (main_arg16 : FVec F S16x1 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x1 .f32 := Host.absf main_arg14
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg15 main_arg16 main_v63 main_v67

def fn_part2 {F : FTy → Type} [FloatOps F] (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x1 .f32) (main_arg15 : FVec F S1 .f32) (main_arg16 : FVec F S16x1 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_arg15 main_arg16 main_v48 main_v49 main_v50

def fn_part1 {F : FTy → Type} [FloatOps F] (main_arg5 : FVec F S16 .f32) (main_arg6 : FVec F S3x16 .f32) (main_arg7 : FVec F S16x16 .f32) (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x1 .f32) (main_arg15 : FVec F S1 .f32) (main_arg16 : FVec F S16x1 .f32) (main_v13 : IVec S_ 1) (main_v16 : IVec S3x16 1) : IVec S_ 1 :=
  let main_c_5 : IVec S_ 1 := constantI S_ 1 1#1
  let main_v17 : IVec S_ 1 := (fun x v => Host.reduce IntOp.andi x v reducesTo_S3x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S3x16 .f32 := Host.absf main_arg6
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S500000x3 .f32) (main_arg1 : IVec S2x5000000 32) (main_arg2 : FVec F S3x3 .f32) (main_arg3 : FVec F S3 .f32) (main_arg4 : FVec F S3x16 .f32) (main_arg5 : FVec F S16 .f32) (main_arg6 : FVec F S3x16 .f32) (main_arg7 : FVec F S16x16 .f32) (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x1 .f32) (main_arg15 : FVec F S1 .f32) (main_arg16 : FVec F S16x1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x3 .f32 := Host.absf main_arg2
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x16 .f32 := Host.absf main_arg4
  let main_cst_4 : FVec F S_ .f32 := constant S_ .f32 0x7F800000#32
  let main_v15 : FVec F S3x16 .f32 := broadcastInDim S3x16 ![] bcast_S_S3x16 main_cst_4
  let main_v16 : IVec S3x16 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S500000x3 : Shape := ⟨2, ![500000, 3]⟩
abbrev S2x5000000 : Shape := ⟨2, ![2, 5000000]⟩
abbrev S3x3 : Shape := ⟨2, ![3, 3]⟩
abbrev S3 : Shape := ⟨1, ![3]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x5000000 : Shape := ⟨2, ![1, 5000000]⟩
abbrev S5000000 : Shape := ⟨1, ![5000000]⟩
abbrev S5000x3 : Shape := ⟨2, ![5000, 3]⟩
abbrev S1x3 : Shape := ⟨2, ![1, 3]⟩
abbrev S_ : Shape := ⟨0, ![]⟩
abbrev S5000000x1 : Shape := ⟨2, ![5000000, 1]⟩
abbrev S1x1 : Shape := ⟨2, ![1, 1]⟩
abbrev S5000000x3 : Shape := ⟨2, ![5000000, 3]⟩
abbrev S500000x16 : Shape := ⟨2, ![500000, 16]⟩
abbrev S5000x16 : Shape := ⟨2, ![5000, 16]⟩
abbrev S1x16 : Shape := ⟨2, ![1, 16]⟩
abbrev S5000000x16 : Shape := ⟨2, ![5000000, 16]⟩
abbrev S500000x1 : Shape := ⟨2, ![500000, 1]⟩
abbrev S5000x1 : Shape := ⟨2, ![5000, 1]⟩

abbrev nBuf : Space → Nat
  | .hbm => 108
  | .vmem => 45
  | .smem => 0
  | _ => 0

abbrev bufTy : (tb : Table) → Fin (tcTables nBuf tb) → BufTy
  | .hbm, ⟨0, _⟩ => ⟨S500000x3, .f32⟩
  | .hbm, ⟨1, _⟩ => ⟨S2x5000000, .i32⟩
  | .hbm, ⟨2, _⟩ => ⟨S3x3, .f32⟩
  | .hbm, ⟨3, _⟩ => ⟨S3, .f32⟩
  | .hbm, ⟨4, _⟩ => ⟨S3x16, .f32⟩
  | .hbm, ⟨5, _⟩ => ⟨S16, .f32⟩
  | .hbm, ⟨6, _⟩ => ⟨S3x16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S16x1, .f32⟩
  | .hbm, ⟨17, _⟩ => ⟨S1x5000000, .i32⟩
  | .hbm, ⟨18, _⟩ => ⟨S5000000, .i32⟩
  | .hbm, ⟨19, _⟩ => ⟨S1x5000000, .i32⟩
  | .hbm, ⟨20, _⟩ => ⟨S5000000, .i32⟩
  | .hbm, ⟨21, _⟩ => ⟨S500000x3, .f32⟩
  | .hbm, ⟨22, _⟩ => ⟨S_, .i32⟩
  | .hbm, ⟨23, _⟩ => ⟨S5000000, .i32⟩
  | .hbm, ⟨24, _⟩ => ⟨S5000000, .i1⟩
  | .hbm, ⟨25, _⟩ => ⟨S_, .i32⟩
  | .hbm, ⟨26, _⟩ => ⟨S5000000, .i32⟩
  | .hbm, ⟨27, _⟩ => ⟨S5000000, .i32⟩
  | .hbm, ⟨28, _⟩ => ⟨S5000000, .i32⟩
  | .hbm, ⟨29, _⟩ => ⟨S5000000x1, .i32⟩
  | .hbm, ⟨30, _⟩ => ⟨S1, .i32⟩
  | .hbm, ⟨31, _⟩ => ⟨S_, .i32⟩
  | .hbm, ⟨32, _⟩ => ⟨S5000000x1, .i32⟩
  | .hbm, ⟨33, _⟩ => ⟨S5000000x1, .i1⟩
  | .hbm, ⟨34, _⟩ => ⟨S1x1, .i32⟩
  | .hbm, ⟨35, _⟩ => ⟨S5000000x1, .i32⟩
  | .hbm, ⟨36, _⟩ => ⟨S5000000x1, .i1⟩
  | .hbm, ⟨37, _⟩ => ⟨S5000000x1, .i1⟩
  | .hbm, ⟨38, _⟩ => ⟨S_, .i1⟩
  | .hbm, ⟨39, _⟩ => ⟨S5000000, .i1⟩
  | .hbm, ⟨40, _⟩ => ⟨S5000000x3, .f32⟩
  | .hbm, ⟨41, _⟩ => ⟨S5000000x3, .i1⟩
  | .hbm, ⟨42, _⟩ => ⟨S_, .f32⟩
  | .hbm, ⟨43, _⟩ => ⟨S5000000x3, .f32⟩
  | .hbm, ⟨44, _⟩ => ⟨S5000000x3, .f32⟩
  | .hbm, ⟨45, _⟩ => ⟨S_, .f32⟩
  | .hbm, ⟨46, _⟩ => ⟨S500000x3, .f32⟩
  | .hbm, ⟨47, _⟩ => ⟨S5000000x1, .i32⟩
  | .hbm, ⟨48, _⟩ => ⟨S500000x3, .f32⟩
  | .hbm, ⟨49, _⟩ => ⟨S500000x16, .f32⟩
  | .hbm, ⟨50, _⟩ => ⟨S500000x16, .f32⟩
  | .hbm, ⟨51, _⟩ => ⟨S_, .i32⟩
  | .hbm, ⟨52, _⟩ => ⟨S5000000, .i32⟩
  | .hbm, ⟨53, _⟩ => ⟨S5000000, .i1⟩
  | .hbm, ⟨54, _⟩ => ⟨S_, .i32⟩
  | .hbm, ⟨55, _⟩ => ⟨S5000000, .i32⟩
  | .hbm, ⟨56, _⟩ => ⟨S5000000, .i32⟩
  | .hbm, ⟨57, _⟩ => ⟨S5000000, .i32⟩
  | .hbm, ⟨58, _⟩ => ⟨S5000000x1, .i32⟩
  | .hbm, ⟨59, _⟩ => ⟨S1, .i32⟩
  | .hbm, ⟨60, _⟩ => ⟨S_, .i32⟩
  | .hbm, ⟨61, _⟩ => ⟨S5000000x1, .i32⟩
  | .hbm, ⟨62, _⟩ => ⟨S5000000x1, .i1⟩
  | .hbm, ⟨63, _⟩ => ⟨S1x1, .i32⟩
  | .hbm, ⟨64, _⟩ => ⟨S5000000x1, .i32⟩
  | .hbm, ⟨65, _⟩ => ⟨S5000000x1, .i1⟩
  | .hbm, ⟨66, _⟩ => ⟨S5000000x1, .i1⟩
  | .hbm, ⟨67, _⟩ => ⟨S_, .i1⟩
  | .hbm, ⟨68, _⟩ => ⟨S5000000, .i1⟩
  | .hbm, ⟨69, _⟩ => ⟨S5000000x16, .f32⟩
  | .hbm, ⟨70, _⟩ => ⟨S5000000x16, .i1⟩
  | .hbm, ⟨71, _⟩ => ⟨S_, .f32⟩
  | .hbm, ⟨72, _⟩ => ⟨S5000000x16, .f32⟩
  | .hbm, ⟨73, _⟩ => ⟨S5000000x16, .f32⟩
  | .hbm, ⟨74, _⟩ => ⟨S_, .f32⟩
  | .hbm, ⟨75, _⟩ => ⟨S500000x16, .f32⟩
  | .hbm, ⟨76, _⟩ => ⟨S5000000x1, .i32⟩
  | .hbm, ⟨77, _⟩ => ⟨S500000x16, .f32⟩
  | .hbm, ⟨78, _⟩ => ⟨S500000x16, .f32⟩
  | .hbm, ⟨79, _⟩ => ⟨S500000x16, .f32⟩
  | .hbm, ⟨80, _⟩ => ⟨S_, .i32⟩
  | .hbm, ⟨81, _⟩ => ⟨S5000000, .i32⟩
  | .hbm, ⟨82, _⟩ => ⟨S5000000, .i1⟩
  | .hbm, ⟨83, _⟩ => ⟨S_, .i32⟩
  | .hbm, ⟨84, _⟩ => ⟨S5000000, .i32⟩
  | .hbm, ⟨85, _⟩ => ⟨S5000000, .i32⟩
  | .hbm, ⟨86, _⟩ => ⟨S5000000, .i32⟩
  | .hbm, ⟨87, _⟩ => ⟨S5000000x1, .i32⟩
  | .hbm, ⟨88, _⟩ => ⟨S1, .i32⟩
  | .hbm, ⟨89, _⟩ => ⟨S_, .i32⟩
  | .hbm, ⟨90, _⟩ => ⟨S5000000x1, .i32⟩
  | .hbm, ⟨91, _⟩ => ⟨S5000000x1, .i1⟩
  | .hbm, ⟨92, _⟩ => ⟨S1x1, .i32⟩
  | .hbm, ⟨93, _⟩ => ⟨S5000000x1, .i32⟩
  | .hbm, ⟨94, _⟩ => ⟨S5000000x1, .i1⟩
  | .hbm, ⟨95, _⟩ => ⟨S5000000x1, .i1⟩
  | .hbm, ⟨96, _⟩ => ⟨S_, .i1⟩
  | .hbm, ⟨97, _⟩ => ⟨S5000000, .i1⟩
  | .hbm, ⟨98, _⟩ => ⟨S5000000x16, .f32⟩
  | .hbm, ⟨99, _⟩ => ⟨S5000000x16, .i1⟩
  | .hbm, ⟨100, _⟩ => ⟨S_, .f32⟩
  | .hbm, ⟨101, _⟩ => ⟨S5000000x16, .f32⟩
  | .hbm, ⟨102, _⟩ => ⟨S5000000x16, .f32⟩
  | .hbm, ⟨103, _⟩ => ⟨S_, .f32⟩
  | .hbm, ⟨104, _⟩ => ⟨S500000x16, .f32⟩
  | .hbm, ⟨105, _⟩ => ⟨S5000000x1, .i32⟩
  | .hbm, ⟨106, _⟩ => ⟨S500000x16, .f32⟩
  | .hbm, ⟨107, _⟩ => ⟨S500000x1, .f32⟩
  | .local _ .vmem, ⟨0, _⟩ => ⟨S5000x3, .f32⟩
  | .local _ .vmem, ⟨1, _⟩ => ⟨S5000x3, .f32⟩
  | .local _ .vmem, ⟨2, _⟩ => ⟨S3x3, .f32⟩
  | .local _ .vmem, ⟨3, _⟩ => ⟨S3, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S5000x3, .f32⟩
  | .local _ .vmem, ⟨8, _⟩ => ⟨S5000x3, .f32⟩
  | .local _ .vmem, ⟨9, _⟩ => ⟨S5000x3, .f32⟩
  | .local _ .vmem, ⟨10, _⟩ => ⟨S3x16, .f32⟩
  | .local _ .vmem, ⟨11, _⟩ => ⟨S16, .f32⟩
  | .local _ .vmem, ⟨12, _⟩ => ⟨S3x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S16x16, .f32⟩
  | .local _ .vmem, ⟨18, _⟩ => ⟨S16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S5000x16, .f32⟩
  | .local _ .vmem, ⟨25, _⟩ => ⟨S16x16, .f32⟩
  | .local _ .vmem, ⟨26, _⟩ => ⟨S16, .f32⟩
  | .local _ .vmem, ⟨27, _⟩ => ⟨S16x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S16x16, .f32⟩
  | .local _ .vmem, ⟨33, _⟩ => ⟨S16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S5000x16, .f32⟩
  | .local _ .vmem, ⟨38, _⟩ => ⟨S5000x16, .f32⟩
  | .local _ .vmem, ⟨39, _⟩ => ⟨S5000x16, .f32⟩
  | .local _ .vmem, ⟨40, _⟩ => ⟨S16x1, .f32⟩
  | .local _ .vmem, ⟨41, _⟩ => ⟨S1, .f32⟩
  | .local _ .vmem, ⟨42, _⟩ => ⟨S16x1, .f32⟩
  | .local _ .vmem, ⟨43, _⟩ => ⟨S5000x1, .f32⟩
  | .local _ .vmem, ⟨44, _⟩ => ⟨S5000x1, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v11 : Ref sig .tc := ⟨.hbm, 73, rfl⟩
abbrev main_cst_0 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v17 : Ref sig .tc := ⟨.hbm, 102, rfl⟩
abbrev main_cst_1 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x3_S3x3_0_0 : ∀ a, (![0, 0] : Fin 2 → Nat) a + S3x3.size a ≤ S3x3.size a
  h_S3x3 : 0 < S3x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  reducesTo_S5000000x1_S5000000_d1 : S5000000x1.ReducesTo [1] S5000000
  h_S_ : 0 < S_.numel
  bcast_S5000000_S5000000x3_0 : S5000000.BroadcastsInDim S5000000x3 (![0] : Fin 1 → Fin S5000000x3.rank)
  bcast_S_S5000000x3 : S_.BroadcastsInDim S5000000x3 (![] : Fin 0 → Fin S5000000x3.rank)
  bcast_S_S500000x3 : S_.BroadcastsInDim S500000x3 (![] : Fin 0 → Fin S500000x3.rank)
  shapeCasts_S5000x3_S5000x3 : S5000x3.ShapeCasts S5000x3
  inb_S3x16_S3x16_0_0 : ∀ a, (![0, 0] : Fin 2 → Nat) a + S3x16.size a ≤ S3x16.size a
  h_S3x16 : 0 < S3x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  bcast_S5000000_S5000000x16_0 : S5000000.BroadcastsInDim S5000000x16 (![0] : Fin 1 → Fin S5000000x16.rank)
  bcast_S_S5000000x16 : S_.BroadcastsInDim S5000000x16 (![] : Fin 0 → Fin S5000000x16.rank)
  bcast_S_S500000x16 : S_.BroadcastsInDim S500000x16 (![] : Fin 0 → Fin S500000x16.rank)
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x3_S3x3_S5000x3_1_0_0_1_n_n_wf : DotDims.WF S5000x3 S3x3 S5000x3 [1] [0] [0] [1] [] []
  gather_S500000x3_S5000000x1_S5000000x3_1_0_n_n_0_1_13_wf : GatherDims.WF S500000x3 S5000000x1 S5000000x3 [1] [0] [] [0] [] 1 ![1, 3]
  scatter_S500000x3_S5000000x1_S5000000x3_1_0_0_1_wf : ScatterDims.WF S500000x3 S5000000x1 S5000000x3 [1] [0] [0] 1
  dot_S5000x3_S3x16_S5000x16_1_0_0_1_n_n_wf : DotDims.WF S5000x3 S3x16 S5000x16 [1] [0] [0] [1] [] []
  dot_S5000x16_S16x16_S5000x16_1_0_0_1_n_n_wf : DotDims.WF S5000x16 S16x16 S5000x16 [1] [0] [0] [1] [] []
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .f32 = 32 ∨ (Rect.block (s := S500000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S500000x3.size a
  hwx0_3 : ∀ i : grid0.Coords, EltTy.bits .f32 = 32 ∨ (Rect.block (s := S500000x3) S5000x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S500000x3.size a
  hwx1_0 : ∀ i : grid1.Coords, EltTy.bits .f32 = 32 ∨ (Rect.block (s := S500000x3) S5000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x3.size a ≤ S500000x3.size a
  hwx1_1 : ∀ i : grid1.Coords, EltTy.bits .f32 = 32 ∨ (Rect.block (s := S500000x3) S5000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x16.size a ≤ S3x16.size a
  hwx1_2 : ∀ i : grid1.Coords, EltTy.bits .f32 = 32 ∨ (Rect.block (s := S3x16) S3x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x16.size a ≤ S3x16.size a
  hwx1_4 : ∀ i : grid1.Coords, EltTy.bits .f32 = 32 ∨ (Rect.block (s := S3x16) S3x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S500000x16.size a
  hwx1_5 : ∀ i : grid1.Coords, EltTy.bits .f32 = 32 ∨ (Rect.block (s := S500000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S500000x16.size a
  hwx2_3 : ∀ i : grid2.Coords, EltTy.bits .f32 = 32 ∨ (Rect.block (s := S500000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S500000x16.size a
  hwx3_1 : ∀ i : grid3.Coords, EltTy.bits .f32 = 32 ∨ (Rect.block (s := S500000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16.size a ≤ S16.size a
  hwx3_3 : ∀ i : grid3.Coords, EltTy.bits .f32 = 32 ∨ (Rect.block (s := S16) S16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x16.size a ≤ S500000x16.size a
  hwx3_5 : ∀ i : grid3.Coords, EltTy.bits .f32 = 32 ∨ (Rect.block (s := S500000x16) S5000x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S500000x16.size a
  hwx4_0 : ∀ i : grid4.Coords, EltTy.bits .f32 = 32 ∨ (Rect.block (s := S500000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16.size a ≤ S16.size a
  hwx4_2 : ∀ i : grid4.Coords, EltTy.bits .f32 = 32 ∨ (Rect.block (s := S16) S16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S500000x16.size a
  hwx4_3 : ∀ i : grid4.Coords, EltTy.bits .f32 = 32 ∨ (Rect.block (s := S500000x16) S5000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S500000x16.size a
  hwx5_0 : ∀ i : grid5.Coords, EltTy.bits .f32 = 32 ∨ (Rect.block (s := S500000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x16.size a ≤ S500000x16.size a
  hwx5_1 : ∀ i : grid5.Coords, EltTy.bits .f32 = 32 ∨ (Rect.block (s := S500000x16) S5000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x1.size a ≤ S16x1.size a
  hwx5_2 : ∀ i : grid5.Coords, EltTy.bits .f32 = 32 ∨ (Rect.block (s := S16x1) S16x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1.size a ≤ S1.size a
  hwx5_3 : ∀ i : grid5.Coords, EltTy.bits .f32 = 32 ∨ (Rect.block (s := S1) S1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x1.size a ≤ S16x1.size a
  hwx5_4 : ∀ i : grid5.Coords, EltTy.bits .f32 = 32 ∨ (Rect.block (s := S16x1) S16x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S500000x1.size a
  hwx5_5 : ∀ i : grid5.Coords, EltTy.bits .f32 = 32 ∨ (Rect.block (s := S500000x1) S5000x1.size (cc5_transform_5 i) (hinb5_5 i)).WholeWords (EltTy.packing .f32)

variable [Facts₀]

def dot_S5000x3_S3x3_S5000x3_1_0_0_1_n_n : DotDims S5000x3 S3x3 S5000x3 where
  lhsContracting := [1]
  rhsContracting := [0]
  lhsNonContracting := [0]
  rhsNonContracting := [1]
  lhsBatch := []
  rhsBatch := []
  wf := dot_S5000x3_S3x3_S5000x3_1_0_0_1_n_n_wf
def gather_S500000x3_S5000000x1_S5000000x3_1_0_n_n_0_1_13 : GatherDims S500000x3 S5000000x1 S5000000x3 where
  offsetDims := [1]
  collapsedSliceDims := [0]
  operandBatchingDims := []
  startIndicesBatchingDims := []
  startIndexMap := [0]
  indexVectorDim := 1
  sliceSizes := ![1, 3]
  wf := gather_S500000x3_S5000000x1_S5000000x3_1_0_n_n_0_1_13_wf
def scatter_S500000x3_S5000000x1_S5000000x3_1_0_0_1 : ScatterDims S500000x3 S5000000x1 S5000000x3 where
  updateWindowDims := [1]
  insertedWindowDims := [0]
  scatterDimsToOperandDims := [0]
  indexVectorDim := 1
  wf := scatter_S500000x3_S5000000x1_S5000000x3_1_0_0_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S3x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S5000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v15) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v20) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S16x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S16x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v21) S5000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S500000x3 : Shape := ⟨2, ![500000, 3]⟩
abbrev S2x5000000 : Shape := ⟨2, ![2, 5000000]⟩
abbrev S3x3 : Shape := ⟨2, ![3, 3]⟩
abbrev S3 : Shape := ⟨1, ![3]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x5000000 : Shape := ⟨2, ![1, 5000000]⟩
abbrev S5000000 : Shape := ⟨1, ![5000000]⟩
abbrev S1x3 : Shape := ⟨2, ![1, 3]⟩
abbrev S_ : Shape := ⟨0, ![]⟩
abbrev S5000000x1 : Shape := ⟨2, ![5000000, 1]⟩
abbrev S1x1 : Shape := ⟨2, ![1, 1]⟩
abbrev S5000000x3 : Shape := ⟨2, ![5000000, 3]⟩
abbrev S500000x16 : Shape := ⟨2, ![500000, 16]⟩
abbrev S1x16 : Shape := ⟨2, ![1, 16]⟩
abbrev S5000000x16 : Shape := ⟨2, ![5000000, 16]⟩
abbrev S500000x1 : Shape := ⟨2, ![500000, 1]⟩

abbrev nBuf : Space → Nat
  | .hbm => 155
  | .vmem => 0
  | .smem => 0
  | _ => 0

abbrev hbmTy0_0 (i : Nat) : BufTy := match i % 128 with
  | 0 => ⟨S500000x3, .f32⟩
  | 1 => ⟨S2x5000000, .i32⟩
  | 2 => ⟨S3x3, .f32⟩
  | 3 => ⟨S3, .f32⟩
  | 4 => ⟨S3x16, .f32⟩
  | 5 => ⟨S16, .f32⟩
  | 6 => ⟨S3x16, .f32⟩
  | 7 => ⟨S16x16, .f32⟩
  | 8 => ⟨S16, .f32⟩
  | 9 => ⟨S16x16, .f32⟩
  | 10 => ⟨S16, .f32⟩
  | 11 => ⟨S16x16, .f32⟩
  | 12 => ⟨S16x16, .f32⟩
  | 13 => ⟨S16, .f32⟩
  | 14 => ⟨S16x1, .f32⟩
  | 15 => ⟨S1, .f32⟩
  | 16 => ⟨S16x1, .f32⟩
  | 17 => ⟨S1x5000000, .i32⟩
  | 18 => ⟨S5000000, .i32⟩
  | 19 => ⟨S1x5000000, .i32⟩
  | 20 => ⟨S5000000, .i32⟩
  | 21 => ⟨S500000x3, .f32⟩
  | 22 => ⟨S1x3, .f32⟩
  | 23 => ⟨S500000x3, .f32⟩
  | 24 => ⟨S500000x3, .f32⟩
  | 25 => ⟨S_, .f32⟩
  | 26 => ⟨S500000x3, .f32⟩
  | 27 => ⟨S500000x3, .f32⟩
  | 28 => ⟨S_, .i32⟩
  | 29 => ⟨S5000000, .i32⟩
  | 30 => ⟨S5000000, .i1⟩
  | 31 => ⟨S_, .i32⟩
  | 32 => ⟨S5000000, .i32⟩
  | 33 => ⟨S5000000, .i32⟩
  | 34 => ⟨S5000000, .i32⟩
  | 35 => ⟨S5000000x1, .i32⟩
  | 36 => ⟨S1, .i32⟩
  | 37 => ⟨S_, .i32⟩
  | 38 => ⟨S5000000x1, .i32⟩
  | 39 => ⟨S5000000x1, .i1⟩
  | 40 => ⟨S1x1, .i32⟩
  | 41 => ⟨S5000000x1, .i32⟩
  | 42 => ⟨S5000000x1, .i1⟩
  | 43 => ⟨S5000000x1, .i1⟩
  | 44 => ⟨S_, .i1⟩
  | 45 => ⟨S5000000, .i1⟩
  | 46 => ⟨S5000000x3, .f32⟩
  | 47 => ⟨S5000000x3, .i1⟩
  | 48 => ⟨S_, .f32⟩
  | 49 => ⟨S5000000x3, .f32⟩
  | 50 => ⟨S5000000x3, .f32⟩
  | 51 => ⟨S_, .f32⟩
  | 52 => ⟨S500000x3, .f32⟩
  | 53 => ⟨S5000000x1, .i32⟩
  | 54 => ⟨S500000x3, .f32⟩
  | 55 => ⟨S500000x16, .f32⟩
  | 56 => ⟨S1x16, .f32⟩
  | 57 => ⟨S500000x16, .f32⟩
  | 58 => ⟨S500000x16, .f32⟩
  | 59 => ⟨S500000x16, .f32⟩
  | 60 => ⟨S500000x16, .f32⟩
  | 61 => ⟨S_, .f32⟩
  | 62 => ⟨S500000x16, .f32⟩
  | 63 => ⟨S500000x16, .f32⟩
  | 64 => ⟨S500000x16, .f32⟩
  | 65 => ⟨S1x16, .f32⟩
  | 66 => ⟨S500000x16, .f32⟩
  | 67 => ⟨S500000x16, .f32⟩
  | 68 => ⟨S_, .f32⟩
  | 69 => ⟨S500000x16, .f32⟩
  | 70 => ⟨S500000x16, .f32⟩
  | 71 => ⟨S_, .i32⟩
  | 72 => ⟨S5000000, .i32⟩
  | 73 => ⟨S5000000, .i1⟩
  | 74 => ⟨S_, .i32⟩
  | 75 => ⟨S5000000, .i32⟩
  | 76 => ⟨S5000000, .i32⟩
  | 77 => ⟨S5000000, .i32⟩
  | 78 => ⟨S5000000x1, .i32⟩
  | 79 => ⟨S1, .i32⟩
  | 80 => ⟨S_, .i32⟩
  | 81 => ⟨S5000000x1, .i32⟩
  | 82 => ⟨S5000000x1, .i1⟩
  | 83 => ⟨S1x1, .i32⟩
  | 84 => ⟨S5000000x1, .i32⟩
  | 85 => ⟨S5000000x1, .i1⟩
  | 86 => ⟨S5000000x1, .i1⟩
  | 87 => ⟨S_, .i1⟩
  | 88 => ⟨S5000000, .i1⟩
  | 89 => ⟨S5000000x16, .f32⟩
  | 90 => ⟨S5000000x16, .i1⟩
  | 91 => ⟨S_, .f32⟩
  | 92 => ⟨S5000000x16, .f32⟩
  | 93 => ⟨S5000000x16, .f32⟩
  | 94 => ⟨S_, .f32⟩
  | 95 => ⟨S500000x16, .f32⟩
  | 96 => ⟨S5000000x1, .i32⟩
  | 97 => ⟨S500000x16, .f32⟩
  | 98 => ⟨S500000x16, .f32⟩
  | 99 => ⟨S1x16, .f32⟩
  | 100 => ⟨S500000x16, .f32⟩
  | 101 => ⟨S500000x16, .f32⟩
  | 102 => ⟨S500000x16, .f32⟩
  | 103 => ⟨S500000x16, .f32⟩
  | 104 => ⟨S_, .f32⟩
  | 105 => ⟨S500000x16, .f32⟩
  | 106 => ⟨S500000x16, .f32⟩
  | 107 => ⟨S500000x16, .f32⟩
  | 108 => ⟨S1x16, .f32⟩
  | 109 => ⟨S500000x16, .f32⟩
  | 110 => ⟨S500000x16, .f32⟩
  | 111 => ⟨S_, .f32⟩
  | 112 => ⟨S500000x16, .f32⟩
  | 113 => ⟨S500000x16, .f32⟩
  | 114 => ⟨S_, .i32⟩
  | 115 => ⟨S5000000, .i32⟩
  | 116 => ⟨S5000000, .i1⟩
  | 117 => ⟨S_, .i32⟩
  | 118 => ⟨S5000000, .i32⟩
  | 119 => ⟨S5000000, .i32⟩
  | 120 => ⟨S5000000, .i32⟩
  | 121 => ⟨S5000000x1, .i32⟩
  | 122 => ⟨S1, .i32⟩
  | 123 => ⟨S_, .i32⟩
  | 124 => ⟨S5000000x1, .i32⟩
  | 125 => ⟨S5000000x1, .i1⟩
  | 126 => ⟨S1x1, .i32⟩
  | 127 => ⟨S5000000x1, .i32⟩
  | _ => ⟨S500000x3, .f32⟩

abbrev hbmTy0_1 (i : Nat) : BufTy := match i % 128 with
  | 0 => ⟨S5000000x1, .i1⟩
  | 1 => ⟨S5000000x1, .i1⟩
  | 2 => ⟨S_, .i1⟩
  | 3 => ⟨S5000000, .i1⟩
  | 4 => ⟨S5000000x16, .f32⟩
  | 5 => ⟨S5000000x16, .i1⟩
  | 6 => ⟨S_, .f32⟩
  | 7 => ⟨S5000000x16, .f32⟩
  | 8 => ⟨S5000000x16, .f32⟩
  | 9 => ⟨S_, .f32⟩
  | 10 => ⟨S500000x16, .f32⟩
  | 11 => ⟨S5000000x1, .i32⟩
  | 12 => ⟨S500000x16, .f32⟩
  | 13 => ⟨S500000x1, .f32⟩
  | 14 => ⟨S1x1, .f32⟩
  | 15 => ⟨S500000x1, .f32⟩
  | 16 => ⟨S500000x1, .f32⟩
  | 17 => ⟨S500000x1, .f32⟩
  | 18 => ⟨S500000x1, .f32⟩
  | 19 => ⟨S500000x1, .f32⟩
  | 20 => ⟨S500000x1, .f32⟩
  | 21 => ⟨S_, .f32⟩
  | 22 => ⟨S500000x1, .f32⟩
  | 23 => ⟨S500000x1, .f32⟩
  | 24 => ⟨S_, .f32⟩
  | 25 => ⟨S500000x1, .f32⟩
  | 26 => ⟨S500000x1, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v9 : Ref sig .tc := ⟨.hbm, 50, rfl⟩
abbrev main_cst : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_call2_cst : Ref sig .tc := ⟨.hbm, 61, rfl⟩
abbrev main_call2_v0 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_call3_cst : Ref sig .tc := ⟨.hbm, 68, rfl⟩
abbrev main_call3_v0 : Ref sig .tc := ⟨.hbm, 69, rfl⟩
abbrev main_v24 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_call4_cst : Ref sig .tc := ⟨.hbm, 91, rfl⟩
abbrev main_call4_v15 : Ref sig .tc := ⟨.hbm, 92, rfl⟩
abbrev main_v25 : Ref sig .tc := ⟨.hbm, 93, rfl⟩
abbrev main_cst_0 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_call5_cst : Ref sig .tc := ⟨.hbm, 104, rfl⟩
abbrev main_call5_v0 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_call6_cst : Ref sig .tc := ⟨.hbm, 111, rfl⟩
abbrev main_call6_v0 : Ref sig .tc := ⟨.hbm, 112, rfl⟩
abbrev main_v40 : Ref sig .tc := ⟨.hbm, 113, rfl⟩
abbrev main_call7_c : Ref sig .tc := ⟨.hbm, 114, rfl⟩
abbrev main_call7_v0 : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_c_1 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_v8 : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_3 : Ref sig .tc := ⟨.hbm, 130, rfl⟩
abbrev main_call7_v12 : Ref sig .tc := ⟨.hbm, 131, rfl⟩
abbrev main_call7_v13 : Ref sig .tc := ⟨.hbm, 132, rfl⟩
abbrev main_call7_v14 : Ref sig .tc := ⟨.hbm, 133, rfl⟩
abbrev main_call7_cst : Ref sig .tc := ⟨.hbm, 134, rfl⟩
abbrev main_call7_v15 : Ref sig .tc := ⟨.hbm, 135, rfl⟩
abbrev main_v41 : Ref sig .tc := ⟨.hbm, 136, rfl⟩
abbrev main_cst_1 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_cst_2 : Ref sig .tc := ⟨.hbm, 149, rfl⟩
abbrev main_v53 : Ref sig .tc := ⟨.hbm, 150, rfl⟩
abbrev main_v54 : Ref sig .tc := ⟨.hbm, 151, rfl⟩
abbrev main_cst_3 : Ref sig .tc := ⟨.hbm, 152, rfl⟩
abbrev main_v55 : Ref sig .tc := ⟨.hbm, 153, rfl⟩
abbrev main_v56 : Ref sig .tc := ⟨.hbm, 154, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  bcast_S_S500000x3 : S_.BroadcastsInDim S500000x3 (![] : Fin 0 → Fin S500000x3.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  reducesTo_S5000000x1_S5000000_d1 : S5000000x1.ReducesTo [1] S5000000
  h_S_ : 0 < S_.numel
  bcast_S5000000_S5000000x3_0 : S5000000.BroadcastsInDim S5000000x3 (![0] : Fin 1 → Fin S5000000x3.rank)
  bcast_S_S5000000x3 : S_.BroadcastsInDim S5000000x3 (![] : Fin 0 → Fin S5000000x3.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S5000000_S5000000x16_0 : S5000000.BroadcastsInDim S5000000x16 (![0] : Fin 1 → Fin S5000000x16.rank)
  bcast_S_S5000000x16 : S_.BroadcastsInDim S5000000x16 (![] : Fin 0 → Fin S5000000x16.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S500000x3_S3x3_S500000x3_1_0_0_1_n_n_wf : DotDims.WF S500000x3 S3x3 S500000x3 [1] [0] [0] [1] [] []
  gather_S500000x3_S5000000x1_S5000000x3_1_0_n_n_0_1_13_wf : GatherDims.WF S500000x3 S5000000x1 S5000000x3 [1] [0] [] [0] [] 1 ![1, 3]
  scatter_S500000x3_S5000000x1_S5000000x3_1_0_0_1_wf : ScatterDims.WF S500000x3 S5000000x1 S5000000x3 [1] [0] [0] 1
  dot_S500000x3_S3x16_S500000x16_1_0_0_1_n_n_wf : DotDims.WF S500000x3 S3x16 S500000x16 [1] [0] [0] [1] [] []
  dot_S500000x16_S16x16_S500000x16_1_0_0_1_n_n_wf : DotDims.WF S500000x16 S16x16 S500000x16 [1] [0] [0] [1] [] []
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S500000x16_S16x1_S500000x1_1_0_0_1_n_n_wf : DotDims.WF S500000x16 S16x1 S500000x1 [1] [0] [0] [1] [] []

variable [Facts₀]

def dot_S500000x3_S3x3_S500000x3_1_0_0_1_n_n : DotDims S500000x3 S3x3 S500000x3 where
  lhsContracting := [1]
  rhsContracting := [0]
  lhsNonContracting := [0]
  rhsNonContracting := [1]
  lhsBatch := []
  rhsBatch := []
  wf := dot_S500000x3_S3x3_S500000x3_1_0_0_1_n_n_wf
def gather_S500000x3_S5000000x1_S5000000x3_1_0_n_n_0_1_13 : GatherDims S500000x3 S5000000x1 S5000000x3 where
  offsetDims := [1]
  collapsedSliceDims := [0]
  operandBatchingDims := []
  startIndicesBatchingDims := []
  startIndexMap := [0]
  indexVectorDim := 1
  sliceSizes := ![1, 3]
  wf := gather_S500000x3_S5000000x1_S5000000x3_1_0_n_n_0_1_13_wf
def scatter_S500000x3_S5000000x1_S5000000x3_1_0_0_1 : ScatterDims S500000x3 S5000000x1 S5000000x3 where
  updateWindowDims := [1]
  insertedWindowDims := [0]
  scatterDimsToOperandDims := [0]
  indexVectorDim := 1
  wf := scatter_S500000x3_S5000000x1_S5000000x3_1_0_0_1_wf
def dot_S500000x3_S3x16_S500000x16_1_0_0_1_n_n : DotDims S500000x3 S3x16 S500000x16 where
  lhsContracting := [1]
  rhsContracting := [0]
  lhsNonContracting := [0]
  rhsNonContracting := [1]
  lhsBatch := []
  rhsBatch := []
  wf := dot_S500000x3_S3x16_S500000x16_1_0_0_1_n_n_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf

class Facts : Prop extends Facts₀ where

variable [Facts]
-- ==== Proof.SageSpec.lean ====
/-
  The mathematics both programs compute, stated once over the extended reals, index by index.

  One SAGE layer on node features `x : n × d` with edge lists `src`, `dst`:
    h   = relu (x · pw + pb)                       (`proj`: a row times a matrix, plus a bias row, clamped at zero)
    agg = scatter-add over dst of the rows h[src]  (carried as an opaque function `agg` of `h`: both programs run the
                                                    very same host operations for it, so it is never opened)
    out = act (agg · lw + x · rw + lb)             (`lin2`, then `max · 0` or the logistic function)
  Three layers are stacked (`net`).  Sums of extended reals commute and associate with no side condition, so the two
  groupings `(a + b) + c` and `(a + c) + b` of the three summands of `out` agree everywhere (`lin2_comm`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- An `n × d` array of extended reals. -/
abbrev Mat (n d : ℕ) : Type := (⟨2, ![n, d]⟩ : Shape).Idx → EReal
/-- A length-`d` row of extended reals. -/
abbrev Row (d : ℕ) : Type := (⟨1, ![d]⟩ : Shape).Idx → EReal

variable {n d e : ℕ}

/-- Entry `(i, j)` of the matrix product `x · w`: the sum over the shared axis. -/
def mm (x : Mat n d) (w : Mat d e) : Mat n e :=
  fun i => ∑ k : Fin d, x (ix2 (i 0) k) * w (ix2 k (i 1))

/-- The f32 zero word, kept as a word: both programs clamp against the same one. -/
abbrev zeroW : EReal := Ideal.ofBits .f32 0x00000000#32

/-- `relu (x · w + b)`, the bias added along rows. -/
def proj (x : Mat n d) (w : Mat d e) (b : Row e) : Mat n e :=
  fun i => max (mm x w i + b (ix1 (i 1))) zeroW

/-- `agg · lw + x · rw + lb`: the two products first, the bias last. -/
def lin2 (agg x : Mat n d) (lw : Mat d e) (lb : Row e) (rw : Mat d e) : Mat n e :=
  fun i => (mm agg lw i + mm x rw i) + lb (ix1 (i 1))

/-- The same three summands with the bias in the middle. -/
theorem lin2_comm (agg x : Mat n d) (lw : Mat d e) (lb : Row e) (rw : Mat d e) (i : (⟨2, ![n, e]⟩ : Shape).Idx) :
    (mm agg lw i + lb (ix1 (i 1))) + mm x rw i = lin2 agg x lw lb rw i :=
  add_right_comm _ _ _

/-- A combine step ending in `relu`. -/
def combRelu (agg x : Mat n d) (lw : Mat d e) (lb : Row e) (rw : Mat d e) : Mat n e :=
  fun i => max (lin2 agg x lw lb rw i) zeroW

/-- A combine step ending in the logistic function `1 / (1 + e^(-y))`. -/
def combSig (agg x : Mat n d) (lw : Mat d e) (lb : Row e) (rw : Mat d e) : Mat n e :=
  fun i => Ideal.logistic (lin2 agg x lw lb rw i)

/-- The three stacked layers, over ANY aggregation steps `agg₃` (three features per node) and `agg₁₆` (sixteen),
    each a function of the projected features and the two edge lists. -/
def net {N : ℕ} {I : Type} (agg₃ : Mat N 3 → I → I → Mat N 3) (agg₁₆ : Mat N 16 → I → I → Mat N 16) (src dst : I)
    (x : Mat N 3) (p1w : Mat 3 3) (p1b : Row 3) (l1w : Mat 3 16) (l1b : Row 16) (r1w : Mat 3 16)
    (p2w : Mat 16 16) (p2b : Row 16) (l2w : Mat 16 16) (l2b : Row 16) (r2w : Mat 16 16)
    (p3w : Mat 16 16) (p3b : Row 16) (l3w : Mat 16 1) (l3b : Row 1) (r3w : Mat 16 1) : Mat N 1 :=
  let y1 := combRelu (agg₃ (proj x p1w p1b) src dst) x l1w l1b r1w
  let y2 := combRelu (agg₁₆ (proj y1 p2w p2b) src dst) y1 l2w l2b r2w
  combSig (agg₁₆ (proj y2 p3w p3b) src dst) y2 l3w l3b r3w

end Cert.Sage

end
-- ==== Proof.KHost.lean ====
/-
  The host stretches between the kernel program's regions, each read as ONE function of what it consumes:
  the two edge lists cut out of the edge array, and per layer the gather of the projected rows at the sources
  followed by their scatter-add into the targets.  The gather and the scatter-add are never opened: the reference
  runs the same operations, and only the equality of what goes INTO them is ever needed.
-/
import proofs.«412034_j25769804311_1_alg».proof.Proof.Gen.KernelIdeal.Launch
import Idealize.ShloMosaic.Lib.StableHlo.Run
import Idealize.ShloMosaic.PureOps.Ideal

noncomputable section

namespace Cert.KernelIdeal.Val

open Idealize.ShloMosaic Idealize.ShloMosaic.TcCoe Idealize.SL.Sem Idealize.ShloMosaic.StableHlo
open Cert.KernelIdeal Cert.KernelIdeal.Gen

/-- The source list: row 0 of the edge array. -/
def srcOf (ei : IVec S2x5000000 32) : IVec S5000000 32 :=
  shapeCast S5000000 (extractStridedSlice S1x5000000 ![0, 0] ei slices_S2x5000000_S1x5000000_0_0) shapeCasts_S1x5000000_S5000000
/-- The target list: row 1 of the edge array. -/
def dstOf (ei : IVec S2x5000000 32) : IVec S5000000 32 :=
  shapeCast S5000000 (extractStridedSlice S1x5000000 ![1, 0] ei slices_S2x5000000_S1x5000000_1_0) shapeCasts_S1x5000000_S5000000

/-- A node index as jnp.take reads it: a negative one is shifted up by the node count once; as a column. -/
def wrapIdx (src : IVec S5000000 32) : IVec S5000000x1 32 :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 500000#32))) src)
/-- Whether the shifted index names a node. -/
def inRange (src : IVec S5000000 32) : IVec S5000000 1 :=
  Host.reduce IntOp.andi
    (andi (cmpi .sge (wrapIdx src) (broadcastInDim S5000000x1 ![] bcast_S_S5000000x1 (constantI S_ 32 0#32)))
      (cmpi .sle (wrapIdx src) (broadcastInDim S5000000x1 ![0, 1] bcast_S1x1_S5000000x1_0_1
        (broadcastInDim S1x1 ![1] bcast_S1_S1x1_1 (constantI S1 32 499999#32)))))
    (constantI S_ 1 1#1) reducesTo_S5000000x1_S5000000_d1 h_S_

/-- The rows of `h` at the sources (three features): the gathered row where the index names a node, the fill word elsewhere. -/
def take3 (h : FVec Ideal S500000x3 .f32) (src : IVec S5000000 32) : FVec Ideal S5000000x3 .f32 :=
  select (broadcastInDim S5000000x3 ![0] bcast_S5000000_S5000000x3_0 (inRange src))
    (Host.gather gather_S500000x3_S5000000x1_S5000000x3_1_0_n_n_0_1_13 h (wrapIdx src))
    (broadcastInDim S5000000x3 ![] bcast_S_S5000000x3 (constant S_ .f32 0x7FC00000#32))
/-- Those rows summed into their targets, from zero (three features). -/
def agg3 (h : FVec Ideal S500000x3 .f32) (src dst : IVec S5000000 32) : FVec Ideal S500000x3 .f32 :=
  Host.scatterAdd scatter_S500000x3_S5000000x1_S5000000x3_1_0_0_1
    (broadcastInDim S500000x3 ![] bcast_S_S500000x3 (constant S_ .f32 0x00000000#32))
    (broadcastInDim S5000000x1 ![0] bcast_S5000000_S5000000x1_0 dst) (take3 h src)

/-- The rows of `h` at the sources (sixteen features). -/
def take16 (h : FVec Ideal S500000x16 .f32) (src : IVec S5000000 32) : FVec Ideal S5000000x16 .f32 :=
  select (broadcastInDim S5000000x16 ![0] bcast_S5000000_S5000000x16_0 (inRange src))
    (Host.gather gather_S500000x16_S5000000x1_S5000000x16_1_0_n_n_0_1_116 h (wrapIdx src))
    (broadcastInDim S5000000x16 ![] bcast_S_S5000000x16 (constant S_ .f32 0x7FC00000#32))
/-- Those rows summed into their targets, from zero (sixteen features). -/
def agg16 (h : FVec Ideal S500000x16 .f32) (src dst : IVec S5000000 32) : FVec Ideal S500000x16 .f32 :=
  Host.scatterAdd scatter_S500000x16_S5000000x1_S5000000x16_1_0_0_1
    (broadcastInDim S500000x16 ![] bcast_S_S500000x16 (constant S_ .f32 0x00000000#32))
    (broadcastInDim S5000000x1 ![0] bcast_S5000000_S5000000x1_0 dst) (take16 h src)

/-! The gather's operations sit in a called function, whose operands are read and whose result is written through a
    transport along the buffer's type; at a literal buffer the transport is the identity. -/

universe u
/-- A transport and its inverse cancel. -/
theorem cast_cast_self {α β : Sort u} (h1 : α = β) (h2 : β = α) (a : α) : cast h2 (cast h1 a) = a := by subst h1; rfl

theorem ofBuf_v1 (h1 : main_v1.ty = (⟨S5000000, .i32⟩ : BufTy)) (h2 h3) (v : main_v1.ty.Contents (Elt Ideal)) :
    (TRef.of main_v1 h1 h2 h3 : TRef sig ⟨S5000000, .i32⟩).ofBuf v = v := rfl
theorem ofBuf_v4 (h1 : main_v4.ty = (⟨S500000x3, .f32⟩ : BufTy)) (h2 h3) (v : main_v4.ty.Contents (Elt Ideal)) :
    (TRef.of main_v4 h1 h2 h3 : TRef sig ⟨S500000x3, .f32⟩).ofBuf v = v := rfl
theorem toBuf_v5 (h1 : main_v5.ty = (⟨S5000000x3, .f32⟩ : BufTy)) (h2 h3) (v : (⟨S5000000x3, .f32⟩ : BufTy).Contents (Elt Ideal)) :
    (TRef.of main_v5 h1 h2 h3 : TRef sig ⟨S5000000x3, .f32⟩).toBuf v = v := rfl
theorem ofBuf_v10 (h1 : main_v10.ty = (⟨S500000x16, .f32⟩ : BufTy)) (h2 h3) (v : main_v10.ty.Contents (Elt Ideal)) :
    (TRef.of main_v10 h1 h2 h3 : TRef sig ⟨S500000x16, .f32⟩).ofBuf v = v := rfl
theorem toBuf_v11 (h1 : main_v11.ty = (⟨S5000000x16, .f32⟩ : BufTy)) (h2 h3) (v : (⟨S5000000x16, .f32⟩ : BufTy).Contents (Elt Ideal)) :
    (TRef.of main_v11 h1 h2 h3 : TRef sig ⟨S5000000x16, .f32⟩).toBuf v = v := rfl
theorem ofBuf_v16 (h1 : main_v16.ty = (⟨S500000x16, .f32⟩ : BufTy)) (h2 h3) (v : main_v16.ty.Contents (Elt Ideal)) :
    (TRef.of main_v16 h1 h2 h3 : TRef sig ⟨S500000x16, .f32⟩).ofBuf v = v := rfl
theorem toBuf_v17 (h1 : main_v17.ty = (⟨S5000000x16, .f32⟩ : BufTy)) (h2 h3) (v : (⟨S5000000x16, .f32⟩ : BufTy).Contents (Elt Ideal)) :
    (TRef.of main_v17 h1 h2 h3 : TRef sig ⟨S5000000x16, .f32⟩).toBuf v = v := rfl

section Pieces
variable (V : Valuation τ sig (Elt Ideal))

/-- Layer 1's gather, at any contents: the take's result buffer holds `take3` of the projected features and the source list. -/
theorem take_1 : StableHlo.after (hostOps1 (F := Ideal)) V (Proc.devRef .tc main_v5)
    = take3 (V (Proc.devRef .tc main_v4)) (V (Proc.devRef .tc main_v1)) := by
  after_results_simp
  simp only [cast_cast_self]
  rw [toBuf_v5, ofBuf_v1, ofBuf_v4]
  unfold take3 inRange wrapIdx
  rfl
/-- … and the gather writes nothing into the target list's buffer. -/
theorem keep_1 : StableHlo.after (hostOps1 (F := Ideal)) V (Proc.devRef .tc main_v3) = V (Proc.devRef .tc main_v3) := by
  after_results_simp
/-- Layer 1's scatter-add, at any contents: from zero, the take's result summed into the targets. -/
theorem tail_1 : StableHlo.after (hostOps1_1 (F := Ideal)) V (Proc.devRef .tc main_v8)
    = (Host.scatterAdd scatter_S500000x3_S5000000x1_S5000000x3_1_0_0_1
        (broadcastInDim S500000x3 ![] bcast_S_S500000x3 (constant S_ .f32 0x00000000#32))
        (broadcastInDim S5000000x1 ![0] bcast_S5000000_S5000000x1_0 (V (Proc.devRef .tc main_v3))) (V (Proc.devRef .tc main_v5))
        : FVec Ideal S500000x3 .f32) := by
  after_results

/-- Layer 2's gather, at any contents: the take's result buffer holds `take16` of the projected features and the source list. -/
theorem take_2 : StableHlo.after (hostOps3 (F := Ideal)) V (Proc.devRef .tc main_v11)
    = take16 (V (Proc.devRef .tc main_v10)) (V (Proc.devRef .tc main_v1)) := by
  after_results_simp
  simp only [cast_cast_self]
  rw [toBuf_v11, ofBuf_v1, ofBuf_v10]
  unfold take16 inRange wrapIdx
  rfl
/-- … and the gather writes nothing into the target list's buffer. -/
theorem keep_2 : StableHlo.after (hostOps3 (F := Ideal)) V (Proc.devRef .tc main_v3) = V (Proc.devRef .tc main_v3) := by
  after_results_simp
/-- Layer 2's scatter-add, at any contents: from zero, the take's result summed into the targets. -/
theorem tail_2 : StableHlo.after (hostOps3_1 (F := Ideal)) V (Proc.devRef .tc main_v14)
    = (Host.scatterAdd scatter_S500000x16_S5000000x1_S5000000x16_1_0_0_1
        (broadcastInDim S500000x16 ![] bcast_S_S500000x16 (constant S_ .f32 0x00000000#32))
        (broadcastInDim S5000000x1 ![0] bcast_S5000000_S5000000x1_0 (V (Proc.devRef .tc main_v3))) (V (Proc.devRef .tc main_v11))
        : FVec Ideal S500000x16 .f32) := by
  after_results

/-- Layer 3's gather, at any contents: the take's result buffer holds `take16` of the projected features and the source list. -/
theorem take_3 : StableHlo.after (hostOps5 (F := Ideal)) V (Proc.devRef .tc main_v17)
    = take16 (V (Proc.devRef .tc main_v16)) (V (Proc.devRef .tc main_v1)) := by
  after_results_simp
  simp only [cast_cast_self]
  rw [toBuf_v17, ofBuf_v1, ofBuf_v16]
  unfold take16 inRange wrapIdx
  rfl
/-- … and the gather writes nothing into the target list's buffer. -/
theorem keep_3 : StableHlo.after (hostOps5 (F := Ideal)) V (Proc.devRef .tc main_v3) = V (Proc.devRef .tc main_v3) := by
  after_results_simp
/-- Layer 3's scatter-add, at any contents: from zero, the take's result summed into the targets. -/
theorem tail_3 : StableHlo.after (hostOps5_1 (F := Ideal)) V (Proc.devRef .tc main_v20)
    = (Host.scatterAdd scatter_S500000x16_S5000000x1_S5000000x16_1_0_0_1
        (broadcastInDim S500000x16 ![] bcast_S_S500000x16 (constant S_ .f32 0x00000000#32))
        (broadcastInDim S5000000x1 ![0] bcast_S5000000_S5000000x1_0 (V (Proc.devRef .tc main_v3))) (V (Proc.devRef .tc main_v17))
        : FVec Ideal S500000x16 .f32) := by
  after_results

end Pieces

variable (W : Valuation τ sig (Elt Ideal))

/-- After the first stretch the source list's buffer holds row 0 of the edge array. -/
theorem host0_src : StableHlo.after (hostOps0 (F := Ideal)) W (Proc.devRef .tc main_v1) = srcOf (W (Proc.devRef .tc main_arg1)) := by
  after_results; rfl
/-- … and the target list's buffer row 1. -/
theorem host0_dst : StableHlo.after (hostOps0 (F := Ideal)) W (Proc.devRef .tc main_v3) = dstOf (W (Proc.devRef .tc main_arg1)) := by
  after_results; rfl

/-- Layer 1's gather and scatter-add: the aggregate is `agg3` of the projected features and the two lists as the stretch finds them. -/
theorem host1 : StableHlo.after (hostOps1_1 (F := Ideal)) (StableHlo.after hostOps1 W) (Proc.devRef .tc main_v8)
    = agg3 (W (Proc.devRef .tc main_v4)) (W (Proc.devRef .tc main_v1)) (W (Proc.devRef .tc main_v3)) := by
  rw [tail_1, take_1, keep_1]
  rfl
/-- Layer 2's. -/
theorem host3 : StableHlo.after (hostOps3_1 (F := Ideal)) (StableHlo.after hostOps3 W) (Proc.devRef .tc main_v14)
    = agg16 (W (Proc.devRef .tc main_v10)) (W (Proc.devRef .tc main_v1)) (W (Proc.devRef .tc main_v3)) := by
  rw [tail_2, take_2, keep_2]
  rfl
/-- Layer 3's. -/
theorem host5 : StableHlo.after (hostOps5_1 (F := Ideal)) (StableHlo.after hostOps5 W) (Proc.devRef .tc main_v20)
    = agg16 (W (Proc.devRef .tc main_v16)) (W (Proc.devRef .tc main_v1)) (W (Proc.devRef .tc main_v3)) := by
  rw [tail_3, take_3, keep_3]
  rfl

end Cert.KernelIdeal.Val

end
-- ==== Proof.KWalk.lean ====
/-
  One buffer read across the program's boundaries.  A stretch of host operations changes only the buffers its
  operations write, and a region changes only its output array; so what a buffer holds at a boundary is what it held
  at the boundary before, unless the piece in between writes it.  Chained from the launch, this reads every argument
  array, and the two edge lists, at whichever boundary a later piece consumes them.
-/
import proofs.«412034_j25769804311_1_alg».proof.Proof.Gen.KernelIdeal.Frame
import Idealize.ShloMosaic.Lib.StableHlo.Run
import Idealize.ShloMosaic.PureOps.Ideal
import Mathlib.Tactic.FinCases

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

/-- An operation whose one written buffer is the reference `y` writes inside any list of references that holds `y`. -/
theorem writes_in {L : List (Ref sig .tc)} {y : Ref sig .tc} {op : HloOp τ sig (Elt Ideal)}
    (h : op.writes = {Proc.devRef .tc y}) (hy : y ∈ L) :
    op.writes ⊆ (L.map (Proc.devRef (τ := τ) .tc)).toFinset := by
  rw [h, Finset.singleton_subset_iff, List.mem_toFinset]
  exact List.mem_map_of_mem hy

/-! ## What each host stretch writes -/

/-- The first stretch writes the two slices of the edge array and their reshapes. -/
abbrev wr0 : List (Ref sig .tc) :=
  [main_v0, main_v1, main_v2, main_v3]
theorem hostOps0_wr : (hostOps0 (F := Ideal)).Forall fun op => op.writes ⊆ (wr0.map (Proc.devRef (τ := τ) .tc)).toFinset := by
  simp only [hostOps0, List.Forall]
  repeat' apply And.intro
  all_goals exact writes_in rfl (by decide)

/-- Layer 1's gather writes its own intermediate values and the gathered rows. -/
abbrev wr1 : List (Ref sig .tc) :=
  [main_call0_c, main_call0_v0, main_call0_v1, main_call0_c_0, main_call0_v2, main_call0_v3,
    main_call0_v4, main_call0_v5, main_call0_c_1, main_call0_c_2, main_call0_v6, main_call0_v7, main_call0_v8,
    main_call0_v9, main_call0_v10, main_call0_v11, main_call0_c_3, main_call0_v12, main_call0_v13, main_call0_v14,
    main_call0_cst, main_call0_v15, main_v5]
theorem hostOps1_wr : (hostOps1 (F := Ideal)).Forall fun op => op.writes ⊆ (wr1.map (Proc.devRef (τ := τ) .tc)).toFinset := by
  simp only [hostOps1, List.Forall]
  repeat' apply And.intro
  all_goals exact writes_in rfl (by decide)

/-- Layer 1's scatter-add writes the zero array, the target column and the aggregate. -/
abbrev wr1s : List (Ref sig .tc) :=
  [main_cst, main_v6, main_v7, main_v8]
theorem hostOps1_1_wr : (hostOps1_1 (F := Ideal)).Forall fun op => op.writes ⊆ (wr1s.map (Proc.devRef (τ := τ) .tc)).toFinset := by
  simp only [hostOps1_1, List.Forall]
  repeat' apply And.intro
  all_goals exact writes_in rfl (by decide)

/-- Layer 2's gather. -/
abbrev wr3 : List (Ref sig .tc) :=
  [main_call1_c, main_call1_v0, main_call1_v1, main_call1_c_0, main_call1_v2, main_call1_v3,
    main_call1_v4, main_call1_v5, main_call1_c_1, main_call1_c_2, main_call1_v6, main_call1_v7, main_call1_v8,
    main_call1_v9, main_call1_v10, main_call1_v11, main_call1_c_3, main_call1_v12, main_call1_v13, main_call1_v14,
    main_call1_cst, main_call1_v15, main_v11]
theorem hostOps3_wr : (hostOps3 (F := Ideal)).Forall fun op => op.writes ⊆ (wr3.map (Proc.devRef (τ := τ) .tc)).toFinset := by
  simp only [hostOps3, List.Forall]
  repeat' apply And.intro
  all_goals exact writes_in rfl (by decide)

/-- Layer 2's scatter-add. -/
abbrev wr3s : List (Ref sig .tc) :=
  [main_cst_0, main_v12, main_v13, main_v14]
theorem hostOps3_1_wr : (hostOps3_1 (F := Ideal)).Forall fun op => op.writes ⊆ (wr3s.map (Proc.devRef (τ := τ) .tc)).toFinset := by
  simp only [hostOps3_1, List.Forall]
  repeat' apply And.intro
  all_goals exact writes_in rfl (by decide)

/-- Layer 3's gather. -/
abbrev wr5 : List (Ref sig .tc) :=
  [main_call2_c, main_call2_v0, main_call2_v1, main_call2_c_0, main_call2_v2, main_call2_v3,
    main_call2_v4, main_call2_v5, main_call2_c_1, main_call2_c_2, main_call2_v6, main_call2_v7, main_call2_v8,
    main_call2_v9, main_call2_v10, main_call2_v11, main_call2_c_3, main_call2_v12, main_call2_v13, main_call2_v14,
    main_call2_cst, main_call2_v15, main_v17]
theorem hostOps5_wr : (hostOps5 (F := Ideal)).Forall fun op => op.writes ⊆ (wr5.map (Proc.devRef (τ := τ) .tc)).toFinset := by
  simp only [hostOps5, List.Forall]
  repeat' apply And.intro
  all_goals exact writes_in rfl (by decide)

/-- Layer 3's scatter-add. -/
abbrev wr5s : List (Ref sig .tc) :=
  [main_cst_1, main_v18, main_v19, main_v20]
theorem hostOps5_1_wr : (hostOps5_1 (F := Ideal)).Forall fun op => op.writes ⊆ (wr5s.map (Proc.devRef (τ := τ) .tc)).toFinset := by
  simp only [hostOps5_1, List.Forall]
  repeat' apply And.intro
  all_goals exact writes_in rfl (by decide)

variable (m : (ℓ : Loc nD τ sig) → Buf (Elt Ideal) ℓ) (ρ : Dev nD → PrngReg) (c : Dev nD)

/-! ## One step back across a host stretch: a buffer the stretch does not write -/

theorem W1_of (b : Ref sig .tc) (hb : b ∉ wr0) :
    W1 (F := Ideal) m ρ c (Proc.devRef .tc b) = W0 m ρ c (Proc.devRef .tc b) :=
  after_of_writes_sub hostOps0 _ hostOps0_wr hb

theorem W3_of (b : Ref sig .tc) (hb : b ∉ wr1) :
    W3 (F := Ideal) m ρ c (Proc.devRef .tc b) = W2 m ρ c (Proc.devRef .tc b) :=
  after_of_writes_sub hostOps1 _ hostOps1_wr hb

theorem W4_of (b : Ref sig .tc) (hb : b ∉ wr1s) :
    W4 (F := Ideal) m ρ c (Proc.devRef .tc b) = W3 m ρ c (Proc.devRef .tc b) :=
  after_of_writes_sub hostOps1_1 _ hostOps1_1_wr hb

theorem W7_of (b : Ref sig .tc) (hb : b ∉ wr3) :
    W7 (F := Ideal) m ρ c (Proc.devRef .tc b) = W6 m ρ c (Proc.devRef .tc b) :=
  after_of_writes_sub hostOps3 _ hostOps3_wr hb

theorem W8_of (b : Ref sig .tc) (hb : b ∉ wr3s) :
    W8 (F := Ideal) m ρ c (Proc.devRef .tc b) = W7 m ρ c (Proc.devRef .tc b) :=
  after_of_writes_sub hostOps3_1 _ hostOps3_1_wr hb

theorem W11_of (b : Ref sig .tc) (hb : b ∉ wr5) :
    W11 (F := Ideal) m ρ c (Proc.devRef .tc b) = W10 m ρ c (Proc.devRef .tc b) :=
  after_of_writes_sub hostOps5 _ hostOps5_wr hb

theorem W12_of (b : Ref sig .tc) (hb : b ∉ wr5s) :
    W12 (F := Ideal) m ρ c (Proc.devRef .tc b) = W11 m ρ c (Proc.devRef .tc b) :=
  after_of_writes_sub hostOps5_1 _ hostOps5_1_wr hb

/-! ## One step back across a region: any buffer but its output array -/

/-- Region 0 changes its output array only: an input array ends as it entered, and so does every buffer that is none of
    the region's arrays. -/
theorem W2_keep (b : Ref sig .tc) (hb : b ≠ main_v4) :
    W2 (F := Ideal) m ρ c (Proc.devRef .tc b) = W1 m ρ c (Proc.devRef .tc b) := by
  by_cases h : ∀ w, Pipeline.arrRef spec0 w ≠ b
  · exact W2_of_ne m ρ c b h
  obtain ⟨w, hw⟩ := not_forall.mp h
  have hw' : Pipeline.arrRef spec0 w = b := not_not.mp hw
  subst hw'
  fin_cases w
  · exact (W2_arr m ρ c 0).trans (((dat0 (V1 m ρ) c).arrAt_in 0 rfl _).trans (A_eq0 (V1 m ρ) c 0))
  · exact (W2_arr m ρ c 1).trans (((dat0 (V1 m ρ) c).arrAt_in 1 rfl _).trans (A_eq0 (V1 m ρ) c 1))
  · exact (W2_arr m ρ c 2).trans (((dat0 (V1 m ρ) c).arrAt_in 2 rfl _).trans (A_eq0 (V1 m ρ) c 2))
  · exact absurd rfl hb

/-- Region 1 changes its output array only: an input array ends as it entered, and so does every buffer that is none of
    the region's arrays. -/
theorem W5_keep (b : Ref sig .tc) (hb : b ≠ main_v9) :
    W5 (F := Ideal) m ρ c (Proc.devRef .tc b) = W4 m ρ c (Proc.devRef .tc b) := by
  by_cases h : ∀ w, Pipeline.arrRef spec1 w ≠ b
  · exact W5_of_ne m ρ c b h
  obtain ⟨w, hw⟩ := not_forall.mp h
  have hw' : Pipeline.arrRef spec1 w = b := not_not.mp hw
  subst hw'
  fin_cases w
  · exact (W5_arr m ρ c 0).trans (((dat1 (V4 m ρ) c).arrAt_in 0 rfl _).trans (A_eq1 (V4 m ρ) c 0))
  · exact (W5_arr m ρ c 1).trans (((dat1 (V4 m ρ) c).arrAt_in 1 rfl _).trans (A_eq1 (V4 m ρ) c 1))
  · exact (W5_arr m ρ c 2).trans (((dat1 (V4 m ρ) c).arrAt_in 2 rfl _).trans (A_eq1 (V4 m ρ) c 2))
  · exact (W5_arr m ρ c 3).trans (((dat1 (V4 m ρ) c).arrAt_in 3 rfl _).trans (A_eq1 (V4 m ρ) c 3))
  · exact (W5_arr m ρ c 4).trans (((dat1 (V4 m ρ) c).arrAt_in 4 rfl _).trans (A_eq1 (V4 m ρ) c 4))
  · exact absurd rfl hb

/-- Region 2 changes its output array only: an input array ends as it entered, and so does every buffer that is none of
    the region's arrays. -/
theorem W6_keep (b : Ref sig .tc) (hb : b ≠ main_v10) :
    W6 (F := Ideal) m ρ c (Proc.devRef .tc b) = W5 m ρ c (Proc.devRef .tc b) := by
  by_cases h : ∀ w, Pipeline.arrRef spec2 w ≠ b
  · exact W6_of_ne m ρ c b h
  obtain ⟨w, hw⟩ := not_forall.mp h
  have hw' : Pipeline.arrRef spec2 w = b := not_not.mp hw
  subst hw'
  fin_cases w
  · exact (W6_arr m ρ c 0).trans (((dat2 (V5 m ρ) c).arrAt_in 0 rfl _).trans (A_eq2 (V5 m ρ) c 0))
  · exact (W6_arr m ρ c 1).trans (((dat2 (V5 m ρ) c).arrAt_in 1 rfl _).trans (A_eq2 (V5 m ρ) c 1))
  · exact (W6_arr m ρ c 2).trans (((dat2 (V5 m ρ) c).arrAt_in 2 rfl _).trans (A_eq2 (V5 m ρ) c 2))
  · exact absurd rfl hb

/-- Region 3 changes its output array only: an input array ends as it entered, and so does every buffer that is none of
    the region's arrays. -/
theorem W9_keep (b : Ref sig .tc) (hb : b ≠ main_v15) :
    W9 (F := Ideal) m ρ c (Proc.devRef .tc b) = W8 m ρ c (Proc.devRef .tc b) := by
  by_cases h : ∀ w, Pipeline.arrRef spec3 w ≠ b
  · exact W9_of_ne m ρ c b h
  obtain ⟨w, hw⟩ := not_forall.mp h
  have hw' : Pipeline.arrRef spec3 w = b := not_not.mp hw
  subst hw'
  fin_cases w
  · exact (W9_arr m ρ c 0).trans (((dat3 (V8 m ρ) c).arrAt_in 0 rfl _).trans (A_eq3 (V8 m ρ) c 0))
  · exact (W9_arr m ρ c 1).trans (((dat3 (V8 m ρ) c).arrAt_in 1 rfl _).trans (A_eq3 (V8 m ρ) c 1))
  · exact (W9_arr m ρ c 2).trans (((dat3 (V8 m ρ) c).arrAt_in 2 rfl _).trans (A_eq3 (V8 m ρ) c 2))
  · exact (W9_arr m ρ c 3).trans (((dat3 (V8 m ρ) c).arrAt_in 3 rfl _).trans (A_eq3 (V8 m ρ) c 3))
  · exact (W9_arr m ρ c 4).trans (((dat3 (V8 m ρ) c).arrAt_in 4 rfl _).trans (A_eq3 (V8 m ρ) c 4))
  · exact absurd rfl hb

/-- Region 4 changes its output array only: an input array ends as it entered, and so does every buffer that is none of
    the region's arrays. -/
theorem W10_keep (b : Ref sig .tc) (hb : b ≠ main_v16) :
    W10 (F := Ideal) m ρ c (Proc.devRef .tc b) = W9 m ρ c (Proc.devRef .tc b) := by
  by_cases h : ∀ w, Pipeline.arrRef spec4 w ≠ b
  · exact W10_of_ne m ρ c b h
  obtain ⟨w, hw⟩ := not_forall.mp h
  have hw' : Pipeline.arrRef spec4 w = b := not_not.mp hw
  subst hw'
  fin_cases w
  · exact (W10_arr m ρ c 0).trans (((dat4 (V9 m ρ) c).arrAt_in 0 rfl _).trans (A_eq4 (V9 m ρ) c 0))
  · exact (W10_arr m ρ c 1).trans (((dat4 (V9 m ρ) c).arrAt_in 1 rfl _).trans (A_eq4 (V9 m ρ) c 1))
  · exact (W10_arr m ρ c 2).trans (((dat4 (V9 m ρ) c).arrAt_in 2 rfl _).trans (A_eq4 (V9 m ρ) c 2))
  · exact absurd rfl hb

end Cert.KernelIdeal.Val

end
-- ==== Proof.KRegion0.lean ====
/-
  The value of the first projection region: after its 100 grid points the output array holds
  `relu (x · w + b)`, entry by entry, of the three input arrays as they stand when the region is entered.

  Each grid point `t` takes rows `5000 t … 5000 t + 4999` of `x` (a `5000 × 3` block), the whole of `w` (`3 × 3`) and
  the whole of `b` (length 3), and writes rows `5000 t … 5000 t + 4999` of the output.  Entry `(p, q)` of what it writes is
  `max (∑ k, x_block (p, k) · w (k, q) + b q) 0`, which is entry `(5000 t + p, q)` of `relu (x · w + b)`; and the 100 row
  blocks tile the 500000 rows (row `r` lies in block `r / 5000`), so the array ends equal to `relu (x · w + b)` everywhere.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-! ## The product's operand indices, axis by axis

At output index `i` and contraction position `q` the left operand is read at `(i 0, q)` and the right at `(q, i 1)`. -/

theorem dotL0_ax0 (i : S5000x3.Idx) (q : dot_S5000x3_S3x3_S5000x3_1_0_0_1_n_n.contr.Idx) :
    (dot_S5000x3_S3x3_S5000x3_1_0_0_1_n_n.lhsIdx i q 0).val = (i 0).val := by
  unfold DotDims.lhsIdx
  rw [dif_neg (show ¬(0 : Fin S5000x3.rank) ∈ dot_S5000x3_S3x3_S5000x3_1_0_0_1_n_n.lhsBatch by decide),
    dif_pos (show (0 : Fin S5000x3.rank) ∈ dot_S5000x3_S3x3_S5000x3_1_0_0_1_n_n.lhsNonContracting by decide)]
  rfl

theorem dotL0_ax1 (i : S5000x3.Idx) (q : dot_S5000x3_S3x3_S5000x3_1_0_0_1_n_n.contr.Idx) :
    (dot_S5000x3_S3x3_S5000x3_1_0_0_1_n_n.lhsIdx i q 1).val = (q ⟨0, by decide⟩).val :=
  dot_S5000x3_S3x3_S5000x3_1_0_0_1_n_n.lhsIdx_val_of_single rfl i q

theorem dotR0_ax0 (i : S5000x3.Idx) (q : dot_S5000x3_S3x3_S5000x3_1_0_0_1_n_n.contr.Idx) :
    (dot_S5000x3_S3x3_S5000x3_1_0_0_1_n_n.rhsIdx i q 0).val = (q ⟨0, by decide⟩).val :=
  dot_S5000x3_S3x3_S5000x3_1_0_0_1_n_n.rhsIdx_val_of_single rfl i q

theorem dotR0_ax1 (i : S5000x3.Idx) (q : dot_S5000x3_S3x3_S5000x3_1_0_0_1_n_n.contr.Idx) :
    (dot_S5000x3_S3x3_S5000x3_1_0_0_1_n_n.rhsIdx i q 1).val = (i 1).val := by
  unfold DotDims.rhsIdx
  rw [dif_neg (show ¬(1 : Fin S3x3.rank) ∈ dot_S5000x3_S3x3_S5000x3_1_0_0_1_n_n.rhsBatch by decide),
    dif_pos (show (1 : Fin S3x3.rank) ∈ dot_S5000x3_S3x3_S5000x3_1_0_0_1_n_n.rhsNonContracting by decide)]
  rfl

/-- The block product into the zero accumulator, at `(p, q)`: the sum over the shared axis of row `p` of the left
    block times column `q` of the right. -/
theorem mm0_at {φ₁ φ₂ : FTy} (x : FVec Ideal S5000x3 φ₁) (w : FVec Ideal S3x3 φ₂) (p : Fin 5000) (q : Fin 3) :
    matmul dot_S5000x3_S3x3_S5000x3_1_0_0_1_n_n none x w (constant S5000x3 .f32 0x00000000#32) (ix2 p q)
      = ∑ k : Fin 3, x (ix2 p k) * w (ix2 k q) := by
  show FloatOps.matmul dot_S5000x3_S3x3_S5000x3_1_0_0_1_n_n none x w (constant S5000x3 .f32 0x00000000#32) (ix2 p q) = _
  rw [Ideal.matmul_constant_zero_apply,
    ← Equiv.sum_comp (ValueIdx.contrEquiv1 dot_S5000x3_S3x3_S5000x3_1_0_0_1_n_n 3 rfl rfl).symm]
  refine Finset.sum_congr rfl fun k _ => ?_
  have hk := ValueIdx.contrEquiv1_symm_val dot_S5000x3_S3x3_S5000x3_1_0_0_1_n_n 3 rfl rfl k
  have el : dot_S5000x3_S3x3_S5000x3_1_0_0_1_n_n.lhsIdx (ix2 p q)
      ((ValueIdx.contrEquiv1 dot_S5000x3_S3x3_S5000x3_1_0_0_1_n_n 3 rfl rfl).symm k) = ix2 p k :=
    funext fun a => Fin.ext (by
      match a with
      | ⟨0, _⟩ => exact dotL0_ax0 _ _
      | ⟨1, _⟩ => exact (dotL0_ax1 _ _).trans hk)
  have er : dot_S5000x3_S3x3_S5000x3_1_0_0_1_n_n.rhsIdx (ix2 p q)
      ((ValueIdx.contrEquiv1 dot_S5000x3_S3x3_S5000x3_1_0_0_1_n_n 3 rfl rfl).symm k) = ix2 k q :=
    funext fun a => Fin.ext (by
      match a with
      | ⟨0, _⟩ => exact (dotR0_ax0 _ _).trans hk
      | ⟨1, _⟩ => exact dotR0_ax1 _ _)
  rw [el, er]

/-- The bias row, given a leading unit axis and repeated down the 5000 rows, reads at `(p, q)` its entry `q`. -/
theorem bias0_at (b : Vec Ideal S3 .f32) (p : Fin 5000) (q : Fin 3) :
    broadcastTo S5000x3 (shapeCast S1x3 b shapeCasts_S3_S1x3) broadcasts_S1x3_S5000x3 (ix2 p q) = b (ix1 q) := by
  rw [broadcastTo_apply (s := S1x3) (t := S5000x3) _ broadcasts_S1x3_S5000x3 (ix2 p q) (ix2 (0 : Fin 1) q) (fun a => by
    match a with
    | ⟨0, _⟩ => rfl
    | ⟨1, _⟩ => rfl)]
  rw [shapeCast_addUnit_apply ![3] b shapeCasts_S3_S1x3 (ix2 (0 : Fin 1) q)]
  congr 1
  funext a
  match a with
  | ⟨0, _⟩ => rfl

/-- The body's stored value at `(p, q)`: the product's entry plus the bias entry, clamped below at zero. -/
theorem pay0_at (x0 : Vec Ideal S5000x3 .f32) (x1 : Vec Ideal S3x3 .f32) (x2 : Vec Ideal S3 .f32) (p : Fin 5000) (q : Fin 3) :
    k0_pay1 x0 x1 x2 (ix2 p q)
      = max ((∑ k : Fin 3, x0 (ix2 p k) * x1 (ix2 k q)) + x2 (ix1 q)) Cert.Sage.zeroW := by
  unfold k0_pay1
  show max (matmul (F := Ideal) dot_S5000x3_S3x3_S5000x3_1_0_0_1_n_n none (truncf .bf16 x0 bitsLt_bf16_f32) (truncf .bf16 x1 bitsLt_bf16_f32)
      (constant S5000x3 .f32 0x00000000#32) (ix2 p q)
    + broadcastTo S5000x3 (shapeCast S1x3 x2 shapeCasts_S3_S1x3) broadcasts_S1x3_S5000x3 (ix2 p q)) (Ideal.ofBits .f32 0x00000000#32) = _
  rw [mm0_at, bias0_at]
  rfl

/-! ## One block against the whole array

If a 5000-row block `x0` is rows `r p` of the array `X`, the body's value at `(p, q)` is `relu (X · W + B)` at `(r p, q)`. -/

theorem block_value0 (X : Cert.Sage.Mat 500000 3) (W : Cert.Sage.Mat 3 3) (B : Cert.Sage.Row 3)
    (x0 : Vec Ideal S5000x3 .f32) (x1 : Vec Ideal S3x3 .f32) (x2 : Vec Ideal S3 .f32) (r : Fin 5000 → Fin 500000)
    (h0 : ∀ (p : Fin 5000) (k : Fin 3), x0 (ix2 p k) = X (ix2 (r p) k)) (h1 : x1 = W) (h2 : x2 = B)
    (p : Fin 5000) (q : Fin 3) :
    k0_pay1 x0 x1 x2 (ix2 p q) = Cert.Sage.proj X W B (ix2 (r p) q) := by
  rw [pay0_at, h1, h2]
  show _ = max ((∑ k : Fin 3, X (ix2 (r p) k) * W (ix2 k q)) + B (ix1 q)) Cert.Sage.zeroW
  simp only [h0]

/-! ## The index maps over the grid -/

theorem hz0 : (![0, 0] : Fin 2 → Nat) = fun _ => 0 := funext fun a => by fin_cases a <;> rfl
theorem hz0' : (![0] : Fin 1 → Nat) = fun _ => 0 := funext fun a => by fin_cases a <;> rfl

/-- The index maps at each of the 100 grid points, by evaluation: the input block and the output block sit at block
    row `t`, column block 0; the weight and the bias are whole (block 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `relu (x · w + b)` of the arrays at the region's entry. -/
theorem flushed0_eq (c : Dev nD) (t : Fin cfg0.N) :
    (dat0 (F := Ideal) V c).flushed 3 t
      = ((cfg0.win 3).blk t).view.read (Elt Ideal) (Cert.Sage.proj (V c main_arg0) (V c main_arg2) (V c main_arg3)) := by
  show (cfg0.win 3).cut (grid0.coords t) ((dat0 (F := Ideal) V c).after 3 t) = _
  rw [after0_3]
  unfold out0_3
  rw [View.canon_unit_zero hz0]
  simp only [View.ld_unit_zero (S := S5000x3) hz0, View.ld_unit_zero (S := S3x3) hz0, View.ld_unit_zero (S := S3) hz0']
  obtain ⟨e00, e01, e10, e11, e20, e30, e31⟩ := idx_facts0 t
  have ht : t.val < 100 := t.isLt
  have h0 : ∀ (p : Fin 5000) (k : Fin 3),
      iblk0 V c 0 t (ix2 p k) = V c main_arg0 (ix2 (⟨t.val * 5000 + p.val, by have := p.isLt; omega⟩ : Fin 500000) k) := fun p k => by
    show V c main_arg0 (((cfg0.win 0).blk t).view.emb (ix2 p k)) = _
    congr 1; funext a; apply Fin.ext
    match a with
    | ⟨0, _⟩ => show win0_0.index t (0 : Fin 2) * 5000 + 1 * p.val = t.val * 5000 + p.val; omega
    | ⟨1, _⟩ => show win0_0.index t (1 : Fin 2) * 3 + 1 * k.val = k.val; omega
  have h1 : iblk0 V c 1 t = V c main_arg2 := funext fun y => by
    show V c main_arg2 (((cfg0.win 1).blk t).view.emb y) = V c main_arg2 y
    congr 1; funext a; apply Fin.ext
    match a with
    | ⟨0, _⟩ => show win0_1.index t (0 : Fin 2) * 3 + 1 * (y 0).val = (y 0).val; omega
    | ⟨1, _⟩ => show win0_1.index t (1 : Fin 2) * 3 + 1 * (y 1).val = (y 1).val; omega
  have h2 : iblk0 V c 2 t = V c main_arg3 := funext fun y => by
    show V c main_arg3 (((cfg0.win 2).blk t).view.emb y) = V c main_arg3 y
    congr 1; funext a; apply Fin.ext
    match a with
    | ⟨0, _⟩ => show win0_2.index t (0 : Fin 1) * 3 + 1 * (y 0).val = (y 0).val; omega
  funext j
  have key := block_value0 (V c main_arg0) (V c main_arg2) (V c main_arg3) (iblk0 V c 0 t) (iblk0 V c 1 t) (iblk0 V c 2 t)
    (fun p => ⟨t.val * 5000 + p.val, by have := p.isLt; omega⟩) h0 h1 h2 (j 0) (j 1)
  refine (congrArg (k0_pay1 (iblk0 V c 0 t) (iblk0 V c 1 t) (iblk0 V c 2 t)) (eq_ix2 j)).trans (key.trans ?_)
  show Cert.Sage.proj (V c main_arg0) (V c main_arg2) (V c main_arg3) _
    = Cert.Sage.proj (V c main_arg0) (V c main_arg2) (V c main_arg3) (((cfg0.win 3).blk t).view.emb j)
  congr 1; funext a; apply Fin.ext
  match a with
  | ⟨0, _⟩ => show t.val * 5000 + (j 0).val = win0_3.index t (0 : Fin 2) * 5000 + 1 * (j 0).val; omega
  | ⟨1, _⟩ => show (j 1).val = win0_3.index t (1 : Fin 2) * 3 + 1 * (j 1).val; omega

/-! ## The blocks tile the array -/

/-- An index of the array is in point `t`'s block iff each coordinate is in the block's range on its axis. -/
theorem mem_blk0 (t : Fin cfg0.N) (i : S500000x3.Idx) :
    i ∈ ((cfg0.win 3).blk t).view.set ↔ ∀ a : Fin 2, win0_3.index t a * S5000x3.size a ≤ (i a).val ∧ (i a).val < win0_3.index t a * S5000x3.size a + S5000x3.size a := by
  show i ∈ ((View.whole main_v4).slice (win0_3.rect t)).set ↔ _
  rw [View.set_slice_whole, Rect.mem_set_unit]
  exact Iff.rfl

/-- Row `r` of the array lies in the block of point `r / 5000`. -/
theorem cover0 (i : S500000x3.Idx) :
    ∃ t : Fin cfg0.N, (cfg0.win 3).flush t = true ∧ i ∈ ((cfg0.win 3).blk t).view.set := by
  have hi0 : (i 0).val < 500000 := (i 0).isLt
  have hi1 : (i 1).val < 3 := (i 1).isLt
  have hlt : (i 0).val / 5000 < 100 := by omega
  obtain ⟨e00, e01, e10, e11, e20, e30, e31⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 3 ≤ (i 1).val
      ∧ (i 1).val < win0_3.index ⟨(i 0).val / 5000, hlt⟩ (1 : Fin 2) * 3 + 3
    rw [e31]; omega

/-! ## The region's value -/

/-- After the 100 points the output array holds `relu (x · w + b)` of the arrays at the region's entry. -/
theorem region0_value (c : Dev nD) :
    (dat0 (F := Ideal) V c).arrAt 3 cfg0.N = Cert.Sage.proj (V c main_arg0) (V c main_arg2) (V c main_arg3) :=
  (dat0 (F := Ideal) V c).arrAt_eq_of_cover 3 _ (fun t _ => flushed0_eq V c t) cover0

end Cert.KernelIdeal.Val
end
-- ==== Proof.KRegion1.lean ====
/-
  The value of the first combine region: on every block of 5000 rows the body computes
  relu ((agg · lw + x · rw) + lb), and the 100 blocks tile the 500000 rows, so the array the region leaves is that
  function of the arrays it found, entry by entry.

  The road: the body's value at an entry of a block (two products accumulated into zero, read as sums over the shared
  axis; the bias row laid along the rows; a clamp at zero); then what a point writes back, read where the output's block
  sits in the array (row block t, the weights and the bias whole); then every row r lies in block r / 5000.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## A 5000×3 by 3×16 product at an entry: the sum over the shared axis -/

/-- The left operand's row is the entry's row. -/
theorem comb1_lhs_0 (i : S5000x16.Idx) (q : dot_S5000x3_S3x16_S5000x16_1_0_0_1_n_n.contr.Idx) :
    (dot_S5000x3_S3x16_S5000x16_1_0_0_1_n_n.lhsIdx i q 0).val = (i 0).val := by
  unfold DotDims.lhsIdx
  rw [dif_neg (show ¬(0 : Fin S5000x3.rank) ∈ dot_S5000x3_S3x16_S5000x16_1_0_0_1_n_n.lhsBatch by decide),
    dif_pos (show (0 : Fin S5000x3.rank) ∈ dot_S5000x3_S3x16_S5000x16_1_0_0_1_n_n.lhsNonContracting by decide)]
  rfl

/-- The left operand's column is the summation index. -/
theorem comb1_lhs_1 (i : S5000x16.Idx) (q : dot_S5000x3_S3x16_S5000x16_1_0_0_1_n_n.contr.Idx) :
    (dot_S5000x3_S3x16_S5000x16_1_0_0_1_n_n.lhsIdx i q 1).val = (q ⟨0, by decide⟩).val :=
  dot_S5000x3_S3x16_S5000x16_1_0_0_1_n_n.lhsIdx_val_of_single rfl i q

/-- The right operand's row is the summation index. -/
theorem comb1_rhs_0 (i : S5000x16.Idx) (q : dot_S5000x3_S3x16_S5000x16_1_0_0_1_n_n.contr.Idx) :
    (dot_S5000x3_S3x16_S5000x16_1_0_0_1_n_n.rhsIdx i q 0).val = (q ⟨0, by decide⟩).val :=
  dot_S5000x3_S3x16_S5000x16_1_0_0_1_n_n.rhsIdx_val_of_single rfl i q

/-- The right operand's column is the entry's column. -/
theorem comb1_rhs_1 (i : S5000x16.Idx) (q : dot_S5000x3_S3x16_S5000x16_1_0_0_1_n_n.contr.Idx) :
    (dot_S5000x3_S3x16_S5000x16_1_0_0_1_n_n.rhsIdx i q 1).val = (i 1).val := by
  unfold DotDims.rhsIdx
  rw [dif_neg (show ¬(1 : Fin S3x16.rank) ∈ dot_S5000x3_S3x16_S5000x16_1_0_0_1_n_n.rhsBatch by decide),
    dif_pos (show (1 : Fin S3x16.rank) ∈ dot_S5000x3_S3x16_S5000x16_1_0_0_1_n_n.rhsNonContracting by decide)]
  rfl

/-- The product accumulated into zero, at entry `(p, q)`: `∑ k, a (p, k) * w (k, q)`. -/
theorem comb1_matmul_apply {φ₁ φ₂ : FTy} (a : FVec Ideal S5000x3 φ₁) (w : FVec Ideal S3x16 φ₂) (p : Fin 5000) (q : Fin 16) :
    matmul dot_S5000x3_S3x16_S5000x16_1_0_0_1_n_n none a w (constant S5000x16 .f32 0x00000000#32) (ix2 p q)
      = ∑ k : Fin 3, a (ix2 p k) * w (ix2 k q) := by
  show FloatOps.matmul dot_S5000x3_S3x16_S5000x16_1_0_0_1_n_n none a w (constant S5000x16 .f32 0x00000000#32) (ix2 p q) = _
  rw [Ideal.matmul_constant_zero_apply,
    ← Equiv.sum_comp (ValueIdx.contrEquiv1 dot_S5000x3_S3x16_S5000x16_1_0_0_1_n_n 3 rfl rfl).symm]
  refine Finset.sum_congr rfl fun k _ => ?_
  have hk := ValueIdx.contrEquiv1_symm_val dot_S5000x3_S3x16_S5000x16_1_0_0_1_n_n 3 rfl rfl k
  have el : dot_S5000x3_S3x16_S5000x16_1_0_0_1_n_n.lhsIdx (ix2 p q)
      ((ValueIdx.contrEquiv1 dot_S5000x3_S3x16_S5000x16_1_0_0_1_n_n 3 rfl rfl).symm k) = ix2 p k :=
    funext fun a => Fin.ext (by
      match a with
      | ⟨0, _⟩ => exact comb1_lhs_0 _ _
      | ⟨1, _⟩ => exact (comb1_lhs_1 _ _).trans hk)
  have er : dot_S5000x3_S3x16_S5000x16_1_0_0_1_n_n.rhsIdx (ix2 p q)
      ((ValueIdx.contrEquiv1 dot_S5000x3_S3x16_S5000x16_1_0_0_1_n_n 3 rfl rfl).symm k) = ix2 k q :=
    funext fun a => Fin.ext (by
      match a with
      | ⟨0, _⟩ => exact (comb1_rhs_0 _ _).trans hk
      | ⟨1, _⟩ => exact comb1_rhs_1 _ _)
  rw [el, er]

/-- The bias row laid along every row of the block: entry `(p, q)` is the row's entry `q`. -/
theorem comb1_bias_apply (b : Vec Ideal S16 .f32) (p : Fin 5000) (q : Fin 16) :
    broadcastTo S5000x16 (shapeCast S1x16 b shapeCasts_S16_S1x16) broadcasts_S1x16_S5000x16 (ix2 p q) = b (ix1 q) :=
  (broadcastTo_apply (shapeCast S1x16 b shapeCasts_S16_S1x16) broadcasts_S1x16_S5000x16 (ix2 p q) (ix2 (0 : Fin 1) q)
    (fun a => by
      match a with
      | ⟨0, _⟩ => rfl
      | ⟨1, _⟩ => rfl)).trans
  ((shapeCast_addUnit_apply ![16] b shapeCasts_S16_S1x16 (ix2 (0 : Fin 1) q)).trans
    (congrArg b (funext fun a => by match a with | ⟨0, _⟩ => rfl)))

/-- The body's value at entry `(p, q)` of the block: `max ((∑ a·lw + ∑ x·rw) + lb q) 0`. -/
theorem comb1_pay_apply (a x : Vec Ideal S5000x3 .f32) (lw rw : Vec Ideal S3x16 .f32) (lb : Vec Ideal S16 .f32)
    (p : Fin 5000) (q : Fin 16) :
    k1_pay1 (F := Ideal) a lw x rw lb (ix2 p q)
      = max ((∑ k : Fin 3, a (ix2 p k) * lw (ix2 k q) + ∑ k : Fin 3, x (ix2 p k) * rw (ix2 k q)) + lb (ix1 q))
          Cert.Sage.zeroW := by
  unfold k1_pay1
  simp only [shapeCast_self]
  rw [maximumf_apply, addf_apply, addf_apply, comb1_matmul_apply, comb1_matmul_apply, comb1_bias_apply]
  rfl

/-! ## From the blocks to the array -/

theorem comb1_hz2 : (![0, 0] : Fin 2 → Nat) = fun _ => 0 := funext fun a => by fin_cases a <;> rfl

theorem comb1_hz1 : (![0] : Fin 1 → Nat) = fun _ => 0 := funext fun a => by fin_cases a <;> rfl

/-- The index maps over the 100 points: the two row-blocked inputs and the output sit at row block `t`, column
    block 0; the two weight matrices and the bias are whole, at block 0. -/
theorem comb1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `relu ((agg · lw + x · rw) + lb)` of the arrays as the region
    finds them: each input block is read where the output's block says — the same rows, the weights' and the bias's
    own coordinates. -/
theorem comb1_flushed (c : Dev nD) (t : Fin cfg1.N) :
    (dat1 (F := Ideal) V c).flushed 5 t
      = ((cfg1.win 5).blk t).view.read (Elt Ideal)
          (Cert.Sage.combRelu (V c main_v8) (V c main_arg0) (V c main_arg4) (V c main_arg5) (V c main_arg6)) := by
  show (cfg1.win 5).cut (grid1.coords t) ((dat1 V c).after 5 t) = _
  rw [after1_5]
  unfold out1_5
  rw [View.canon_unit_zero comb1_hz2]
  simp only [View.ld_unit_zero (S := S5000x3) comb1_hz2, View.ld_unit_zero (S := S3x16) comb1_hz2,
    View.ld_unit_zero (S := S16) comb1_hz1]
  obtain ⟨a0, a1, x0, x1, l0, l1, b0, r0, r1, o0, o1⟩ := comb1_idx_facts t
  funext j
  have hj0 : (j 0).val < 5000 := (j 0).isLt
  have hj1 : (j 1).val < 16 := (j 1).isLt
  have h_a : ∀ k : Fin 3, iblk1 V c 0 t (ix2 (j 0) k)
      = V c main_v8 (ix2 ((((cfg1.win 5).blk t).view.emb j) 0) k) := fun k => by
    show V c main_v8 (((cfg1.win 0).blk t).view.emb (ix2 (j 0) k)) = _
    refine congrArg (V c main_v8) (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ => show win1_0.index t (1 : Fin 2) * 3 + 1 * k.val = k.val; omega
  have h_x : ∀ k : Fin 3, iblk1 V c 1 t (ix2 (j 0) k)
      = V c main_arg0 (ix2 ((((cfg1.win 5).blk t).view.emb j) 0) k) := fun k => by
    show V c main_arg0 (((cfg1.win 1).blk t).view.emb (ix2 (j 0) k)) = _
    refine congrArg (V c main_arg0) (funext fun a => Fin.ext ?_)
    match a with
    | ⟨0, _⟩ =>
      show win1_1.index t (0 : Fin 2) * 5000 + 1 * (j 0).val = win1_5.index t (0 : Fin 2) * 5000 + 1 * (j 0).val
      omega
    | ⟨1, _⟩ => show win1_1.index t (1 : Fin 2) * 3 + 1 * k.val = k.val; omega
  have h_lw : ∀ k : Fin 3, iblk1 V c 2 t (ix2 k (j 1))
      = V c main_arg4 (ix2 k ((((cfg1.win 5).blk t).view.emb j) 1)) := fun k => by
    show V c main_arg4 (((cfg1.win 2).blk t).view.emb (ix2 k (j 1))) = _
    refine congrArg (V c main_arg4) (funext fun a => Fin.ext ?_)
    match a with
    | ⟨0, _⟩ => show win1_2.index t (0 : Fin 2) * 3 + 1 * k.val = k.val; omega
    | ⟨1, _⟩ =>
      show win1_2.index t (1 : Fin 2) * 16 + 1 * (j 1).val = win1_5.index t (1 : Fin 2) * 16 + 1 * (j 1).val
      omega
  have h_rw : ∀ k : Fin 3, iblk1 V c 4 t (ix2 k (j 1))
      = V c main_arg6 (ix2 k ((((cfg1.win 5).blk t).view.emb j) 1)) := fun k => by
    show V c main_arg6 (((cfg1.win 4).blk t).view.emb (ix2 k (j 1))) = _
    refine congrArg (V c main_arg6) (funext fun a => Fin.ext ?_)
    match a with
    | ⟨0, _⟩ => show win1_4.index t (0 : Fin 2) * 3 + 1 * k.val = k.val; omega
    | ⟨1, _⟩ =>
      show win1_4.index t (1 : Fin 2) * 16 + 1 * (j 1).val = win1_5.index t (1 : Fin 2) * 16 + 1 * (j 1).val
      omega
  have h_lb : iblk1 V c 3 t (ix1 (j 1)) = V c main_arg5 (ix1 ((((cfg1.win 5).blk t).view.emb j) 1)) := by
    show V c main_arg5 (((cfg1.win 3).blk t).view.emb (ix1 (j 1))) = _
    refine congrArg (V c main_arg5) (funext fun a => Fin.ext ?_)
    match a with
    | ⟨0, _⟩ =>
      show win1_3.index t (0 : Fin 1) * 16 + 1 * (j 1).val = win1_5.index t (1 : Fin 2) * 16 + 1 * (j 1).val
      omega
  refine (congrArg (k1_pay1 (F := Ideal) (iblk1 V c 0 t) (iblk1 V c 2 t) (iblk1 V c 1 t) (iblk1 V c 4 t) (iblk1 V c 3 t))
      (eq_ix2 j)).trans
    ((comb1_pay_apply (iblk1 V c 0 t) (iblk1 V c 1 t) (iblk1 V c 2 t) (iblk1 V c 4 t) (iblk1 V c 3 t) (j 0) (j 1)).trans ?_)
  exact congrArg₂ max (congrArg₂ HAdd.hAdd (congrArg₂ HAdd.hAdd
      (Finset.sum_congr rfl fun k _ => congrArg₂ HMul.hMul (h_a k) (h_lw k))
      (Finset.sum_congr rfl fun k _ => congrArg₂ HMul.hMul (h_x k) (h_rw k))) h_lb) rfl

/-- An index of the array lies in point `t`'s block iff each coordinate lies in the block's range on its axis. -/
theorem comb1_mem_blk (t : Fin cfg1.N) (i : S500000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v9).slice (win1_5.rect t)).set ↔ _
  rw [View.set_slice_whole, Rect.mem_set_unit]
  exact Iff.rfl

/-- The 100 blocks of 5000 rows tile the 500000 rows: row `r` lies in block `r / 5000`. -/
theorem comb1_cover (i : S500000x16.Idx) :
    ∃ t : Fin cfg1.N, (cfg1.win 5).flush t = true ∧ i ∈ ((cfg1.win 5).blk t).view.set := by
  have hi0 : (i 0).val < 500000 := (i 0).isLt
  have hi1 : (i 1).val < 16 := (i 1).isLt
  have hN : (i 0).val / 5000 < cfg1.N := by show (i 0).val / 5000 < grid1.N; rw [N_1]; omega
  refine ⟨⟨(i 0).val / 5000, hN⟩, flush1_5 _, ?_⟩
  rw [comb1_mem_blk]
  obtain ⟨a0, a1, x0, x1, l0, l1, b0, r0, r1, o0, o1⟩ := comb1_idx_facts ⟨(i 0).val / 5000, hN⟩
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win1_5.index ⟨(i 0).val / 5000, hN⟩ (1 : Fin 2) * 16 ≤ (i 1).val
      ∧ (i 1).val < win1_5.index ⟨(i 0).val / 5000, hN⟩ (1 : Fin 2) * 16 + 16
    rw [o1]
    omega

/-- The array the region leaves: `relu ((agg · lw + x · rw) + lb)` of the arrays it found, entry by entry. -/
theorem region1_value (c : Dev nD) : (dat1 (F := Ideal) V c).arrAt 5 cfg1.N = Cert.Sage.combRelu (V c main_v8) (V c main_arg0) (V c main_arg4) (V c main_arg5) (V c main_arg6) :=
  (dat1 (F := Ideal) V c).arrAt_eq_of_cover 5 _ (fun t _ => comb1_flushed V c t) comb1_cover

end Cert.KernelIdeal.Val
end
-- ==== Proof.KRegion2.lean ====
/-
  The value of the second projection region: after its 100 grid points the output array holds
  `relu (x · w + b)`, entry by entry, of the three input arrays as they stand when the region is entered.

  Each grid point `t` takes rows `5000 t … 5000 t + 4999` of `x` (a `5000 × 16` block), the whole of `w` (`16 × 16`) and
  the whole of `b` (length 16), and writes rows `5000 t … 5000 t + 4999` of the output.  Entry `(p, q)` of what it writes is
  `max (∑ k, x_block (p, k) · w (k, q) + b q) 0`, which is entry `(5000 t + p, q)` of `relu (x · w + b)`; and the 100 row
  blocks tile the 500000 rows (row `r` lies in block `r / 5000`), so the array ends equal to `relu (x · w + b)` everywhere.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-! ## The product's operand indices, axis by axis

At output index `i` and contraction position `q` the left operand is read at `(i 0, q)` and the right at `(q, i 1)`. -/

theorem dotL2_ax0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide),
    dif_pos (show (0 : Fin S5000x16.rank) ∈ dot_S5000x16_S16x16_S5000x16_1_0_0_1_n_n.lhsNonContracting by decide)]
  rfl

theorem dotL2_ax1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q

theorem dotR2_ax0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q

theorem dotR2_ax1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide),
    dif_pos (show (1 : Fin S16x16.rank) ∈ dot_S5000x16_S16x16_S5000x16_1_0_0_1_n_n.rhsNonContracting by decide)]
  rfl

/-- The block product into the zero accumulator, at `(p, q)`: the sum over the shared axis of row `p` of the left
    block times column `q` of the right. -/
theorem mm2_at {φ₁ φ₂ : FTy} (x : FVec Ideal S5000x16 φ₁) (w : FVec Ideal S16x16 φ₂) (p : Fin 5000) (q : Fin 16) :
    matmul dot_S5000x16_S16x16_S5000x16_1_0_0_1_n_n none x w (constant S5000x16 .f32 0x00000000#32) (ix2 p q)
      = ∑ k : Fin 16, x (ix2 p k) * w (ix2 k q) := by
  show FloatOps.matmul dot_S5000x16_S16x16_S5000x16_1_0_0_1_n_n none x w (constant S5000x16 .f32 0x00000000#32) (ix2 p q) = _
  rw [Ideal.matmul_constant_zero_apply,
    ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q)
      ((ValueIdx.contrEquiv1 dot_S5000x16_S16x16_S5000x16_1_0_0_1_n_n 16 rfl rfl).symm k) = ix2 p k :=
    funext fun a => Fin.ext (by
      match a with
      | ⟨0, _⟩ => exact dotL2_ax0 _ _
      | ⟨1, _⟩ => exact (dotL2_ax1 _ _).trans hk)
  have er : dot_S5000x16_S16x16_S5000x16_1_0_0_1_n_n.rhsIdx (ix2 p q)
      ((ValueIdx.contrEquiv1 dot_S5000x16_S16x16_S5000x16_1_0_0_1_n_n 16 rfl rfl).symm k) = ix2 k q :=
    funext fun a => Fin.ext (by
      match a with
      | ⟨0, _⟩ => exact (dotR2_ax0 _ _).trans hk
      | ⟨1, _⟩ => exact dotR2_ax1 _ _)
  rw [el, er]

/-- The bias row, given a leading unit axis and repeated down the 5000 rows, reads at `(p, q)` its entry `q`. -/
theorem bias2_at (b : Vec Ideal S16 .f32) (p : Fin 5000) (q : Fin 16) :
    broadcastTo S5000x16 (shapeCast S1x16 b shapeCasts_S16_S1x16) broadcasts_S1x16_S5000x16 (ix2 p q) = b (ix1 q) := by
  rw [broadcastTo_apply (s := S1x16) (t := S5000x16) _ broadcasts_S1x16_S5000x16 (ix2 p q) (ix2 (0 : Fin 1) q) (fun a => by
    match a with
    | ⟨0, _⟩ => rfl
    | ⟨1, _⟩ => rfl)]
  rw [shapeCast_addUnit_apply ![16] b shapeCasts_S16_S1x16 (ix2 (0 : Fin 1) q)]
  congr 1
  funext a
  match a with
  | ⟨0, _⟩ => rfl

/-- The body's stored value at `(p, q)`: the product's entry plus the bias entry, clamped below at zero (the cast of the
    input block to its own shape changes nothing). -/
theorem pay2_at (x0 : Vec Ideal S5000x16 .f32) (x1 : Vec Ideal S16x16 .f32) (x2 : Vec Ideal S16 .f32) (p : Fin 5000) (q : Fin 16) :
    k2_pay1 x0 x1 x2 (ix2 p q)
      = max ((∑ k : Fin 16, x0 (ix2 p k) * x1 (ix2 k q)) + x2 (ix1 q)) Cert.Sage.zeroW := by
  unfold k2_pay1
  show max (matmul (F := Ideal) dot_S5000x16_S16x16_S5000x16_1_0_0_1_n_n none
      (truncf .bf16 (shapeCast S5000x16 x0 shapeCasts_S5000x16_S5000x16) bitsLt_bf16_f32) (truncf .bf16 x1 bitsLt_bf16_f32)
      (constant S5000x16 .f32 0x00000000#32) (ix2 p q)
    + broadcastTo S5000x16 (shapeCast S1x16 x2 shapeCasts_S16_S1x16) broadcasts_S1x16_S5000x16 (ix2 p q)) (Ideal.ofBits .f32 0x00000000#32) = _
  rw [mm2_at, bias2_at, shapeCast_self]
  rfl

/-! ## One block against the whole array

If a 5000-row block `x0` is rows `r p` of the array `X`, the body's value at `(p, q)` is `relu (X · W + B)` at `(r p, q)`. -/

theorem block_value2 (X : Cert.Sage.Mat 500000 16) (W : Cert.Sage.Mat 16 16) (B : Cert.Sage.Row 16)
    (x0 : Vec Ideal S5000x16 .f32) (x1 : Vec Ideal S16x16 .f32) (x2 : Vec Ideal S16 .f32) (r : Fin 5000 → Fin 500000)
    (h0 : ∀ (p : Fin 5000) (k : Fin 16), x0 (ix2 p k) = X (ix2 (r p) k)) (h1 : x1 = W) (h2 : x2 = B)
    (p : Fin 5000) (q : Fin 16) :
    k2_pay1 x0 x1 x2 (ix2 p q) = Cert.Sage.proj X W B (ix2 (r p) q) := by
  rw [pay2_at, h1, h2]
  show _ = max ((∑ k : Fin 16, X (ix2 (r p) k) * W (ix2 k q)) + B (ix1 q)) Cert.Sage.zeroW
  simp only [h0]

/-! ## The index maps over the grid -/

theorem hz2 : (![0, 0] : Fin 2 → Nat) = fun _ => 0 := funext fun a => by fin_cases a <;> rfl
theorem hz2' : (![0] : Fin 1 → Nat) = fun _ => 0 := funext fun a => by fin_cases a <;> rfl

/-- The index maps at each of the 100 grid points, by evaluation: the input block and the output block sit at block
    row `t`, column block 0; the weight and the bias are whole (block 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- WHAT POINT `t` WRITES BACK is block `t` of `relu (x · w + b)` of the arrays at the region's entry. -/
theorem flushed2_eq (c : Dev nD) (t : Fin cfg2.N) :
    (dat2 (F := Ideal) V c).flushed 3 t
      = ((cfg2.win 3).blk t).view.read (Elt Ideal) (Cert.Sage.proj (V c main_v9) (V c main_arg7) (V c main_arg8)) := by
  show (cfg2.win 3).cut (grid2.coords t) ((dat2 (F := Ideal) V c).after 3 t) = _
  rw [after2_3]
  unfold out2_3
  rw [View.canon_unit_zero hz2]
  simp only [View.ld_unit_zero (S := S5000x16) hz2, View.ld_unit_zero (S := S16x16) hz2, View.ld_unit_zero (S := S16) hz2']
  obtain ⟨e00, e01, e10, e11, e20, e30, e31⟩ := idx_facts2 t
  have ht : t.val < 100 := t.isLt
  have h0 : ∀ (p : Fin 5000) (k : Fin 16),
      iblk2 V c 0 t (ix2 p k) = V c main_v9 (ix2 (⟨t.val * 5000 + p.val, by have := p.isLt; omega⟩ : Fin 500000) k) := fun p k => by
    show V c main_v9 (((cfg2.win 0).blk t).view.emb (ix2 p k)) = _
    congr 1; funext a; apply Fin.ext
    match a with
    | ⟨0, _⟩ => show win2_0.index t (0 : Fin 2) * 5000 + 1 * p.val = t.val * 5000 + p.val; omega
    | ⟨1, _⟩ => show win2_0.index t (1 : Fin 2) * 16 + 1 * k.val = k.val; omega
  have h1 : iblk2 V c 1 t = V c main_arg7 := funext fun y => by
    show V c main_arg7 (((cfg2.win 1).blk t).view.emb y) = V c main_arg7 y
    congr 1; funext a; apply Fin.ext
    match a with
    | ⟨0, _⟩ => show win2_1.index t (0 : Fin 2) * 16 + 1 * (y 0).val = (y 0).val; omega
    | ⟨1, _⟩ => show win2_1.index t (1 : Fin 2) * 16 + 1 * (y 1).val = (y 1).val; omega
  have h2 : iblk2 V c 2 t = V c main_arg8 := funext fun y => by
    show V c main_arg8 (((cfg2.win 2).blk t).view.emb y) = V c main_arg8 y
    congr 1; funext a; apply Fin.ext
    match a with
    | ⟨0, _⟩ => show win2_2.index t (0 : Fin 1) * 16 + 1 * (y 0).val = (y 0).val; omega
  funext j
  have key := block_value2 (V c main_v9) (V c main_arg7) (V c main_arg8) (iblk2 V c 0 t) (iblk2 V c 1 t) (iblk2 V c 2 t)
    (fun p => ⟨t.val * 5000 + p.val, by have := p.isLt; omega⟩) h0 h1 h2 (j 0) (j 1)
  refine (congrArg (k2_pay1 (iblk2 V c 0 t) (iblk2 V c 1 t) (iblk2 V c 2 t)) (eq_ix2 j)).trans (key.trans ?_)
  show Cert.Sage.proj (V c main_v9) (V c main_arg7) (V c main_arg8) _
    = Cert.Sage.proj (V c main_v9) (V c main_arg7) (V c main_arg8) (((cfg2.win 3).blk t).view.emb j)
  congr 1; funext a; apply Fin.ext
  match a with
  | ⟨0, _⟩ => show t.val * 5000 + (j 0).val = win2_3.index t (0 : Fin 2) * 5000 + 1 * (j 0).val; omega
  | ⟨1, _⟩ => show (j 1).val = win2_3.index t (1 : Fin 2) * 16 + 1 * (j 1).val; omega

/-! ## The blocks tile the array -/

/-- An index of the array is in point `t`'s block iff each coordinate is in the block's range on its axis. -/
theorem mem_blk2 (t : Fin cfg2.N) (i : S500000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v10).slice (win2_3.rect t)).set ↔ _
  rw [View.set_slice_whole, Rect.mem_set_unit]
  exact Iff.rfl

/-- Row `r` of the array lies in the block of point `r / 5000`. -/
theorem cover2 (i : S500000x16.Idx) :
    ∃ t : Fin cfg2.N, (cfg2.win 3).flush t = true ∧ i ∈ ((cfg2.win 3).blk t).view.set := by
  have hi0 : (i 0).val < 500000 := (i 0).isLt
  have hi1 : (i 1).val < 16 := (i 1).isLt
  have hlt : (i 0).val / 5000 < 100 := by omega
  obtain ⟨e00, e01, e10, e11, e20, e30, e31⟩ := idx_facts2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 16 ≤ (i 1).val
      ∧ (i 1).val < win2_3.index ⟨(i 0).val / 5000, hlt⟩ (1 : Fin 2) * 16 + 16
    rw [e31]; omega

/-! ## The region's value -/

/-- After the 100 points the output array holds `relu (x · w + b)` of the arrays at the region's entry. -/
theorem region2_value (c : Dev nD) :
    (dat2 (F := Ideal) V c).arrAt 3 cfg2.N = Cert.Sage.proj (V c main_v9) (V c main_arg7) (V c main_arg8) :=
  (dat2 (F := Ideal) V c).arrAt_eq_of_cover 3 _ (fun t _ => flushed2_eq V c t) cover2

end Cert.KernelIdeal.Val
end
-- ==== Proof.KRegion3.lean ====
/-
  The value of the second combine region: on every block of 5000 rows the body computes
  relu ((agg · lw + x · rw) + lb) with sixteen features in and sixteen out, and the 100 blocks tile the 500000 rows, so
  the array the region leaves is that function of the arrays it found, entry by entry.

  The road: the body's value at an entry of a block (two products accumulated into zero, read as sums over the shared
  axis; the bias row laid along the rows; a clamp at zero); then what a point writes back, read where the output's block
  sits in the array (row block t, the weights and the bias whole); then every row r lies in block r / 5000.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## A 5000×16 by 16×16 product at an entry: the sum over the shared axis -/

/-- The left operand's row is the entry's row. -/
theorem comb3_lhs_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide),
    dif_pos (show (0 : Fin S5000x16.rank) ∈ dot_S5000x16_S16x16_S5000x16_1_0_0_1_n_n.lhsNonContracting by decide)]
  rfl

/-- The left operand's column is the summation index. -/
theorem comb3_lhs_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q

/-- The right operand's row is the summation index. -/
theorem comb3_rhs_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q

/-- The right operand's column is the entry's column. -/
theorem comb3_rhs_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide),
    dif_pos (show (1 : Fin S16x16.rank) ∈ dot_S5000x16_S16x16_S5000x16_1_0_0_1_n_n.rhsNonContracting by decide)]
  rfl

/-- The product accumulated into zero, at entry `(p, q)`: `∑ k, a (p, k) * w (k, q)`. -/
theorem comb3_matmul_apply {φ₁ φ₂ : FTy} (a : FVec Ideal S5000x16 φ₁) (w : FVec Ideal S16x16 φ₂) (p : Fin 5000) (q : Fin 16) :
    matmul dot_S5000x16_S16x16_S5000x16_1_0_0_1_n_n none a w (constant S5000x16 .f32 0x00000000#32) (ix2 p q)
      = ∑ k : Fin 16, a (ix2 p k) * w (ix2 k q) := by
  show FloatOps.matmul dot_S5000x16_S16x16_S5000x16_1_0_0_1_n_n none a w (constant S5000x16 .f32 0x00000000#32) (ix2 p q) = _
  rw [Ideal.matmul_constant_zero_apply,
    ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q)
      ((ValueIdx.contrEquiv1 dot_S5000x16_S16x16_S5000x16_1_0_0_1_n_n 16 rfl rfl).symm k) = ix2 p k :=
    funext fun a => Fin.ext (by
      match a with
      | ⟨0, _⟩ => exact comb3_lhs_0 _ _
      | ⟨1, _⟩ => exact (comb3_lhs_1 _ _).trans hk)
  have er : dot_S5000x16_S16x16_S5000x16_1_0_0_1_n_n.rhsIdx (ix2 p q)
      ((ValueIdx.contrEquiv1 dot_S5000x16_S16x16_S5000x16_1_0_0_1_n_n 16 rfl rfl).symm k) = ix2 k q :=
    funext fun a => Fin.ext (by
      match a with
      | ⟨0, _⟩ => exact (comb3_rhs_0 _ _).trans hk
      | ⟨1, _⟩ => exact comb3_rhs_1 _ _)
  rw [el, er]

/-- The bias row laid along every row of the block: entry `(p, q)` is the row's entry `q`. -/
theorem comb3_bias_apply (b : Vec Ideal S16 .f32) (p : Fin 5000) (q : Fin 16) :
    broadcastTo S5000x16 (shapeCast S1x16 b shapeCasts_S16_S1x16) broadcasts_S1x16_S5000x16 (ix2 p q) = b (ix1 q) :=
  (broadcastTo_apply (shapeCast S1x16 b shapeCasts_S16_S1x16) broadcasts_S1x16_S5000x16 (ix2 p q) (ix2 (0 : Fin 1) q)
    (fun a => by
      match a with
      | ⟨0, _⟩ => rfl
      | ⟨1, _⟩ => rfl)).trans
  ((shapeCast_addUnit_apply ![16] b shapeCasts_S16_S1x16 (ix2 (0 : Fin 1) q)).trans
    (congrArg b (funext fun a => by match a with | ⟨0, _⟩ => rfl)))

/-- The body's value at entry `(p, q)` of the block: `max ((∑ a·lw + ∑ x·rw) + lb q) 0`. -/
theorem comb3_pay_apply (a x : Vec Ideal S5000x16 .f32) (lw rw : Vec Ideal S16x16 .f32) (lb : Vec Ideal S16 .f32)
    (p : Fin 5000) (q : Fin 16) :
    k3_pay1 (F := Ideal) a lw x rw lb (ix2 p q)
      = max ((∑ k : Fin 16, a (ix2 p k) * lw (ix2 k q) + ∑ k : Fin 16, x (ix2 p k) * rw (ix2 k q)) + lb (ix1 q))
          Cert.Sage.zeroW := by
  unfold k3_pay1
  simp only [shapeCast_self]
  rw [maximumf_apply, addf_apply, addf_apply, comb3_matmul_apply, comb3_matmul_apply, comb3_bias_apply]
  rfl

/-! ## From the blocks to the array -/

theorem comb3_hz2 : (![0, 0] : Fin 2 → Nat) = fun _ => 0 := funext fun a => by fin_cases a <;> rfl

theorem comb3_hz1 : (![0] : Fin 1 → Nat) = fun _ => 0 := funext fun a => by fin_cases a <;> rfl

/-- The index maps over the 100 points: the two row-blocked inputs and the output sit at row block `t`, column
    block 0; the two weight matrices and the bias are whole, at block 0. -/
theorem comb3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `relu ((agg · lw + x · rw) + lb)` of the arrays as the region
    finds them: each input block is read where the output's block says — the same rows, the weights' and the bias's
    own coordinates. -/
theorem comb3_flushed (c : Dev nD) (t : Fin cfg3.N) :
    (dat3 (F := Ideal) V c).flushed 5 t
      = ((cfg3.win 5).blk t).view.read (Elt Ideal)
          (Cert.Sage.combRelu (V c main_v14) (V c main_v9) (V c main_arg9) (V c main_arg10) (V c main_arg11)) := by
  show (cfg3.win 5).cut (grid3.coords t) ((dat3 V c).after 5 t) = _
  rw [after3_5]
  unfold out3_5
  rw [View.canon_unit_zero comb3_hz2]
  simp only [View.ld_unit_zero (S := S5000x16) comb3_hz2, View.ld_unit_zero (S := S16x16) comb3_hz2,
    View.ld_unit_zero (S := S16) comb3_hz1]
  obtain ⟨a0, a1, x0, x1, l0, l1, b0, r0, r1, o0, o1⟩ := comb3_idx_facts t
  funext j
  have hj0 : (j 0).val < 5000 := (j 0).isLt
  have hj1 : (j 1).val < 16 := (j 1).isLt
  have h_a : ∀ k : Fin 16, iblk3 V c 0 t (ix2 (j 0) k)
      = V c main_v14 (ix2 ((((cfg3.win 5).blk t).view.emb j) 0) k) := fun k => by
    show V c main_v14 (((cfg3.win 0).blk t).view.emb (ix2 (j 0) k)) = _
    refine congrArg (V c main_v14) (funext fun a => Fin.ext ?_)
    match a with
    | ⟨0, _⟩ =>
      show win3_0.index t (0 : Fin 2) * 5000 + 1 * (j 0).val = win3_5.index t (0 : Fin 2) * 5000 + 1 * (j 0).val
      omega
    | ⟨1, _⟩ => show win3_0.index t (1 : Fin 2) * 16 + 1 * k.val = k.val; omega
  have h_x : ∀ k : Fin 16, iblk3 V c 1 t (ix2 (j 0) k)
      = V c main_v9 (ix2 ((((cfg3.win 5).blk t).view.emb j) 0) k) := fun k => by
    show V c main_v9 (((cfg3.win 1).blk t).view.emb (ix2 (j 0) k)) = _
    refine congrArg (V c main_v9) (funext fun a => Fin.ext ?_)
    match a with
    | ⟨0, _⟩ =>
      show win3_1.index t (0 : Fin 2) * 5000 + 1 * (j 0).val = win3_5.index t (0 : Fin 2) * 5000 + 1 * (j 0).val
      omega
    | ⟨1, _⟩ => show win3_1.index t (1 : Fin 2) * 16 + 1 * k.val = k.val; omega
  have h_lw : ∀ k : Fin 16, iblk3 V c 2 t (ix2 k (j 1))
      = V c main_arg9 (ix2 k ((((cfg3.win 5).blk t).view.emb j) 1)) := fun k => by
    show V c main_arg9 (((cfg3.win 2).blk t).view.emb (ix2 k (j 1))) = _
    refine congrArg (V c main_arg9) (funext fun a => Fin.ext ?_)
    match a with
    | ⟨0, _⟩ => show win3_2.index t (0 : Fin 2) * 16 + 1 * k.val = k.val; omega
    | ⟨1, _⟩ =>
      show win3_2.index t (1 : Fin 2) * 16 + 1 * (j 1).val = win3_5.index t (1 : Fin 2) * 16 + 1 * (j 1).val
      omega
  have h_rw : ∀ k : Fin 16, iblk3 V c 4 t (ix2 k (j 1))
      = V c main_arg11 (ix2 k ((((cfg3.win 5).blk t).view.emb j) 1)) := fun k => by
    show V c main_arg11 (((cfg3.win 4).blk t).view.emb (ix2 k (j 1))) = _
    refine congrArg (V c main_arg11) (funext fun a => Fin.ext ?_)
    match a with
    | ⟨0, _⟩ => show win3_4.index t (0 : Fin 2) * 16 + 1 * k.val = k.val; omega
    | ⟨1, _⟩ =>
      show win3_4.index t (1 : Fin 2) * 16 + 1 * (j 1).val = win3_5.index t (1 : Fin 2) * 16 + 1 * (j 1).val
      omega
  have h_lb : iblk3 V c 3 t (ix1 (j 1)) = V c main_arg10 (ix1 ((((cfg3.win 5).blk t).view.emb j) 1)) := by
    show V c main_arg10 (((cfg3.win 3).blk t).view.emb (ix1 (j 1))) = _
    refine congrArg (V c main_arg10) (funext fun a => Fin.ext ?_)
    match a with
    | ⟨0, _⟩ =>
      show win3_3.index t (0 : Fin 1) * 16 + 1 * (j 1).val = win3_5.index t (1 : Fin 2) * 16 + 1 * (j 1).val
      omega
  refine (congrArg (k3_pay1 (F := Ideal) (iblk3 V c 0 t) (iblk3 V c 2 t) (iblk3 V c 1 t) (iblk3 V c 4 t) (iblk3 V c 3 t))
      (eq_ix2 j)).trans
    ((comb3_pay_apply (iblk3 V c 0 t) (iblk3 V c 1 t) (iblk3 V c 2 t) (iblk3 V c 4 t) (iblk3 V c 3 t) (j 0) (j 1)).trans ?_)
  exact congrArg₂ max (congrArg₂ HAdd.hAdd (congrArg₂ HAdd.hAdd
      (Finset.sum_congr rfl fun k _ => congrArg₂ HMul.hMul (h_a k) (h_lw k))
      (Finset.sum_congr rfl fun k _ => congrArg₂ HMul.hMul (h_x k) (h_rw k))) h_lb) rfl

/-- An index of the array lies in point `t`'s block iff each coordinate lies in the block's range on its axis. -/
theorem comb3_mem_blk (t : Fin cfg3.N) (i : S500000x16.Idx) :
    i ∈ ((cfg3.win 5).blk t).view.set ↔ ∀ a : Fin 2, win3_5.index t a * S5000x16.size a ≤ (i a).val
      ∧ (i a).val < win3_5.index t a * S5000x16.size a + S5000x16.size a := by
  show i ∈ ((View.whole main_v15).slice (win3_5.rect t)).set ↔ _
  rw [View.set_slice_whole, Rect.mem_set_unit]
  exact Iff.rfl

/-- The 100 blocks of 5000 rows tile the 500000 rows: row `r` lies in block `r / 5000`. -/
theorem comb3_cover (i : S500000x16.Idx) :
    ∃ t : Fin cfg3.N, (cfg3.win 5).flush t = true ∧ i ∈ ((cfg3.win 5).blk t).view.set := by
  have hi0 : (i 0).val < 500000 := (i 0).isLt
  have hi1 : (i 1).val < 16 := (i 1).isLt
  have hN : (i 0).val / 5000 < cfg3.N := by show (i 0).val / 5000 < grid3.N; rw [N_3]; omega
  refine ⟨⟨(i 0).val / 5000, hN⟩, flush3_5 _, ?_⟩
  rw [comb3_mem_blk]
  obtain ⟨a0, a1, x0, x1, l0, l1, b0, r0, r1, o0, o1⟩ := comb3_idx_facts ⟨(i 0).val / 5000, hN⟩
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win3_5.index ⟨(i 0).val / 5000, hN⟩ (1 : Fin 2) * 16 ≤ (i 1).val
      ∧ (i 1).val < win3_5.index ⟨(i 0).val / 5000, hN⟩ (1 : Fin 2) * 16 + 16
    rw [o1]
    omega

/-- The array the region leaves: `relu ((agg · lw + x · rw) + lb)` of the arrays it found, entry by entry. -/
theorem region3_value (c : Dev nD) : (dat3 (F := Ideal) V c).arrAt 5 cfg3.N = Cert.Sage.combRelu (V c main_v14) (V c main_v9) (V c main_arg9) (V c main_arg10) (V c main_arg11) :=
  (dat3 (F := Ideal) V c).arrAt_eq_of_cover 5 _ (fun t _ => comb3_flushed V c t) comb3_cover

end Cert.KernelIdeal.Val
end
-- ==== Proof.KRegion4.lean ====
/-
  The value of the third projection region: after its 100 grid points the output array holds
  `relu (x · w + b)`, entry by entry, of the three input arrays as they stand when the region is entered.

  Each grid point `t` takes rows `5000 t … 5000 t + 4999` of `x` (a `5000 × 16` block), the whole of `w` (`16 × 16`) and
  the whole of `b` (length 16), and writes rows `5000 t … 5000 t + 4999` of the output.  Entry `(p, q)` of what it writes is
  `max (∑ k, x_block (p, k) · w (k, q) + b q) 0`, which is entry `(5000 t + p, q)` of `relu (x · w + b)`; and the 100 row
  blocks tile the 500000 rows (row `r` lies in block `r / 5000`), so the array ends equal to `relu (x · w + b)` everywhere.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-! ## The product's operand indices, axis by axis

At output index `i` and contraction position `q` the left operand is read at `(i 0, q)` and the right at `(q, i 1)`. -/

theorem dotL4_ax0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide),
    dif_pos (show (0 : Fin S5000x16.rank) ∈ dot_S5000x16_S16x16_S5000x16_1_0_0_1_n_n.lhsNonContracting by decide)]
  rfl

theorem dotL4_ax1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q

theorem dotR4_ax0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q

theorem dotR4_ax1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide),
    dif_pos (show (1 : Fin S16x16.rank) ∈ dot_S5000x16_S16x16_S5000x16_1_0_0_1_n_n.rhsNonContracting by decide)]
  rfl

/-- The block product into the zero accumulator, at `(p, q)`: the sum over the shared axis of row `p` of the left
    block times column `q` of the right. -/
theorem mm4_at {φ₁ φ₂ : FTy} (x : FVec Ideal S5000x16 φ₁) (w : FVec Ideal S16x16 φ₂) (p : Fin 5000) (q : Fin 16) :
    matmul dot_S5000x16_S16x16_S5000x16_1_0_0_1_n_n none x w (constant S5000x16 .f32 0x00000000#32) (ix2 p q)
      = ∑ k : Fin 16, x (ix2 p k) * w (ix2 k q) := by
  show FloatOps.matmul dot_S5000x16_S16x16_S5000x16_1_0_0_1_n_n none x w (constant S5000x16 .f32 0x00000000#32) (ix2 p q) = _
  rw [Ideal.matmul_constant_zero_apply,
    ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q)
      ((ValueIdx.contrEquiv1 dot_S5000x16_S16x16_S5000x16_1_0_0_1_n_n 16 rfl rfl).symm k) = ix2 p k :=
    funext fun a => Fin.ext (by
      match a with
      | ⟨0, _⟩ => exact dotL4_ax0 _ _
      | ⟨1, _⟩ => exact (dotL4_ax1 _ _).trans hk)
  have er : dot_S5000x16_S16x16_S5000x16_1_0_0_1_n_n.rhsIdx (ix2 p q)
      ((ValueIdx.contrEquiv1 dot_S5000x16_S16x16_S5000x16_1_0_0_1_n_n 16 rfl rfl).symm k) = ix2 k q :=
    funext fun a => Fin.ext (by
      match a with
      | ⟨0, _⟩ => exact (dotR4_ax0 _ _).trans hk
      | ⟨1, _⟩ => exact dotR4_ax1 _ _)
  rw [el, er]

/-- The bias row, given a leading unit axis and repeated down the 5000 rows, reads at `(p, q)` its entry `q`. -/
theorem bias4_at (b : Vec Ideal S16 .f32) (p : Fin 5000) (q : Fin 16) :
    broadcastTo S5000x16 (shapeCast S1x16 b shapeCasts_S16_S1x16) broadcasts_S1x16_S5000x16 (ix2 p q) = b (ix1 q) := by
  rw [broadcastTo_apply (s := S1x16) (t := S5000x16) _ broadcasts_S1x16_S5000x16 (ix2 p q) (ix2 (0 : Fin 1) q) (fun a => by
    match a with
    | ⟨0, _⟩ => rfl
    | ⟨1, _⟩ => rfl)]
  rw [shapeCast_addUnit_apply ![16] b shapeCasts_S16_S1x16 (ix2 (0 : Fin 1) q)]
  congr 1
  funext a
  match a with
  | ⟨0, _⟩ => rfl

/-- The body's stored value at `(p, q)`: the product's entry plus the bias entry, clamped below at zero (the cast of the
    input block to its own shape changes nothing). -/
theorem pay4_at (x0 : Vec Ideal S5000x16 .f32) (x1 : Vec Ideal S16x16 .f32) (x2 : Vec Ideal S16 .f32) (p : Fin 5000) (q : Fin 16) :
    k4_pay1 x0 x1 x2 (ix2 p q)
      = max ((∑ k : Fin 16, x0 (ix2 p k) * x1 (ix2 k q)) + x2 (ix1 q)) Cert.Sage.zeroW := by
  unfold k4_pay1
  show max (matmul (F := Ideal) dot_S5000x16_S16x16_S5000x16_1_0_0_1_n_n none
      (truncf .bf16 (shapeCast S5000x16 x0 shapeCasts_S5000x16_S5000x16) bitsLt_bf16_f32) (truncf .bf16 x1 bitsLt_bf16_f32)
      (constant S5000x16 .f32 0x00000000#32) (ix2 p q)
    + broadcastTo S5000x16 (shapeCast S1x16 x2 shapeCasts_S16_S1x16) broadcasts_S1x16_S5000x16 (ix2 p q)) (Ideal.ofBits .f32 0x00000000#32) = _
  rw [mm4_at, bias4_at, shapeCast_self]
  rfl

/-! ## One block against the whole array

If a 5000-row block `x0` is rows `r p` of the array `X`, the body's value at `(p, q)` is `relu (X · W + B)` at `(r p, q)`. -/

theorem block_value4 (X : Cert.Sage.Mat 500000 16) (W : Cert.Sage.Mat 16 16) (B : Cert.Sage.Row 16)
    (x0 : Vec Ideal S5000x16 .f32) (x1 : Vec Ideal S16x16 .f32) (x2 : Vec Ideal S16 .f32) (r : Fin 5000 → Fin 500000)
    (h0 : ∀ (p : Fin 5000) (k : Fin 16), x0 (ix2 p k) = X (ix2 (r p) k)) (h1 : x1 = W) (h2 : x2 = B)
    (p : Fin 5000) (q : Fin 16) :
    k4_pay1 x0 x1 x2 (ix2 p q) = Cert.Sage.proj X W B (ix2 (r p) q) := by
  rw [pay4_at, h1, h2]
  show _ = max ((∑ k : Fin 16, X (ix2 (r p) k) * W (ix2 k q)) + B (ix1 q)) Cert.Sage.zeroW
  simp only [h0]

/-! ## The index maps over the grid -/

theorem hz4 : (![0, 0] : Fin 2 → Nat) = fun _ => 0 := funext fun a => by fin_cases a <;> rfl
theorem hz4' : (![0] : Fin 1 → Nat) = fun _ => 0 := funext fun a => by fin_cases a <;> rfl

/-- The index maps at each of the 100 grid points, by evaluation: the input block and the output block sit at block
    row `t`, column block 0; the weight and the bias are whole (block 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- WHAT POINT `t` WRITES BACK is block `t` of `relu (x · w + b)` of the arrays at the region's entry. -/
theorem flushed4_eq (c : Dev nD) (t : Fin cfg4.N) :
    (dat4 (F := Ideal) V c).flushed 3 t
      = ((cfg4.win 3).blk t).view.read (Elt Ideal) (Cert.Sage.proj (V c main_v15) (V c main_arg12) (V c main_arg13)) := by
  show (cfg4.win 3).cut (grid4.coords t) ((dat4 (F := Ideal) V c).after 3 t) = _
  rw [after4_3]
  unfold out4_3
  rw [View.canon_unit_zero hz4]
  simp only [View.ld_unit_zero (S := S5000x16) hz4, View.ld_unit_zero (S := S16x16) hz4, View.ld_unit_zero (S := S16) hz4']
  obtain ⟨e00, e01, e10, e11, e20, e30, e31⟩ := idx_facts4 t
  have ht : t.val < 100 := t.isLt
  have h0 : ∀ (p : Fin 5000) (k : Fin 16),
      iblk4 V c 0 t (ix2 p k) = V c main_v15 (ix2 (⟨t.val * 5000 + p.val, by have := p.isLt; omega⟩ : Fin 500000) k) := fun p k => by
    show V c main_v15 (((cfg4.win 0).blk t).view.emb (ix2 p k)) = _
    congr 1; funext a; apply Fin.ext
    match a with
    | ⟨0, _⟩ => show win4_0.index t (0 : Fin 2) * 5000 + 1 * p.val = t.val * 5000 + p.val; omega
    | ⟨1, _⟩ => show win4_0.index t (1 : Fin 2) * 16 + 1 * k.val = k.val; omega
  have h1 : iblk4 V c 1 t = V c main_arg12 := funext fun y => by
    show V c main_arg12 (((cfg4.win 1).blk t).view.emb y) = V c main_arg12 y
    congr 1; funext a; apply Fin.ext
    match a with
    | ⟨0, _⟩ => show win4_1.index t (0 : Fin 2) * 16 + 1 * (y 0).val = (y 0).val; omega
    | ⟨1, _⟩ => show win4_1.index t (1 : Fin 2) * 16 + 1 * (y 1).val = (y 1).val; omega
  have h2 : iblk4 V c 2 t = V c main_arg13 := funext fun y => by
    show V c main_arg13 (((cfg4.win 2).blk t).view.emb y) = V c main_arg13 y
    congr 1; funext a; apply Fin.ext
    match a with
    | ⟨0, _⟩ => show win4_2.index t (0 : Fin 1) * 16 + 1 * (y 0).val = (y 0).val; omega
  funext j
  have key := block_value4 (V c main_v15) (V c main_arg12) (V c main_arg13) (iblk4 V c 0 t) (iblk4 V c 1 t) (iblk4 V c 2 t)
    (fun p => ⟨t.val * 5000 + p.val, by have := p.isLt; omega⟩) h0 h1 h2 (j 0) (j 1)
  refine (congrArg (k4_pay1 (iblk4 V c 0 t) (iblk4 V c 1 t) (iblk4 V c 2 t)) (eq_ix2 j)).trans (key.trans ?_)
  show Cert.Sage.proj (V c main_v15) (V c main_arg12) (V c main_arg13) _
    = Cert.Sage.proj (V c main_v15) (V c main_arg12) (V c main_arg13) (((cfg4.win 3).blk t).view.emb j)
  congr 1; funext a; apply Fin.ext
  match a with
  | ⟨0, _⟩ => show t.val * 5000 + (j 0).val = win4_3.index t (0 : Fin 2) * 5000 + 1 * (j 0).val; omega
  | ⟨1, _⟩ => show (j 1).val = win4_3.index t (1 : Fin 2) * 16 + 1 * (j 1).val; omega

/-! ## The blocks tile the array -/

/-- An index of the array is in point `t`'s block iff each coordinate is in the block's range on its axis. -/
theorem mem_blk4 (t : Fin cfg4.N) (i : S500000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v16).slice (win4_3.rect t)).set ↔ _
  rw [View.set_slice_whole, Rect.mem_set_unit]
  exact Iff.rfl

/-- Row `r` of the array lies in the block of point `r / 5000`. -/
theorem cover4 (i : S500000x16.Idx) :
    ∃ t : Fin cfg4.N, (cfg4.win 3).flush t = true ∧ i ∈ ((cfg4.win 3).blk t).view.set := by
  have hi0 : (i 0).val < 500000 := (i 0).isLt
  have hi1 : (i 1).val < 16 := (i 1).isLt
  have hlt : (i 0).val / 5000 < 100 := by omega
  obtain ⟨e00, e01, e10, e11, e20, e30, e31⟩ := idx_facts4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, hlt⟩ (1 : Fin 2) * 16 ≤ (i 1).val
      ∧ (i 1).val < win4_3.index ⟨(i 0).val / 5000, hlt⟩ (1 : Fin 2) * 16 + 16
    rw [e31]; omega

/-! ## The region's value -/

/-- After the 100 points the output array holds `relu (x · w + b)` of the arrays at the region's entry. -/
theorem region4_value (c : Dev nD) :
    (dat4 (F := Ideal) V c).arrAt 3 cfg4.N = Cert.Sage.proj (V c main_v15) (V c main_arg12) (V c main_arg13) :=
  (dat4 (F := Ideal) V c).arrAt_eq_of_cover 3 _ (fun t _ => flushed4_eq V c t) cover4

end Cert.KernelIdeal.Val
end
-- ==== Proof.KRegion5.lean ====
/-
  The value of the third combine region: on every block of 5000 rows the body computes the logistic function of
  (agg · lw + x · rw) + lb with sixteen features in and one out, and the 100 blocks tile the 500000 rows, so the array
  the region leaves is that function of the arrays it found, entry by entry.

  The road: the body's value at an entry of a block (two products accumulated into zero, read as sums over the shared
  axis; the one-entry bias laid along the rows; the logistic function); then what a point writes back, read where the
  output's block sits in the array (row block t, the weights and the bias whole); then every row r lies in block
  r / 5000.
-/
import proofs.«412034_j25769804311_1_alg».proof.Proof.Gen.KernelIdeal.Frame
import proofs.«412034_j25769804311_1_alg».proof.Proof.SageSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## A 5000×16 by 16×1 product at an entry: the sum over the shared axis -/

/-- The left operand's row is the entry's row. -/
theorem comb5_lhs_0 (i : S5000x1.Idx) (q : dot_S5000x16_S16x1_S5000x1_1_0_0_1_n_n.contr.Idx) :
    (dot_S5000x16_S16x1_S5000x1_1_0_0_1_n_n.lhsIdx i q 0).val = (i 0).val := by
  unfold DotDims.lhsIdx
  rw [dif_neg (show ¬(0 : Fin S5000x16.rank) ∈ dot_S5000x16_S16x1_S5000x1_1_0_0_1_n_n.lhsBatch by decide),
    dif_pos (show (0 : Fin S5000x16.rank) ∈ dot_S5000x16_S16x1_S5000x1_1_0_0_1_n_n.lhsNonContracting by decide)]
  rfl

/-- The left operand's column is the summation index. -/
theorem comb5_lhs_1 (i : S5000x1.Idx) (q : dot_S5000x16_S16x1_S5000x1_1_0_0_1_n_n.contr.Idx) :
    (dot_S5000x16_S16x1_S5000x1_1_0_0_1_n_n.lhsIdx i q 1).val = (q ⟨0, by decide⟩).val :=
  dot_S5000x16_S16x1_S5000x1_1_0_0_1_n_n.lhsIdx_val_of_single rfl i q

/-- The right operand's row is the summation index. -/
theorem comb5_rhs_0 (i : S5000x1.Idx) (q : dot_S5000x16_S16x1_S5000x1_1_0_0_1_n_n.contr.Idx) :
    (dot_S5000x16_S16x1_S5000x1_1_0_0_1_n_n.rhsIdx i q 0).val = (q ⟨0, by decide⟩).val :=
  dot_S5000x16_S16x1_S5000x1_1_0_0_1_n_n.rhsIdx_val_of_single rfl i q

/-- The right operand's column is the entry's column. -/
theorem comb5_rhs_1 (i : S5000x1.Idx) (q : dot_S5000x16_S16x1_S5000x1_1_0_0_1_n_n.contr.Idx) :
    (dot_S5000x16_S16x1_S5000x1_1_0_0_1_n_n.rhsIdx i q 1).val = (i 1).val := by
  unfold DotDims.rhsIdx
  rw [dif_neg (show ¬(1 : Fin S16x1.rank) ∈ dot_S5000x16_S16x1_S5000x1_1_0_0_1_n_n.rhsBatch by decide),
    dif_pos (show (1 : Fin S16x1.rank) ∈ dot_S5000x16_S16x1_S5000x1_1_0_0_1_n_n.rhsNonContracting by decide)]
  rfl

/-- The product accumulated into zero, at entry `(p, q)`: `∑ k, a (p, k) * w (k, q)`. -/
theorem comb5_matmul_apply {φ₁ φ₂ : FTy} (a : FVec Ideal S5000x16 φ₁) (w : FVec Ideal S16x1 φ₂) (p : Fin 5000) (q : Fin 1) :
    matmul dot_S5000x16_S16x1_S5000x1_1_0_0_1_n_n none a w (constant S5000x1 .f32 0x00000000#32) (ix2 p q)
      = ∑ k : Fin 16, a (ix2 p k) * w (ix2 k q) := by
  show FloatOps.matmul dot_S5000x16_S16x1_S5000x1_1_0_0_1_n_n none a w (constant S5000x1 .f32 0x00000000#32) (ix2 p q) = _
  rw [Ideal.matmul_constant_zero_apply,
    ← Equiv.sum_comp (ValueIdx.contrEquiv1 dot_S5000x16_S16x1_S5000x1_1_0_0_1_n_n 16 rfl rfl).symm]
  refine Finset.sum_congr rfl fun k _ => ?_
  have hk := ValueIdx.contrEquiv1_symm_val dot_S5000x16_S16x1_S5000x1_1_0_0_1_n_n 16 rfl rfl k
  have el : dot_S5000x16_S16x1_S5000x1_1_0_0_1_n_n.lhsIdx (ix2 p q)
      ((ValueIdx.contrEquiv1 dot_S5000x16_S16x1_S5000x1_1_0_0_1_n_n 16 rfl rfl).symm k) = ix2 p k :=
    funext fun a => Fin.ext (by
      match a with
      | ⟨0, _⟩ => exact comb5_lhs_0 _ _
      | ⟨1, _⟩ => exact (comb5_lhs_1 _ _).trans hk)
  have er : dot_S5000x16_S16x1_S5000x1_1_0_0_1_n_n.rhsIdx (ix2 p q)
      ((ValueIdx.contrEquiv1 dot_S5000x16_S16x1_S5000x1_1_0_0_1_n_n 16 rfl rfl).symm k) = ix2 k q :=
    funext fun a => Fin.ext (by
      match a with
      | ⟨0, _⟩ => exact (comb5_rhs_0 _ _).trans hk
      | ⟨1, _⟩ => exact comb5_rhs_1 _ _)
  rw [el, er]

/-- The one-entry bias laid along every row of the block: entry `(p, q)` is the bias's entry `q` (there is one). -/
theorem comb5_bias_apply (b : Vec Ideal S1 .f32) (p : Fin 5000) (q : Fin 1) :
    broadcastTo S5000x1 (shapeCast S1x1 b shapeCasts_S1_S1x1) broadcasts_S1x1_S5000x1 (ix2 p q) = b (ix1 q) :=
  (broadcastTo_apply (shapeCast S1x1 b shapeCasts_S1_S1x1) broadcasts_S1x1_S5000x1 (ix2 p q) (ix2 (0 : Fin 1) (0 : Fin 1))
    (fun a => by
      match a with
      | ⟨0, _⟩ => rfl
      | ⟨1, _⟩ => rfl)).trans
  ((shapeCast_addUnit_apply ![1] b shapeCasts_S1_S1x1 (ix2 (0 : Fin 1) (0 : Fin 1))).trans
    (congrArg b (funext fun a => by
      match a with
      | ⟨0, _⟩ => exact Fin.ext (by have hq := q.isLt; show (0 : Nat) = q.val; omega))))

/-- The body's value at entry `(p, q)` of the block: the logistic function of `(∑ a·lw + ∑ x·rw) + lb q`. -/
theorem comb5_pay_apply (a x : Vec Ideal S5000x16 .f32) (lw rw : Vec Ideal S16x1 .f32) (lb : Vec Ideal S1 .f32)
    (p : Fin 5000) (q : Fin 1) :
    k5_pay1 (F := Ideal) a lw x rw lb (ix2 p q)
      = Ideal.logistic ((∑ k : Fin 16, a (ix2 p k) * lw (ix2 k q) + ∑ k : Fin 16, x (ix2 p k) * rw (ix2 k q)) + lb (ix1 q)) := by
  unfold k5_pay1
  simp only [shapeCast_self]
  show Ideal.logistic _ = Ideal.logistic _
  refine congrArg Ideal.logistic ?_
  rw [addf_apply, addf_apply, comb5_matmul_apply, comb5_matmul_apply, comb5_bias_apply]
  rfl

/-! ## From the blocks to the array -/

theorem comb5_hz2 : (![0, 0] : Fin 2 → Nat) = fun _ => 0 := funext fun a => by fin_cases a <;> rfl

theorem comb5_hz1 : (![0] : Fin 1 → Nat) = fun _ => 0 := funext fun a => by fin_cases a <;> rfl

/-- The index maps over the 100 points: the two row-blocked inputs and the output sit at row block `t`, column
    block 0; the two weight columns and the bias are whole, at block 0. -/
theorem comb5_idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The specification's entry, spelled out. -/
theorem comb5_sig_apply (A X : Cert.Sage.Mat 500000 16) (LW RW : Cert.Sage.Mat 16 1) (LB : Cert.Sage.Row 1)
    (i : (⟨2, ![500000, 1]⟩ : Shape).Idx) :
    Cert.Sage.combSig A X LW LB RW i
      = Ideal.logistic ((∑ k : Fin 16, A (ix2 (i 0) k) * LW (ix2 k (i 1)) + ∑ k : Fin 16, X (ix2 (i 0) k) * RW (ix2 k (i 1)))
          + LB (ix1 (i 1))) := by
  unfold Cert.Sage.combSig Cert.Sage.lin2 Cert.Sage.mm
  rfl

/-- The aggregate's block at point `t`, read where the output's block sits: the same rows. -/
theorem comb5_agg_at (c : Dev nD) (t : Fin cfg5.N) (j : ((cfg5.win 5).xblock (cfg5.grid.coords t)).Idx) (k : Fin 16) :
    iblk5 V c 0 t (ix2 (j 0) k) = V c main_v20 (ix2 ((((cfg5.win 5).blk t).view.emb j) 0) k) := by
  obtain ⟨a0, a1, x0, x1, l0, l1, b0, r0, r1, o0, o1⟩ := comb5_idx_facts t
  have hj0 : (j 0).val < 5000 := (j 0).isLt
  show V c main_v20 (((cfg5.win 0).blk t).view.emb (ix2 (j 0) k)) = _
  refine congrArg (V c main_v20) (funext fun a => Fin.ext ?_)
  match a with
  | ⟨0, _⟩ =>
    show win5_0.index t (0 : Fin 2) * 5000 + 1 * (j 0).val = win5_5.index t (0 : Fin 2) * 5000 + 1 * (j 0).val
    omega
  | ⟨1, _⟩ => show win5_0.index t (1 : Fin 2) * 16 + 1 * k.val = k.val; omega

/-- The features' block at point `t`, read where the output's block sits: the same rows. -/
theorem comb5_x_at (c : Dev nD) (t : Fin cfg5.N) (j : ((cfg5.win 5).xblock (cfg5.grid.coords t)).Idx) (k : Fin 16) :
    iblk5 V c 1 t (ix2 (j 0) k) = V c main_v15 (ix2 ((((cfg5.win 5).blk t).view.emb j) 0) k) := by
  obtain ⟨a0, a1, x0, x1, l0, l1, b0, r0, r1, o0, o1⟩ := comb5_idx_facts t
  have hj0 : (j 0).val < 5000 := (j 0).isLt
  show V c main_v15 (((cfg5.win 1).blk t).view.emb (ix2 (j 0) k)) = _
  refine congrArg (V c main_v15) (funext fun a => Fin.ext ?_)
  match a with
  | ⟨0, _⟩ =>
    show win5_1.index t (0 : Fin 2) * 5000 + 1 * (j 0).val = win5_5.index t (0 : Fin 2) * 5000 + 1 * (j 0).val
    omega
  | ⟨1, _⟩ => show win5_1.index t (1 : Fin 2) * 16 + 1 * k.val = k.val; omega

/-- The left weights are whole at every point. -/
theorem comb5_lw_at (c : Dev nD) (t : Fin cfg5.N) (j : ((cfg5.win 5).xblock (cfg5.grid.coords t)).Idx) (k : Fin 16) :
    iblk5 V c 2 t (ix2 k (j 1)) = V c main_arg14 (ix2 k ((((cfg5.win 5).blk t).view.emb j) 1)) := by
  obtain ⟨a0, a1, x0, x1, l0, l1, b0, r0, r1, o0, o1⟩ := comb5_idx_facts t
  have hj1 : (j 1).val < 1 := (j 1).isLt
  show V c main_arg14 (((cfg5.win 2).blk t).view.emb (ix2 k (j 1))) = _
  refine congrArg (V c main_arg14) (funext fun a => Fin.ext ?_)
  match a with
  | ⟨0, _⟩ => show win5_2.index t (0 : Fin 2) * 16 + 1 * k.val = k.val; omega
  | ⟨1, _⟩ =>
    show win5_2.index t (1 : Fin 2) * 1 + 1 * (j 1).val = win5_5.index t (1 : Fin 2) * 1 + 1 * (j 1).val
    omega

/-- The right weights are whole at every point. -/
theorem comb5_rw_at (c : Dev nD) (t : Fin cfg5.N) (j : ((cfg5.win 5).xblock (cfg5.grid.coords t)).Idx) (k : Fin 16) :
    iblk5 V c 4 t (ix2 k (j 1)) = V c main_arg16 (ix2 k ((((cfg5.win 5).blk t).view.emb j) 1)) := by
  obtain ⟨a0, a1, x0, x1, l0, l1, b0, r0, r1, o0, o1⟩ := comb5_idx_facts t
  have hj1 : (j 1).val < 1 := (j 1).isLt
  show V c main_arg16 (((cfg5.win 4).blk t).view.emb (ix2 k (j 1))) = _
  refine congrArg (V c main_arg16) (funext fun a => Fin.ext ?_)
  match a with
  | ⟨0, _⟩ => show win5_4.index t (0 : Fin 2) * 16 + 1 * k.val = k.val; omega
  | ⟨1, _⟩ =>
    show win5_4.index t (1 : Fin 2) * 1 + 1 * (j 1).val = win5_5.index t (1 : Fin 2) * 1 + 1 * (j 1).val
    omega

/-- The bias is whole at every point. -/
theorem comb5_lb_at (c : Dev nD) (t : Fin cfg5.N) (j : ((cfg5.win 5).xblock (cfg5.grid.coords t)).Idx) :
    iblk5 V c 3 t (ix1 (j 1)) = V c main_arg15 (ix1 ((((cfg5.win 5).blk t).view.emb j) 1)) := by
  obtain ⟨a0, a1, x0, x1, l0, l1, b0, r0, r1, o0, o1⟩ := comb5_idx_facts t
  have hj1 : (j 1).val < 1 := (j 1).isLt
  show V c main_arg15 (((cfg5.win 3).blk t).view.emb (ix1 (j 1))) = _
  refine congrArg (V c main_arg15) (funext fun a => Fin.ext ?_)
  match a with
  | ⟨0, _⟩ =>
    show win5_3.index t (0 : Fin 1) * 1 + 1 * (j 1).val = win5_5.index t (1 : Fin 2) * 1 + 1 * (j 1).val
    omega

/-- What point `t` writes back is block `t` of the logistic function of `(agg · lw + x · rw) + lb` of the arrays as
    the region finds them: each input block is read where the output's block says — the same rows, the weights' and
    the bias's own coordinates. -/
theorem comb5_flushed (c : Dev nD) (t : Fin cfg5.N) :
    (dat5 (F := Ideal) V c).flushed 5 t
      = ((cfg5.win 5).blk t).view.read (Elt Ideal)
          (Cert.Sage.combSig (V c main_v20) (V c main_v15) (V c main_arg14) (V c main_arg15) (V c main_arg16)) := by
  show (cfg5.win 5).cut (grid5.coords t) ((dat5 V c).after 5 t) = _
  rw [after5_5]
  unfold out5_5
  rw [View.canon_unit_zero comb5_hz2]
  simp only [View.ld_unit_zero (S := S5000x16) comb5_hz2, View.ld_unit_zero (S := S16x1) comb5_hz2,
    View.ld_unit_zero (S := S1) comb5_hz1]
  funext j
  refine (congrArg (k5_pay1 (F := Ideal) (iblk5 V c 0 t) (iblk5 V c 2 t) (iblk5 V c 1 t) (iblk5 V c 4 t) (iblk5 V c 3 t))
      (eq_ix2 j)).trans
    ((comb5_pay_apply (iblk5 V c 0 t) (iblk5 V c 1 t) (iblk5 V c 2 t) (iblk5 V c 4 t) (iblk5 V c 3 t) (j 0) (j 1)).trans ?_)
  show _ = Cert.Sage.combSig (V c main_v20) (V c main_v15) (V c main_arg14) (V c main_arg15) (V c main_arg16)
    (((cfg5.win 5).blk t).view.emb j)
  refine Eq.trans ?_ (comb5_sig_apply _ _ _ _ _ _).symm
  exact congrArg Ideal.logistic (congrArg₂ HAdd.hAdd (congrArg₂ HAdd.hAdd
      (Finset.sum_congr rfl fun k _ => congrArg₂ HMul.hMul (comb5_agg_at V c t j k) (comb5_lw_at V c t j k))
      (Finset.sum_congr rfl fun k _ => congrArg₂ HMul.hMul (comb5_x_at V c t j k) (comb5_rw_at V c t j k)))
    (comb5_lb_at V c t j))

/-- An index of the array lies in point `t`'s block iff each coordinate lies in the block's range on its axis. -/
theorem comb5_mem_blk (t : Fin cfg5.N) (i : S500000x1.Idx) :
    i ∈ ((cfg5.win 5).blk t).view.set ↔ ∀ a : Fin 2, win5_5.index t a * S5000x1.size a ≤ (i a).val
      ∧ (i a).val < win5_5.index t a * S5000x1.size a + S5000x1.size a := by
  show i ∈ ((View.whole main_v21).slice (win5_5.rect t)).set ↔ _
  rw [View.set_slice_whole, Rect.mem_set_unit]
  exact Iff.rfl

/-- The 100 blocks of 5000 rows tile the 500000 rows: row `r` lies in block `r / 5000`. -/
theorem comb5_cover (i : S500000x1.Idx) :
    ∃ t : Fin cfg5.N, (cfg5.win 5).flush t = true ∧ i ∈ ((cfg5.win 5).blk t).view.set := by
  have hi0 : (i 0).val < 500000 := (i 0).isLt
  have hi1 : (i 1).val < 1 := (i 1).isLt
  have hN : (i 0).val / 5000 < cfg5.N := by show (i 0).val / 5000 < grid5.N; rw [N_5]; omega
  refine ⟨⟨(i 0).val / 5000, hN⟩, flush5_5 _, ?_⟩
  rw [comb5_mem_blk]
  obtain ⟨a0, a1, x0, x1, l0, l1, b0, r0, r1, o0, o1⟩ := comb5_idx_facts ⟨(i 0).val / 5000, hN⟩
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win5_5.index ⟨(i 0).val / 5000, hN⟩ (1 : Fin 2) * 1 ≤ (i 1).val
      ∧ (i 1).val < win5_5.index ⟨(i 0).val / 5000, hN⟩ (1 : Fin 2) * 1 + 1
    rw [o1]
    omega

/-- The array the region leaves: the logistic function of `(agg · lw + x · rw) + lb` of the arrays it found, entry
    by entry. -/
theorem region5_value (c : Dev nD) : (dat5 (F := Ideal) V c).arrAt 5 cfg5.N = Cert.Sage.combSig (V c main_v20) (V c main_v15) (V c main_arg14) (V c main_arg15) (V c main_arg16) :=
  (dat5 (F := Ideal) V c).arrAt_eq_of_cover 5 _ (fun t _ => comb5_flushed V c t) comb5_cover

end Cert.KernelIdeal.Val
end
-- ==== Proof.KChain.lean ====
/-
  The kernel program's result array as one function of its argument arrays: the three stacked layers, read off the
  run boundary by boundary.

  Each region leaves in its output array the layer step of what its input arrays held when it was entered, and each
  pair of host stretches between two regions leaves the aggregate of the projected features over the two edge lists.
  An input array of a piece is either an argument array, which no piece writes and which therefore still holds its
  launch contents, or one of the two edge lists, written once by the first stretch, or the output of an earlier piece,
  which nothing in between writes.  Reading every input back to where it was written turns the chain of boundary
  values into the nested expression `Cert.Sage.net`.
-/
import proofs.«412034_j25769804311_1_alg».proof.Proof.Gen.KernelIdeal.Frame
import proofs.«412034_j25769804311_1_alg».proof.Proof.SageSpec
import proofs.«412034_j25769804311_1_alg».proof.Proof.KHost
import proofs.«412034_j25769804311_1_alg».proof.Proof.KWalk
import proofs.«412034_j25769804311_1_alg».proof.Proof.KRegion0
import proofs.«412034_j25769804311_1_alg».proof.Proof.KRegion1
import proofs.«412034_j25769804311_1_alg».proof.Proof.KRegion2
import proofs.«412034_j25769804311_1_alg».proof.Proof.KRegion3
import proofs.«412034_j25769804311_1_alg».proof.Proof.KRegion4
import proofs.«412034_j25769804311_1_alg».proof.Proof.KRegion5

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

/-! ## Equal arguments give equal values -/

theorem eq3 {α β γ δ : Type} (f : α → β → γ → δ) {a a' : α} {b b' : β} {c c' : γ}
    (ha : a = a') (hb : b = b') (hc : c = c') : f a b c = f a' b' c' := by
  subst ha hb hc; rfl

theorem eq5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

open Cert.Sage in
/-- Nine arrays, each the layer step of the ones before it, end in `net` of the inputs. -/
theorem net_of {N : ℕ} {I : Type} (agg₃ : Mat N 3 → I → I → Mat N 3) (agg₁₆ : Mat N 16 → I → I → Mat N 16) {src dst : I}
    {x : Mat N 3} {p1w : Mat 3 3} {p1b : Row 3} {l1w : Mat 3 16} {l1b : Row 16} {r1w : Mat 3 16}
    {p2w : Mat 16 16} {p2b : Row 16} {l2w : Mat 16 16} {l2b : Row 16} {r2w : Mat 16 16}
    {p3w : Mat 16 16} {p3b : Row 16} {l3w : Mat 16 1} {l3b : Row 1} {r3w : Mat 16 1}
    {v4 v8 : Mat N 3} {v9 v10 v14 v15 v16 v20 : Mat N 16} {v21 : Mat N 1}
    (e4 : v4 = proj x p1w p1b) (e8 : v8 = agg₃ v4 src dst) (e9 : v9 = combRelu v8 x l1w l1b r1w)
    (e10 : v10 = proj v9 p2w p2b) (e14 : v14 = agg₁₆ v10 src dst) (e15 : v15 = combRelu v14 v9 l2w l2b r2w)
    (e16 : v16 = proj v15 p3w p3b) (e20 : v20 = agg₁₆ v16 src dst) (e21 : v21 = combSig v20 v15 l3w l3b r3w) :
    v21 = net agg₃ agg₁₆ src dst x p1w p1b l1w l1b r1w p2w p2b l2w l2b r2w p3w p3b l3w l3b r3w := by
  subst e4 e8 e9 e10 e14 e15 e16 e20 e21; rfl

variable (m : (ℓ : Loc nD τ sig) → Buf (Elt Ideal) ℓ) (ρ : Dev nD → PrngReg) (c : Dev nD)

/-! ## Several steps back at once -/

/-- Across layer 1's gather and scatter-add. -/
theorem s24 (b : Ref sig .tc) (h3 : b ∉ wr1 := by decide) (h4 : b ∉ wr1s := by decide) :
    W4 (F := Ideal) m ρ c (Proc.devRef .tc b) = W2 m ρ c (Proc.devRef .tc b) :=
  (W4_of m ρ c b h4).trans (W3_of m ρ c b h3)
/-- Across layer 2's. -/
theorem s68 (b : Ref sig .tc) (h7 : b ∉ wr3 := by decide) (h8 : b ∉ wr3s := by decide) :
    W8 (F := Ideal) m ρ c (Proc.devRef .tc b) = W6 m ρ c (Proc.devRef .tc b) :=
  (W8_of m ρ c b h8).trans (W7_of m ρ c b h7)
/-- Across layer 3's. -/
theorem s1012 (b : Ref sig .tc) (h11 : b ∉ wr5 := by decide) (h12 : b ∉ wr5s := by decide) :
    W12 (F := Ideal) m ρ c (Proc.devRef .tc b) = W10 m ρ c (Proc.devRef .tc b) :=
  (W12_of m ρ c b h12).trans (W11_of m ρ c b h11)

/-! ## A buffer nothing has written yet holds its launch contents -/

theorem back1 (b : Ref sig .tc) (h0 : b ∉ wr0 := by decide) :
    W1 (F := Ideal) m ρ c (Proc.devRef .tc b) = m ((c : Thread nD τ).loc b) :=
  W1_of m ρ c b h0
theorem back2 (b : Ref sig .tc) (h0 : b ∉ wr0 := by decide) (h2 : b ≠ main_v4 := by decide) :
    W2 (F := Ideal) m ρ c (Proc.devRef .tc b) = m ((c : Thread nD τ).loc b) :=
  (W2_keep m ρ c b h2).trans (back1 m ρ c b h0)
theorem back4 (b : Ref sig .tc) (h0 : b ∉ wr0 := by decide) (h2 : b ≠ main_v4 := by decide)
    (h3 : b ∉ wr1 := by decide) (h4 : b ∉ wr1s := by decide) :
    W4 (F := Ideal) m ρ c (Proc.devRef .tc b) = m ((c : Thread nD τ).loc b) :=
  (s24 m ρ c b h3 h4).trans (back2 m ρ c b h0 h2)
theorem back5 (b : Ref sig .tc) (h0 : b ∉ wr0 := by decide) (h2 : b ≠ main_v4 := by decide)
    (h3 : b ∉ wr1 := by decide) (h4 : b ∉ wr1s := by decide) (h5 : b ≠ main_v9 := by decide) :
    W5 (F := Ideal) m ρ c (Proc.devRef .tc b) = m ((c : Thread nD τ).loc b) :=
  (W5_keep m ρ c b h5).trans (back4 m ρ c b h0 h2 h3 h4)
theorem back6 (b : Ref sig .tc) (h0 : b ∉ wr0 := by decide) (h2 : b ≠ main_v4 := by decide)
    (h3 : b ∉ wr1 := by decide) (h4 : b ∉ wr1s := by decide) (h5 : b ≠ main_v9 := by decide)
    (h6 : b ≠ main_v10 := by decide) :
    W6 (F := Ideal) m ρ c (Proc.devRef .tc b) = m ((c : Thread nD τ).loc b) :=
  (W6_keep m ρ c b h6).trans (back5 m ρ c b h0 h2 h3 h4 h5)
theorem back8 (b : Ref sig .tc) (h0 : b ∉ wr0 := by decide) (h2 : b ≠ main_v4 := by decide)
    (h3 : b ∉ wr1 := by decide) (h4 : b ∉ wr1s := by decide) (h5 : b ≠ main_v9 := by decide)
    (h6 : b ≠ main_v10 := by decide) (h7 : b ∉ wr3 := by decide) (h8 : b ∉ wr3s := by decide) :
    W8 (F := Ideal) m ρ c (Proc.devRef .tc b) = m ((c : Thread nD τ).loc b) :=
  (s68 m ρ c b h7 h8).trans (back6 m ρ c b h0 h2 h3 h4 h5 h6)
theorem back9 (b : Ref sig .tc) (h0 : b ∉ wr0 := by decide) (h2 : b ≠ main_v4 := by decide)
    (h3 : b ∉ wr1 := by decide) (h4 : b ∉ wr1s := by decide) (h5 : b ≠ main_v9 := by decide)
    (h6 : b ≠ main_v10 := by decide) (h7 : b ∉ wr3 := by decide) (h8 : b ∉ wr3s := by decide)
    (h9 : b ≠ main_v15 := by decide) :
    W9 (F := Ideal) m ρ c (Proc.devRef .tc b) = m ((c : Thread nD τ).loc b) :=
  (W9_keep m ρ c b h9).trans (back8 m ρ c b h0 h2 h3 h4 h5 h6 h7 h8)
theorem back10 (b : Ref sig .tc) (h0 : b ∉ wr0 := by decide) (h2 : b ≠ main_v4 := by decide)
    (h3 : b ∉ wr1 := by decide) (h4 : b ∉ wr1s := by decide) (h5 : b ≠ main_v9 := by decide)
    (h6 : b ≠ main_v10 := by decide) (h7 : b ∉ wr3 := by decide) (h8 : b ∉ wr3s := by decide)
    (h9 : b ≠ main_v15 := by decide) (h10 : b ≠ main_v16 := by decide) :
    W10 (F := Ideal) m ρ c (Proc.devRef .tc b) = m ((c : Thread nD τ).loc b) :=
  (W10_keep m ρ c b h10).trans (back9 m ρ c b h0 h2 h3 h4 h5 h6 h7 h8 h9)
theorem back12 (b : Ref sig .tc) (h0 : b ∉ wr0 := by decide) (h2 : b ≠ main_v4 := by decide)
    (h3 : b ∉ wr1 := by decide) (h4 : b ∉ wr1s := by decide) (h5 : b ≠ main_v9 := by decide)
    (h6 : b ≠ main_v10 := by decide) (h7 : b ∉ wr3 := by decide) (h8 : b ∉ wr3s := by decide)
    (h9 : b ≠ main_v15 := by decide) (h10 : b ≠ main_v16 := by decide)
    (h11 : b ∉ wr5 := by decide) (h12 : b ∉ wr5s := by decide) :
    W12 (F := Ideal) m ρ c (Proc.devRef .tc b) = m ((c : Thread nD τ).loc b) :=
  (s1012 m ρ c b h11 h12).trans (back10 m ρ c b h0 h2 h3 h4 h5 h6 h7 h8 h9 h10)

/-! ## The two edge lists, written once by the first stretch, at the three boundaries where a gather reads them -/

theorem src2 : W2 (F := Ideal) m ρ c (Proc.devRef .tc main_v1) = srcOf (m ((c : Thread nD τ).loc main_arg1)) :=
  (W2_keep m ρ c main_v1 (by decide)).trans (host0_src (W0 m ρ c))
theorem dst2 : W2 (F := Ideal) m ρ c (Proc.devRef .tc main_v3) = dstOf (m ((c : Thread nD τ).loc main_arg1)) :=
  (W2_keep m ρ c main_v3 (by decide)).trans (host0_dst (W0 m ρ c))
theorem src6 : W6 (F := Ideal) m ρ c (Proc.devRef .tc main_v1) = srcOf (m ((c : Thread nD τ).loc main_arg1)) :=
  (W6_keep m ρ c main_v1 (by decide)).trans ((W5_keep m ρ c main_v1 (by decide)).trans ((s24 m ρ c main_v1).trans (src2 m ρ c)))
theorem dst6 : W6 (F := Ideal) m ρ c (Proc.devRef .tc main_v3) = dstOf (m ((c : Thread nD τ).loc main_arg1)) :=
  (W6_keep m ρ c main_v3 (by decide)).trans ((W5_keep m ρ c main_v3 (by decide)).trans ((s24 m ρ c main_v3).trans (dst2 m ρ c)))
theorem src10 : W10 (F := Ideal) m ρ c (Proc.devRef .tc main_v1) = srcOf (m ((c : Thread nD τ).loc main_arg1)) :=
  (W10_keep m ρ c main_v1 (by decide)).trans ((W9_keep m ρ c main_v1 (by decide)).trans ((s68 m ρ c main_v1).trans (src6 m ρ c)))
theorem dst10 : W10 (F := Ideal) m ρ c (Proc.devRef .tc main_v3) = dstOf (m ((c : Thread nD τ).loc main_arg1)) :=
  (W10_keep m ρ c main_v3 (by decide)).trans ((W9_keep m ρ c main_v3 (by decide)).trans ((s68 m ρ c main_v3).trans (dst6 m ρ c)))

/-! ## Each argument array at the boundary where a region reads it -/

theorem arg0_at1 : W1 (F := Ideal) m ρ c (Proc.devRef .tc main_arg0) = m ((c : Thread nD τ).loc main_arg0) := back1 m ρ c main_arg0
theorem arg2_at1 : W1 (F := Ideal) m ρ c (Proc.devRef .tc main_arg2) = m ((c : Thread nD τ).loc main_arg2) := back1 m ρ c main_arg2
theorem arg3_at1 : W1 (F := Ideal) m ρ c (Proc.devRef .tc main_arg3) = m ((c : Thread nD τ).loc main_arg3) := back1 m ρ c main_arg3
theorem arg0_at4 : W4 (F := Ideal) m ρ c (Proc.devRef .tc main_arg0) = m ((c : Thread nD τ).loc main_arg0) := back4 m ρ c main_arg0
theorem arg4_at4 : W4 (F := Ideal) m ρ c (Proc.devRef .tc main_arg4) = m ((c : Thread nD τ).loc main_arg4) := back4 m ρ c main_arg4
theorem arg5_at4 : W4 (F := Ideal) m ρ c (Proc.devRef .tc main_arg5) = m ((c : Thread nD τ).loc main_arg5) := back4 m ρ c main_arg5
theorem arg6_at4 : W4 (F := Ideal) m ρ c (Proc.devRef .tc main_arg6) = m ((c : Thread nD τ).loc main_arg6) := back4 m ρ c main_arg6
theorem arg7_at5 : W5 (F := Ideal) m ρ c (Proc.devRef .tc main_arg7) = m ((c : Thread nD τ).loc main_arg7) := back5 m ρ c main_arg7
theorem arg8_at5 : W5 (F := Ideal) m ρ c (Proc.devRef .tc main_arg8) = m ((c : Thread nD τ).loc main_arg8) := back5 m ρ c main_arg8
theorem arg9_at8 : W8 (F := Ideal) m ρ c (Proc.devRef .tc main_arg9) = m ((c : Thread nD τ).loc main_arg9) := back8 m ρ c main_arg9
theorem arg10_at8 : W8 (F := Ideal) m ρ c (Proc.devRef .tc main_arg10) = m ((c : Thread nD τ).loc main_arg10) := back8 m ρ c main_arg10
theorem arg11_at8 : W8 (F := Ideal) m ρ c (Proc.devRef .tc main_arg11) = m ((c : Thread nD τ).loc main_arg11) := back8 m ρ c main_arg11
theorem arg12_at9 : W9 (F := Ideal) m ρ c (Proc.devRef .tc main_arg12) = m ((c : Thread nD τ).loc main_arg12) := back9 m ρ c main_arg12
theorem arg13_at9 : W9 (F := Ideal) m ρ c (Proc.devRef .tc main_arg13) = m ((c : Thread nD τ).loc main_arg13) := back9 m ρ c main_arg13
theorem arg14_at12 : W12 (F := Ideal) m ρ c (Proc.devRef .tc main_arg14) = m ((c : Thread nD τ).loc main_arg14) := back12 m ρ c main_arg14
theorem arg15_at12 : W12 (F := Ideal) m ρ c (Proc.devRef .tc main_arg15) = m ((c : Thread nD τ).loc main_arg15) := back12 m ρ c main_arg15
theorem arg16_at12 : W12 (F := Ideal) m ρ c (Proc.devRef .tc main_arg16) = m ((c : Thread nD τ).loc main_arg16) := back12 m ρ c main_arg16

/-! ## An earlier layer's output at the later region that reads it again -/

/-- Layer 1's output, read by layer 2's combination: neither layer 2's projection nor its host stretches write it. -/
theorem y1_at8 : W8 (F := Ideal) m ρ c (Proc.devRef .tc main_v9) = W5 m ρ c (Proc.devRef .tc main_v9) :=
  (s68 m ρ c main_v9).trans (W6_keep m ρ c main_v9 (by decide))
/-- Layer 2's output, read by layer 3's combination. -/
theorem y2_at12 : W12 (F := Ideal) m ρ c (Proc.devRef .tc main_v15) = W9 m ρ c (Proc.devRef .tc main_v15) :=
  (s1012 m ρ c main_v15).trans (W10_keep m ρ c main_v15 (by decide))

/-! ## The nine arrays the layers pass along, each from the ones before it -/

/-- Layer 1's projected features. -/
theorem val4
    (h0 : ∀ (V : (c : Dev nD) → (b : Ref sig .tc) → Buf (Elt Ideal) ((c : Thread nD τ).loc b)) (c : Dev nD),
      (dat0 (F := Ideal) V c).arrAt 3 cfg0.N = Cert.Sage.proj (V c main_arg0) (V c main_arg2) (V c main_arg3)) :
    W2 (F := Ideal) m ρ c (Proc.devRef .tc main_v4)
      = Cert.Sage.proj (m ((c : Thread nD τ).loc main_arg0)) (m ((c : Thread nD τ).loc main_arg2)) (m ((c : Thread nD τ).loc main_arg3)) :=
  (W2_arr m ρ c 3).trans ((h0 (V1 m ρ) c).trans
    (eq3 Cert.Sage.proj (arg0_at1 m ρ c) (arg2_at1 m ρ c) (arg3_at1 m ρ c)))
/-- Layer 1's aggregate. -/
theorem val8 :
    W4 (F := Ideal) m ρ c (Proc.devRef .tc main_v8)
      = agg3 (W2 m ρ c (Proc.devRef .tc main_v4)) (srcOf (m ((c : Thread nD τ).loc main_arg1))) (dstOf (m ((c : Thread nD τ).loc main_arg1))) :=
  (host1 (W2 m ρ c)).trans (eq3 agg3 rfl (src2 m ρ c) (dst2 m ρ c))
/-- Layer 1's output. -/
theorem val9
    (h1 : ∀ (V : (c : Dev nD) → (b : Ref sig .tc) → Buf (Elt Ideal) ((c : Thread nD τ).loc b)) (c : Dev nD),
      (dat1 (F := Ideal) V c).arrAt 5 cfg1.N
        = Cert.Sage.combRelu (V c main_v8) (V c main_arg0) (V c main_arg4) (V c main_arg5) (V c main_arg6)) :
    W5 (F := Ideal) m ρ c (Proc.devRef .tc main_v9)
      = Cert.Sage.combRelu (W4 m ρ c (Proc.devRef .tc main_v8)) (m ((c : Thread nD τ).loc main_arg0))
          (m ((c : Thread nD τ).loc main_arg4)) (m ((c : Thread nD τ).loc main_arg5)) (m ((c : Thread nD τ).loc main_arg6)) :=
  (W5_arr m ρ c 5).trans ((h1 (V4 m ρ) c).trans
    (eq5 Cert.Sage.combRelu rfl (arg0_at4 m ρ c) (arg4_at4 m ρ c) (arg5_at4 m ρ c) (arg6_at4 m ρ c)))
/-- Layer 2's projected features. -/
theorem val10
    (h2 : ∀ (V : (c : Dev nD) → (b : Ref sig .tc) → Buf (Elt Ideal) ((c : Thread nD τ).loc b)) (c : Dev nD),
      (dat2 (F := Ideal) V c).arrAt 3 cfg2.N = Cert.Sage.proj (V c main_v9) (V c main_arg7) (V c main_arg8)) :
    W6 (F := Ideal) m ρ c (Proc.devRef .tc main_v10)
      = Cert.Sage.proj (W5 m ρ c (Proc.devRef .tc main_v9)) (m ((c : Thread nD τ).loc main_arg7)) (m ((c : Thread nD τ).loc main_arg8)) :=
  (W6_arr m ρ c 3).trans ((h2 (V5 m ρ) c).trans
    (eq3 Cert.Sage.proj rfl (arg7_at5 m ρ c) (arg8_at5 m ρ c)))
/-- Layer 2's aggregate. -/
theorem val14 :
    W8 (F := Ideal) m ρ c (Proc.devRef .tc main_v14)
      = agg16 (W6 m ρ c (Proc.devRef .tc main_v10)) (srcOf (m ((c : Thread nD τ).loc main_arg1))) (dstOf (m ((c : Thread nD τ).loc main_arg1))) :=
  (host3 (W6 m ρ c)).trans (eq3 agg16 rfl (src6 m ρ c) (dst6 m ρ c))
/-- Layer 2's output. -/
theorem val15
    (h3 : ∀ (V : (c : Dev nD) → (b : Ref sig .tc) → Buf (Elt Ideal) ((c : Thread nD τ).loc b)) (c : Dev nD),
      (dat3 (F := Ideal) V c).arrAt 5 cfg3.N
        = Cert.Sage.combRelu (V c main_v14) (V c main_v9) (V c main_arg9) (V c main_arg10) (V c main_arg11)) :
    W9 (F := Ideal) m ρ c (Proc.devRef .tc main_v15)
      = Cert.Sage.combRelu (W8 m ρ c (Proc.devRef .tc main_v14)) (W5 m ρ c (Proc.devRef .tc main_v9))
          (m ((c : Thread nD τ).loc main_arg9)) (m ((c : Thread nD τ).loc main_arg10)) (m ((c : Thread nD τ).loc main_arg11)) :=
  (W9_arr m ρ c 5).trans ((h3 (V8 m ρ) c).trans
    (eq5 Cert.Sage.combRelu rfl (y1_at8 m ρ c) (arg9_at8 m ρ c) (arg10_at8 m ρ c) (arg11_at8 m ρ c)))
/-- Layer 3's projected features. -/
theorem val16
    (h4 : ∀ (V : (c : Dev nD) → (b : Ref sig .tc) → Buf (Elt Ideal) ((c : Thread nD τ).loc b)) (c : Dev nD),
      (dat4 (F := Ideal) V c).arrAt 3 cfg4.N = Cert.Sage.proj (V c main_v15) (V c main_arg12) (V c main_arg13)) :
    W10 (F := Ideal) m ρ c (Proc.devRef .tc main_v16)
      = Cert.Sage.proj (W9 m ρ c (Proc.devRef .tc main_v15)) (m ((c : Thread nD τ).loc main_arg12)) (m ((c : Thread nD τ).loc main_arg13)) :=
  (W10_arr m ρ c 3).trans ((h4 (V9 m ρ) c).trans
    (eq3 Cert.Sage.proj rfl (arg12_at9 m ρ c) (arg13_at9 m ρ c)))
/-- Layer 3's aggregate. -/
theorem val20 :
    W12 (F := Ideal) m ρ c (Proc.devRef .tc main_v20)
      = agg16 (W10 m ρ c (Proc.devRef .tc main_v16)) (srcOf (m ((c : Thread nD τ).loc main_arg1))) (dstOf (m ((c : Thread nD τ).loc main_arg1))) :=
  (host5 (W10 m ρ c)).trans (eq3 agg16 rfl (src10 m ρ c) (dst10 m ρ c))
/-- Layer 3's output: the result array. -/
theorem val21
    (h5 : ∀ (V : (c : Dev nD) → (b : Ref sig .tc) → Buf (Elt Ideal) ((c : Thread nD τ).loc b)) (c : Dev nD),
      (dat5 (F := Ideal) V c).arrAt 5 cfg5.N
        = Cert.Sage.combSig (V c main_v20) (V c main_v15) (V c main_arg14) (V c main_arg15) (V c main_arg16)) :
    W13 (F := Ideal) m ρ c (Proc.devRef .tc main_v21)
      = Cert.Sage.combSig (W12 m ρ c (Proc.devRef .tc main_v20)) (W9 m ρ c (Proc.devRef .tc main_v15))
          (m ((c : Thread nD τ).loc main_arg14)) (m ((c : Thread nD τ).loc main_arg15)) (m ((c : Thread nD τ).loc main_arg16)) :=
  (W13_arr m ρ c 5).trans ((h5 (V12 m ρ) c).trans
    (eq5 Cert.Sage.combSig rfl (y2_at12 m ρ c) (arg14_at12 m ρ c) (arg15_at12 m ρ c) (arg16_at12 m ρ c)))

/-! ## The chain -/

/-- The result array from the six region values: boundary by boundary, every input read back to where it was written. -/
theorem kernel_value_of
    (h0 : ∀ (V : (c : Dev nD) → (b : Ref sig .tc) → Buf (Elt Ideal) ((c : Thread nD τ).loc b)) (c : Dev nD),
      (dat0 (F := Ideal) V c).arrAt 3 cfg0.N = Cert.Sage.proj (V c main_arg0) (V c main_arg2) (V c main_arg3))
    (h1 : ∀ (V : (c : Dev nD) → (b : Ref sig .tc) → Buf (Elt Ideal) ((c : Thread nD τ).loc b)) (c : Dev nD),
      (dat1 (F := Ideal) V c).arrAt 5 cfg1.N
        = Cert.Sage.combRelu (V c main_v8) (V c main_arg0) (V c main_arg4) (V c main_arg5) (V c main_arg6))
    (h2 : ∀ (V : (c : Dev nD) → (b : Ref sig .tc) → Buf (Elt Ideal) ((c : Thread nD τ).loc b)) (c : Dev nD),
      (dat2 (F := Ideal) V c).arrAt 3 cfg2.N = Cert.Sage.proj (V c main_v9) (V c main_arg7) (V c main_arg8))
    (h3 : ∀ (V : (c : Dev nD) → (b : Ref sig .tc) → Buf (Elt Ideal) ((c : Thread nD τ).loc b)) (c : Dev nD),
      (dat3 (F := Ideal) V c).arrAt 5 cfg3.N
        = Cert.Sage.combRelu (V c main_v14) (V c main_v9) (V c main_arg9) (V c main_arg10) (V c main_arg11))
    (h4 : ∀ (V : (c : Dev nD) → (b : Ref sig .tc) → Buf (Elt Ideal) ((c : Thread nD τ).loc b)) (c : Dev nD),
      (dat4 (F := Ideal) V c).arrAt 3 cfg4.N = Cert.Sage.proj (V c main_v15) (V c main_arg12) (V c main_arg13))
    (h5 : ∀ (V : (c : Dev nD) → (b : Ref sig .tc) → Buf (Elt Ideal) ((c : Thread nD τ).loc b)) (c : Dev nD),
      (dat5 (F := Ideal) V c).arrAt 5 cfg5.N
        = Cert.Sage.combSig (V c main_v20) (V c main_v15) (V c main_arg14) (V c main_arg15) (V c main_arg16)) :
    W13 (F := Ideal) m ρ c (Proc.devRef .tc main_v21)
      = Cert.Sage.net agg3 agg16 (srcOf (m ((c : Thread nD τ).loc main_arg1))) (dstOf (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  net_of agg3 agg16 (val4 m ρ c h0) (val8 m ρ c) (val9 m ρ c h1) (val10 m ρ c h2) (val14 m ρ c) (val15 m ρ c h3)
    (val16 m ρ c h4) (val20 m ρ c) (val21 m ρ c h5)

/-- The kernel program's result array is the three stacked layers of its argument arrays. -/
theorem kernel_value (m : (ℓ : Loc nD τ sig) → Buf (Elt Ideal) ℓ) (ρ : Dev nD → PrngReg) (c : Dev nD) :
    W13 (F := Ideal) m ρ c (Proc.devRef .tc main_v21)
      = Cert.Sage.net agg3 agg16 (srcOf (m ((c : Thread nD τ).loc main_arg1))) (dstOf (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  kernel_value_of m ρ c region0_value region1_value region2_value region3_value region4_value region5_value

end Cert.KernelIdeal.Val

end
-- ==== Proof.ROps.lean ====
import proofs.«412034_j25769804311_1_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- 4 operations — the two edge lists cut out of the edge array. -/
abbrev opsA : List (HloOp τ sig (Elt F)) :=
  [ StableHlo.unary main_arg1 main_v0 ((extractStridedSlice S1x5000000 ![0, 0] · slices_S2x5000000_S1x5000000_0_0) : (⟨S2x5000000, .i32⟩ : BufTy).Contents (Elt F) → (⟨S1x5000000, .i32⟩ : BufTy).Contents (Elt F)),
    StableHlo.reshape main_v0 main_v1 rfl shapeCasts_S1x5000000_S5000000,
    StableHlo.unary main_arg1 main_v2 ((extractStridedSlice S1x5000000 ![1, 0] · slices_S2x5000000_S1x5000000_1_0) : (⟨S2x5000000, .i32⟩ : BufTy).Contents (Elt F) → (⟨S1x5000000, .i32⟩ : BufTy).Contents (Elt F)),
    StableHlo.reshape main_v2 main_v3 rfl shapeCasts_S1x5000000_S5000000 ]

/-- 7 operations — layer 1: project. -/
abbrev opsP1 : List (HloOp τ sig (Elt F)) :=
  [ StableHlo.binary main_arg0 main_arg2 main_v4 ((fun l r => Host.dotGeneral dot_S500000x3_S3x3_S500000x3_1_0_0_1_n_n none l r) : (⟨S500000x3, .f32⟩ : BufTy).Contents (Elt F) → (⟨S3x3, .f32⟩ : BufTy).Contents (Elt F) → (⟨S500000x3, .f32⟩ : BufTy).Contents (Elt F)),
    StableHlo.unary main_arg3 main_v5 (broadcastInDim S1x3 ![1] bcast_S3_S1x3_1 : (⟨S3, .f32⟩ : BufTy).Contents (Elt F) → (⟨S1x3, .f32⟩ : BufTy).Contents (Elt F)),
    StableHlo.unary main_v5 main_v6 (broadcastInDim S500000x3 ![0, 1] bcast_S1x3_S500000x3_0_1 : (⟨S1x3, .f32⟩ : BufTy).Contents (Elt F) → (⟨S500000x3, .f32⟩ : BufTy).Contents (Elt F)),
    StableHlo.binary main_v4 main_v6 main_v7 (addf : (⟨S500000x3, .f32⟩ : BufTy).Contents (Elt F) → (⟨S500000x3, .f32⟩ : BufTy).Contents (Elt F) → (⟨S500000x3, .f32⟩ : BufTy).Contents (Elt F)),
    StableHlo.TRef.nullary main_call0.cst (constant S_ .f32 0x00000000#32),
    StableHlo.TRef.unary main_call0.cst main_call0.v0 (broadcastInDim S500000x3 ![] bcast_S_S500000x3),
    StableHlo.TRef.binary (.of main_v7 : StableHlo.TRef sig ⟨S500000x3, .f32⟩) main_call0.v0 main_call0.v1 maximumf ]

/-- 27 operations — layer 1: gather the rows at the sources, scatter-add them at the targets. -/
abbrev opsG1 : List (HloOp τ sig (Elt F)) :=
  [ StableHlo.TRef.nullary main_call1.c (constantI S_ 32 0#32),
    StableHlo.TRef.unary main_call1.c main_call1.v0 (broadcastInDim S5000000 ![] bcast_S_S5000000),
    StableHlo.TRef.binary (.of main_v1 : StableHlo.TRef sig ⟨S5000000, .i32⟩) main_call1.v0 main_call1.v1 (cmpi .slt),
    StableHlo.TRef.nullary main_call1.c_0 (constantI S_ 32 500000#32),
    StableHlo.TRef.unary main_call1.c_0 main_call1.v2 (broadcastInDim S5000000 ![] bcast_S_S5000000),
    StableHlo.TRef.binary (.of main_v1 : StableHlo.TRef sig ⟨S5000000, .i32⟩) main_call1.v2 main_call1.v3 addi,
    StableHlo.TRef.ternary main_call1.v1 main_call1.v3 (.of main_v1 : StableHlo.TRef sig ⟨S5000000, .i32⟩) main_call1.call0.v0 select,
    StableHlo.TRef.unary main_call1.call0.v0 main_call1.v5 (broadcastInDim S5000000x1 ![0] bcast_S5000000_S5000000x1_0),
    StableHlo.TRef.nullary main_call1.c_1 (constantI S1 32 499999#32),
    StableHlo.TRef.nullary main_call1.c_2 (constantI S_ 32 0#32),
    StableHlo.TRef.unary main_call1.c_2 main_call1.v6 (broadcastInDim S5000000x1 ![] bcast_S_S5000000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S5000000x1 ![0, 1] bcast_S1x1_S5000000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S5000000x1_S5000000_d1 h_S_),
    StableHlo.TRef.binary (.of main_v8 : StableHlo.TRef sig ⟨S500000x3, .f32⟩) main_call1.v5 main_call1.v13 (fun x i => Host.gather gather_S500000x3_S5000000x1_S5000000x3_1_0_n_n_0_1_13 x i),
    StableHlo.TRef.unary main_call1.v12 main_call1.v14 (broadcastInDim S5000000x3 ![0] bcast_S5000000_S5000000x3_0),
    StableHlo.TRef.nullary main_call1.cst (constant S_ .f32 0x7FC00000#32),
    StableHlo.TRef.unary main_call1.cst main_call1.v15 (broadcastInDim S5000000x3 ![] bcast_S_S5000000x3),
    StableHlo.TRef.ternary main_call1.v14 main_call1.v13 main_call1.v15 main_call1.v16 select,
    StableHlo.nullary main_cst (constant S_ .f32 0x00000000#32),
    StableHlo.unary main_cst main_v10 (broadcastInDim S500000x3 ![] bcast_S_S500000x3 : (⟨S_, .f32⟩ : BufTy).Contents (Elt F) → (⟨S500000x3, .f32⟩ : BufTy).Contents (Elt F)),
    StableHlo.unary main_v3 main_v11 (broadcastInDim S5000000x1 ![0] bcast_S5000000_S5000000x1_0 : (⟨S5000000, .i32⟩ : BufTy).Contents (Elt F) → (⟨S5000000x1, .i32⟩ : BufTy).Contents (Elt F)),
    StableHlo.ternary main_v10 main_v11 main_v9 main_v12 ((fun x i u => Host.scatterAdd scatter_S500000x3_S5000000x1_S5000000x3_1_0_0_1 x i u) : (⟨S500000x3, .f32⟩ : BufTy).Contents (Elt F) → (⟨S5000000x1, .i32⟩ : BufTy).Contents (Elt F) → (⟨S5000000x3, .f32⟩ : BufTy).Contents (Elt F) → (⟨S500000x3, .f32⟩ : BufTy).Contents (Elt F)) ]

/-- 9 operations — layer 1: combine. -/
abbrev opsC1 : List (HloOp τ sig (Elt F)) :=
  [ StableHlo.binary main_v12 main_arg4 main_v13 ((fun l r => Host.dotGeneral dot_S500000x3_S3x16_S500000x16_1_0_0_1_n_n none l r) : (⟨S500000x3, .f32⟩ : BufTy).Contents (Elt F) → (⟨S3x16, .f32⟩ : BufTy).Contents (Elt F) → (⟨S500000x16, .f32⟩ : BufTy).Contents (Elt F)),
    StableHlo.unary main_arg5 main_v14 (broadcastInDim S1x16 ![1] bcast_S16_S1x16_1 : (⟨S16, .f32⟩ : BufTy).Contents (Elt F) → (⟨S1x16, .f32⟩ : BufTy).Contents (Elt F)),
    StableHlo.unary main_v14 main_v15 (broadcastInDim S500000x16 ![0, 1] bcast_S1x16_S500000x16_0_1 : (⟨S1x16, .f32⟩ : BufTy).Contents (Elt F) → (⟨S500000x16, .f32⟩ : BufTy).Contents (Elt F)),
    StableHlo.binary main_v13 main_v15 main_v16 (addf : (⟨S500000x16, .f32⟩ : BufTy).Contents (Elt F) → (⟨S500000x16, .f32⟩ : BufTy).Contents (Elt F) → (⟨S500000x16, .f32⟩ : BufTy).Contents (Elt F)),
    StableHlo.binary main_arg0 main_arg6 main_v17 ((fun l r => Host.dotGeneral dot_S500000x3_S3x16_S500000x16_1_0_0_1_n_n none l r) : (⟨S500000x3, .f32⟩ : BufTy).Contents (Elt F) → (⟨S3x16, .f32⟩ : BufTy).Contents (Elt F) → (⟨S500000x16, .f32⟩ : BufTy).Contents (Elt F)),
    StableHlo.binary main_v16 main_v17 main_v18 (addf : (⟨S500000x16, .f32⟩ : BufTy).Contents (Elt F) → (⟨S500000x16, .f32⟩ : BufTy).Contents (Elt F) → (⟨S500000x16, .f32⟩ : BufTy).Contents (Elt F)),
    StableHlo.TRef.nullary main_call2.cst (constant S_ .f32 0x00000000#32),
    StableHlo.TRef.unary main_call2.cst main_call2.v0 (broadcastInDim S500000x16 ![] bcast_S_S500000x16),
    StableHlo.TRef.binary (.of main_v18 : StableHlo.TRef sig ⟨S500000x16, .f32⟩) main_call2.v0 main_call2.v1 maximumf ]

/-- 7 operations — layer 2: project. -/
abbrev opsP2 : List (HloOp τ sig (Elt F)) :=
  [ StableHlo.binary main_v19 main_arg7 main_v20 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg8 main_v21 (broadcastInDim S1x16 ![1] bcast_S16_S1x16_1 : (⟨S16, .f32⟩ : BufTy).Contents (Elt F) → (⟨S1x16, .f32⟩ : BufTy).Contents (Elt F)),
    StableHlo.unary main_v21 main_v22 (broadcastInDim S500000x16 ![0, 1] bcast_S1x16_S500000x16_0_1 : (⟨S1x16, .f32⟩ : BufTy).Contents (Elt F) → (⟨S500000x16, .f32⟩ : BufTy).Contents (Elt F)),
    StableHlo.binary main_v20 main_v22 main_v23 (addf : (⟨S500000x16, .f32⟩ : BufTy).Contents (Elt F) → (⟨S500000x16, .f32⟩ : BufTy).Contents (Elt F) → (⟨S500000x16, .f32⟩ : BufTy).Contents (Elt F)),
    StableHlo.TRef.nullary main_call3.cst (constant S_ .f32 0x00000000#32),
    StableHlo.TRef.unary main_call3.cst main_call3.v0 (broadcastInDim S500000x16 ![] bcast_S_S500000x16),
    StableHlo.TRef.binary (.of main_v23 : StableHlo.TRef sig ⟨S500000x16, .f32⟩) main_call3.v0 main_call3.v1 maximumf ]

/-- 27 operations — layer 2: gather and scatter-add. -/
abbrev opsG2 : List (HloOp τ sig (Elt F)) :=
  [ StableHlo.TRef.nullary main_call4.c (constantI S_ 32 0#32),
    StableHlo.TRef.unary main_call4.c main_call4.v0 (broadcastInDim S5000000 ![] bcast_S_S5000000),
    StableHlo.TRef.binary (.of main_v1 : StableHlo.TRef sig ⟨S5000000, .i32⟩) main_call4.v0 main_call4.v1 (cmpi .slt),
    StableHlo.TRef.nullary main_call4.c_0 (constantI S_ 32 500000#32),
    StableHlo.TRef.unary main_call4.c_0 main_call4.v2 (broadcastInDim S5000000 ![] bcast_S_S5000000),
    StableHlo.TRef.binary (.of main_v1 : StableHlo.TRef sig ⟨S5000000, .i32⟩) main_call4.v2 main_call4.v3 addi,
    StableHlo.TRef.ternary main_call4.v1 main_call4.v3 (.of main_v1 : StableHlo.TRef sig ⟨S5000000, .i32⟩) main_call4.call0.v0 select,
    StableHlo.TRef.unary main_call4.call0.v0 main_call4.v5 (broadcastInDim S5000000x1 ![0] bcast_S5000000_S5000000x1_0),
    StableHlo.TRef.nullary main_call4.c_1 (constantI S1 32 499999#32),
    StableHlo.TRef.nullary main_call4.c_2 (constantI S_ 32 0#32),
    StableHlo.TRef.unary main_call4.c_2 main_call4.v6 (broadcastInDim S5000000x1 ![] bcast_S_S5000000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S5000000x1 ![0, 1] bcast_S1x1_S5000000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S5000000x1_S5000000_d1 h_S_),
    StableHlo.TRef.binary (.of main_v24 : StableHlo.TRef sig ⟨S500000x16, .f32⟩) main_call4.v5 main_call4.v13 (fun x i => Host.gather gather_S500000x16_S5000000x1_S5000000x16_1_0_n_n_0_1_116 x i),
    StableHlo.TRef.unary main_call4.v12 main_call4.v14 (broadcastInDim S5000000x16 ![0] bcast_S5000000_S5000000x16_0),
    StableHlo.TRef.nullary main_call4.cst (constant S_ .f32 0x7FC00000#32),
    StableHlo.TRef.unary main_call4.cst main_call4.v15 (broadcastInDim S5000000x16 ![] bcast_S_S5000000x16),
    StableHlo.TRef.ternary main_call4.v14 main_call4.v13 main_call4.v15 main_call4.v16 select,
    StableHlo.nullary main_cst_0 (constant S_ .f32 0x00000000#32),
    StableHlo.unary main_cst_0 main_v26 (broadcastInDim S500000x16 ![] bcast_S_S500000x16 : (⟨S_, .f32⟩ : BufTy).Contents (Elt F) → (⟨S500000x16, .f32⟩ : BufTy).Contents (Elt F)),
    StableHlo.unary main_v3 main_v27 (broadcastInDim S5000000x1 ![0] bcast_S5000000_S5000000x1_0 : (⟨S5000000, .i32⟩ : BufTy).Contents (Elt F) → (⟨S5000000x1, .i32⟩ : BufTy).Contents (Elt F)),
    StableHlo.ternary main_v26 main_v27 main_v25 main_v28 ((fun x i u => Host.scatterAdd scatter_S500000x16_S5000000x1_S5000000x16_1_0_0_1 x i u) : (⟨S500000x16, .f32⟩ : BufTy).Contents (Elt F) → (⟨S5000000x1, .i32⟩ : BufTy).Contents (Elt F) → (⟨S5000000x16, .f32⟩ : BufTy).Contents (Elt F) → (⟨S500000x16, .f32⟩ : BufTy).Contents (Elt F)) ]

/-- 9 operations — layer 2: combine. -/
abbrev opsC2 : List (HloOp τ sig (Elt F)) :=
  [ StableHlo.binary main_v28 main_arg9 main_v29 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg10 main_v30 (broadcastInDim S1x16 ![1] bcast_S16_S1x16_1 : (⟨S16, .f32⟩ : BufTy).Contents (Elt F) → (⟨S1x16, .f32⟩ : BufTy).Contents (Elt F)),
    StableHlo.unary main_v30 main_v31 (broadcastInDim S500000x16 ![0, 1] bcast_S1x16_S500000x16_0_1 : (⟨S1x16, .f32⟩ : BufTy).Contents (Elt F) → (⟨S500000x16, .f32⟩ : BufTy).Contents (Elt F)),
    StableHlo.binary main_v29 main_v31 main_v32 (addf : (⟨S500000x16, .f32⟩ : BufTy).Contents (Elt F) → (⟨S500000x16, .f32⟩ : BufTy).Contents (Elt F) → (⟨S500000x16, .f32⟩ : BufTy).Contents (Elt F)),
    StableHlo.binary main_v19 main_arg11 main_v33 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.binary main_v32 main_v33 main_v34 (addf : (⟨S500000x16, .f32⟩ : BufTy).Contents (Elt F) → (⟨S500000x16, .f32⟩ : BufTy).Contents (Elt F) → (⟨S500000x16, .f32⟩ : BufTy).Contents (Elt F)),
    StableHlo.TRef.nullary main_call5.cst (constant S_ .f32 0x00000000#32),
    StableHlo.TRef.unary main_call5.cst main_call5.v0 (broadcastInDim S500000x16 ![] bcast_S_S500000x16),
    StableHlo.TRef.binary (.of main_v34 : StableHlo.TRef sig ⟨S500000x16, .f32⟩) main_call5.v0 main_call5.v1 maximumf ]

/-- 7 operations — layer 3: project. -/
abbrev opsP3 : List (HloOp τ sig (Elt F)) :=
  [ StableHlo.binary main_v35 main_arg12 main_v36 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg13 main_v37 (broadcastInDim S1x16 ![1] bcast_S16_S1x16_1 : (⟨S16, .f32⟩ : BufTy).Contents (Elt F) → (⟨S1x16, .f32⟩ : BufTy).Contents (Elt F)),
    StableHlo.unary main_v37 main_v38 (broadcastInDim S500000x16 ![0, 1] bcast_S1x16_S500000x16_0_1 : (⟨S1x16, .f32⟩ : BufTy).Contents (Elt F) → (⟨S500000x16, .f32⟩ : BufTy).Contents (Elt F)),
    StableHlo.binary main_v36 main_v38 main_v39 (addf : (⟨S500000x16, .f32⟩ : BufTy).Contents (Elt F) → (⟨S500000x16, .f32⟩ : BufTy).Contents (Elt F) → (⟨S500000x16, .f32⟩ : BufTy).Contents (Elt F)),
    StableHlo.TRef.nullary main_call6.cst (constant S_ .f32 0x00000000#32),
    StableHlo.TRef.unary main_call6.cst main_call6.v0 (broadcastInDim S500000x16 ![] bcast_S_S500000x16),
    StableHlo.TRef.binary (.of main_v39 : StableHlo.TRef sig ⟨S500000x16, .f32⟩) main_call6.v0 main_call6.v1 maximumf ]

/-- 27 operations — layer 3: gather and scatter-add. -/
abbrev opsG3 : List (HloOp τ sig (Elt F)) :=
  [ StableHlo.TRef.nullary main_call7.c (constantI S_ 32 0#32),
    StableHlo.TRef.unary main_call7.c main_call7.v0 (broadcastInDim S5000000 ![] bcast_S_S5000000),
    StableHlo.TRef.binary (.of main_v1 : StableHlo.TRef sig ⟨S5000000, .i32⟩) main_call7.v0 main_call7.v1 (cmpi .slt),
    StableHlo.TRef.nullary main_call7.c_0 (constantI S_ 32 500000#32),
    StableHlo.TRef.unary main_call7.c_0 main_call7.v2 (broadcastInDim S5000000 ![] bcast_S_S5000000),
    StableHlo.TRef.binary (.of main_v1 : StableHlo.TRef sig ⟨S5000000, .i32⟩) main_call7.v2 main_call7.v3 addi,
    StableHlo.TRef.ternary main_call7.v1 main_call7.v3 (.of main_v1 : StableHlo.TRef sig ⟨S5000000, .i32⟩) main_call7.call0.v0 select,
    StableHlo.TRef.unary main_call7.call0.v0 main_call7.v5 (broadcastInDim S5000000x1 ![0] bcast_S5000000_S5000000x1_0),
    StableHlo.TRef.nullary main_call7.c_1 (constantI S1 32 499999#32),
    StableHlo.TRef.nullary main_call7.c_2 (constantI S_ 32 0#32),
    StableHlo.TRef.unary main_call7.c_2 main_call7.v6 (broadcastInDim S5000000x1 ![] bcast_S_S5000000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S5000000x1 ![0, 1] bcast_S1x1_S5000000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S5000000x1_S5000000_d1 h_S_),
    StableHlo.TRef.binary (.of main_v40 : StableHlo.TRef sig ⟨S500000x16, .f32⟩) main_call7.v5 main_call7.v13 (fun x i => Host.gather gather_S500000x16_S5000000x1_S5000000x16_1_0_n_n_0_1_116 x i),
    StableHlo.TRef.unary main_call7.v12 main_call7.v14 (broadcastInDim S5000000x16 ![0] bcast_S5000000_S5000000x16_0),
    StableHlo.TRef.nullary main_call7.cst (constant S_ .f32 0x7FC00000#32),
    StableHlo.TRef.unary main_call7.cst main_call7.v15 (broadcastInDim S5000000x16 ![] bcast_S_S5000000x16),
    StableHlo.TRef.ternary main_call7.v14 main_call7.v13 main_call7.v15 main_call7.v16 select,
    StableHlo.nullary main_cst_1 (constant S_ .f32 0x00000000#32),
    StableHlo.unary main_cst_1 main_v42 (broadcastInDim S500000x16 ![] bcast_S_S500000x16 : (⟨S_, .f32⟩ : BufTy).Contents (Elt F) → (⟨S500000x16, .f32⟩ : BufTy).Contents (Elt F)),
    StableHlo.unary main_v3 main_v43 (broadcastInDim S5000000x1 ![0] bcast_S5000000_S5000000x1_0 : (⟨S5000000, .i32⟩ : BufTy).Contents (Elt F) → (⟨S5000000x1, .i32⟩ : BufTy).Contents (Elt F)),
    StableHlo.ternary main_v42 main_v43 main_v41 main_v44 ((fun x i u => Host.scatterAdd scatter_S500000x16_S5000000x1_S5000000x16_1_0_0_1 x i u) : (⟨S500000x16, .f32⟩ : BufTy).Contents (Elt F) → (⟨S5000000x1, .i32⟩ : BufTy).Contents (Elt F) → (⟨S5000000x16, .f32⟩ : BufTy).Contents (Elt F) → (⟨S500000x16, .f32⟩ : BufTy).Contents (Elt F)) ]

/-- 14 operations — layer 3: combine, then the logistic function spelled out. -/
abbrev opsC3 : List (HloOp τ sig (Elt F)) :=
  [ StableHlo.binary main_v44 main_arg14 main_v45 ((fun l r => Host.dotGeneral dot_S500000x16_S16x1_S500000x1_1_0_0_1_n_n none l r) : (⟨S500000x16, .f32⟩ : BufTy).Contents (Elt F) → (⟨S16x1, .f32⟩ : BufTy).Contents (Elt F) → (⟨S500000x1, .f32⟩ : BufTy).Contents (Elt F)),
    StableHlo.unary main_arg15 main_v46 (broadcastInDim S1x1 ![1] bcast_S1_S1x1_1 : (⟨S1, .f32⟩ : BufTy).Contents (Elt F) → (⟨S1x1, .f32⟩ : BufTy).Contents (Elt F)),
    StableHlo.unary main_v46 main_v47 (broadcastInDim S500000x1 ![0, 1] bcast_S1x1_S500000x1_0_1 : (⟨S1x1, .f32⟩ : BufTy).Contents (Elt F) → (⟨S500000x1, .f32⟩ : BufTy).Contents (Elt F)),
    StableHlo.binary main_v45 main_v47 main_v48 (addf : (⟨S500000x1, .f32⟩ : BufTy).Contents (Elt F) → (⟨S500000x1, .f32⟩ : BufTy).Contents (Elt F) → (⟨S500000x1, .f32⟩ : BufTy).Contents (Elt F)),
    StableHlo.binary main_v35 main_arg16 main_v49 ((fun l r => Host.dotGeneral dot_S500000x16_S16x1_S500000x1_1_0_0_1_n_n none l r) : (⟨S500000x16, .f32⟩ : BufTy).Contents (Elt F) → (⟨S16x1, .f32⟩ : BufTy).Contents (Elt F) → (⟨S500000x1, .f32⟩ : BufTy).Contents (Elt F)),
    StableHlo.binary main_v48 main_v49 main_v50 (addf : (⟨S500000x1, .f32⟩ : BufTy).Contents (Elt F) → (⟨S500000x1, .f32⟩ : BufTy).Contents (Elt F) → (⟨S500000x1, .f32⟩ : BufTy).Contents (Elt F)),
    StableHlo.unary main_v50 main_v51 (Host.negf : (⟨S500000x1, .f32⟩ : BufTy).Contents (Elt F) → (⟨S500000x1, .f32⟩ : BufTy).Contents (Elt F)),
    StableHlo.unary main_v51 main_v52 (Host.exp : (⟨S500000x1, .f32⟩ : BufTy).Contents (Elt F) → (⟨S500000x1, .f32⟩ : BufTy).Contents (Elt F)),
    StableHlo.nullary main_cst_2 (constant S_ .f32 0x3F800000#32),
    StableHlo.unary main_cst_2 main_v53 (broadcastInDim S500000x1 ![] bcast_S_S500000x1 : (⟨S_, .f32⟩ : BufTy).Contents (Elt F) → (⟨S500000x1, .f32⟩ : BufTy).Contents (Elt F)),
    StableHlo.binary main_v53 main_v52 main_v54 (addf : (⟨S500000x1, .f32⟩ : BufTy).Contents (Elt F) → (⟨S500000x1, .f32⟩ : BufTy).Contents (Elt F) → (⟨S500000x1, .f32⟩ : BufTy).Contents (Elt F)),
    StableHlo.nullary main_cst_3 (constant S_ .f32 0x3F800000#32),
    StableHlo.unary main_cst_3 main_v55 (broadcastInDim S500000x1 ![] bcast_S_S500000x1 : (⟨S_, .f32⟩ : BufTy).Contents (Elt F) → (⟨S500000x1, .f32⟩ : BufTy).Contents (Elt F)),
    StableHlo.binary main_v55 main_v54 main_v56 (Host.divf : (⟨S500000x1, .f32⟩ : BufTy).Contents (Elt F) → (⟨S500000x1, .f32⟩ : BufTy).Contents (Elt F) → (⟨S500000x1, .f32⟩ : BufTy).Contents (Elt F)) ]

/-- @main's operations, in order. -/
abbrev ops : List (HloOp τ sig (Elt F)) :=
  opsA ++ opsP1 ++ opsG1 ++ opsC1 ++ opsP2 ++ opsG2 ++ opsC2 ++ opsP3 ++ opsG3 ++ opsC3

end Cert.ReferenceIdeal.Val

end
-- ==== Proof.RRun.lean ====
/-
  The reference program's run: @main IS the sequence of its host operations (the outlined functions unfolded at
  their calls), so every weakly fair execution terminates with each buffer at the operations' fold over the launch
  contents.
-/
import proofs.«412034_j25769804311_1_alg».proof.Proof.ROps

noncomputable section

namespace Cert.ReferenceIdeal.Val

open Idealize.ShloMosaic Idealize.ShloMosaic.TcCoe Idealize.SL.Sem Idealize.ShloMosaic.StableHlo
open Cert.ReferenceIdeal Cert.ReferenceIdeal.Gen

variable {F : FTy → Type} [FloatOps F]

/-- The fold over a concatenation is the fold over the second part from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- one hundred and thirty-eight binds re-associated: the rewriting under the chain recurses once per statement
set_option maxRecDepth 16384 in
set_option maxHeartbeats 4000000 in
/-- @main is that straight line of operations: its two parts and the outlined functions' bodies unfolded at their
    calls, and the ten stretches of operations joined into one list, both sides are one chain of `hlo` steps once
    sequencing is re-associated (`bind_assoc`, `pure_bind`). -/
theorem main_eq (c : Dev nD) : main (F := F) c = seq (ops (F := F)) := by
  simp only [main, main_part0, main_part1, fn_relu.body, fn_relu_0.body, fn_take.body, fn_take_1.body, fn_where.body,
    ops, opsA, opsP1, opsG1, opsC1, opsP2, opsG2, opsC2, opsP3, opsG3, opsC3, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- The edge lists' four operations: each operation touches TensorCore references only. -/
theorem opsA_sub : (opsA : List (HloOp τ sig (Elt F))).Forall fun op => op.bufs ⊆ tcRefs τ sig :=
  ⟨unary_bufs_sub .., reshape_bufs_sub .., unary_bufs_sub .., reshape_bufs_sub ..⟩

/-- Layer 1's projection: each operation touches TensorCore references only. -/
theorem opsP1_sub : (opsP1 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub ..⟩

/-- Layer 1's gather and scatter-add: each operation touches TensorCore references only. -/
theorem opsG1_sub : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub ..⟩

/-- Layer 1's combination: each operation touches TensorCore references only. -/
theorem opsC1_sub : (opsC1 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub ..⟩

/-- Layer 2's projection: each operation touches TensorCore references only. -/
theorem opsP2_sub : (opsP2 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub ..⟩

/-- Layer 2's gather and scatter-add: each operation touches TensorCore references only. -/
theorem opsG2_sub : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub ..⟩

/-- Layer 2's combination: each operation touches TensorCore references only. -/
theorem opsC2_sub : (opsC2 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub ..⟩

/-- Layer 3's projection: each operation touches TensorCore references only. -/
theorem opsP3_sub : (opsP3 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub ..⟩

/-- Layer 3's gather and scatter-add: each operation touches TensorCore references only. -/
theorem opsG3_sub : (opsG3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub ..⟩

/-- Layer 3's combination and the logistic function: each operation touches TensorCore references only. -/
theorem opsC3_sub : (opsC3 : List (HloOp τ sig (Elt F))).Forall fun op => op.bufs ⊆ tcRefs τ sig :=
  ⟨binary_bufs_sub .., unary_bufs_sub .., unary_bufs_sub .., binary_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub ..⟩

/-- Two lists whose operations touch TensorCore references only: so does their concatenation. -/
theorem sub_append {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_append.mpr ⟨h₁, h₂⟩

/-- Every operation touches TensorCore references only. -/
theorem ops_sub : (ops : List (HloOp τ sig (Elt F))).Forall fun op => op.bufs ⊆ tcRefs τ sig :=
  sub_append (sub_append (sub_append (sub_append (sub_append (sub_append (sub_append (sub_append (sub_append
    opsA_sub opsP1_sub) opsG1_sub) opsC1_sub) opsP2_sub) opsG2_sub) opsC2_sub) opsP3_sub) opsG3_sub) opsC3_sub

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.RHost.lean ====
/-
  The reference program's host stretches that the kernel program runs too, each read as ONE function of what it
  consumes: the two edge lists, and per layer the gather at the sources followed by the scatter-add into the targets.
-/
import proofs.«412034_j25769804311_1_alg».proof.Proof.ROps
import Idealize.ShloMosaic.PureOps.Ideal

noncomputable section

namespace Cert.ReferenceIdeal.Val

open Idealize.ShloMosaic Idealize.ShloMosaic.TcCoe Idealize.SL.Sem Idealize.ShloMosaic.StableHlo
open Cert.ReferenceIdeal Cert.ReferenceIdeal.Gen

/-- The source list: row 0 of the edge array. -/
def srcOf (ei : IVec S2x5000000 32) : IVec S5000000 32 :=
  shapeCast S5000000 (extractStridedSlice S1x5000000 ![0, 0] ei slices_S2x5000000_S1x5000000_0_0) shapeCasts_S1x5000000_S5000000
/-- The target list: row 1 of the edge array. -/
def dstOf (ei : IVec S2x5000000 32) : IVec S5000000 32 :=
  shapeCast S5000000 (extractStridedSlice S1x5000000 ![1, 0] ei slices_S2x5000000_S1x5000000_1_0) shapeCasts_S1x5000000_S5000000

/-- A node index as jnp.take reads it: a negative one is shifted up by the node count once; as a column. -/
def wrapIdx (src : IVec S5000000 32) : IVec S5000000x1 32 :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 500000#32))) src)
/-- Whether the shifted index names a node. -/
def inRange (src : IVec S5000000 32) : IVec S5000000 1 :=
  Host.reduce IntOp.andi
    (andi (cmpi .sge (wrapIdx src) (broadcastInDim S5000000x1 ![] bcast_S_S5000000x1 (constantI S_ 32 0#32)))
      (cmpi .sle (wrapIdx src) (broadcastInDim S5000000x1 ![0, 1] bcast_S1x1_S5000000x1_0_1
        (broadcastInDim S1x1 ![1] bcast_S1_S1x1_1 (constantI S1 32 499999#32)))))
    (constantI S_ 1 1#1) reducesTo_S5000000x1_S5000000_d1 h_S_

/-- The rows of `h` at the sources (three features): the gathered row where the index names a node, the fill word elsewhere. -/
def take3 (h : FVec Ideal S500000x3 .f32) (src : IVec S5000000 32) : FVec Ideal S5000000x3 .f32 :=
  select (broadcastInDim S5000000x3 ![0] bcast_S5000000_S5000000x3_0 (inRange src))
    (Host.gather gather_S500000x3_S5000000x1_S5000000x3_1_0_n_n_0_1_13 h (wrapIdx src))
    (broadcastInDim S5000000x3 ![] bcast_S_S5000000x3 (constant S_ .f32 0x7FC00000#32))
/-- Those rows summed into their targets, from zero (three features). -/
def agg3 (h : FVec Ideal S500000x3 .f32) (src dst : IVec S5000000 32) : FVec Ideal S500000x3 .f32 :=
  Host.scatterAdd scatter_S500000x3_S5000000x1_S5000000x3_1_0_0_1
    (broadcastInDim S500000x3 ![] bcast_S_S500000x3 (constant S_ .f32 0x00000000#32))
    (broadcastInDim S5000000x1 ![0] bcast_S5000000_S5000000x1_0 dst) (take3 h src)

/-- The rows of `h` at the sources (sixteen features). -/
def take16 (h : FVec Ideal S500000x16 .f32) (src : IVec S5000000 32) : FVec Ideal S5000000x16 .f32 :=
  select (broadcastInDim S5000000x16 ![0] bcast_S5000000_S5000000x16_0 (inRange src))
    (Host.gather gather_S500000x16_S5000000x1_S5000000x16_1_0_n_n_0_1_116 h (wrapIdx src))
    (broadcastInDim S5000000x16 ![] bcast_S_S5000000x16 (constant S_ .f32 0x7FC00000#32))
/-- Those rows summed into their targets, from zero (sixteen features). -/
def agg16 (h : FVec Ideal S500000x16 .f32) (src dst : IVec S5000000 32) : FVec Ideal S500000x16 .f32 :=
  Host.scatterAdd scatter_S500000x16_S5000000x1_S5000000x16_1_0_0_1
    (broadcastInDim S500000x16 ![] bcast_S_S500000x16 (constant S_ .f32 0x00000000#32))
    (broadcastInDim S5000000x1 ![0] bcast_S5000000_S5000000x1_0 dst) (take16 h src)

universe u

/-- A transport along an equation of types followed by the transport back is the identity. -/
private theorem cast_cast_self {α β : Sort u} (h1 : α = β) (h2 : β = α) (a : α) : cast h2 (cast h1 a) = a := by
  subst h1; rfl

/-! A buffer's contents read at the type its reference carries are the contents themselves: at these literal
    references the two types are the same type, and the transport between them is the identity. -/

private theorem ofBuf_v1 (v : (main_v1 : Ref sig .tc).ty.Contents (Elt Ideal)) :
    (TRef.of main_v1 : TRef sig ⟨S5000000, .i32⟩).ofBuf v = v := rfl
private theorem ofBuf_v8 (v : (main_v8 : Ref sig .tc).ty.Contents (Elt Ideal)) :
    (TRef.of main_v8 : TRef sig ⟨S500000x3, .f32⟩).ofBuf v = v := rfl
private theorem toBuf_v9 (v : (⟨S5000000x3, .f32⟩ : BufTy).Contents (Elt Ideal)) :
    (TRef.of main_v9 : TRef sig ⟨S5000000x3, .f32⟩).toBuf v = v := rfl
private theorem ofBuf_v24 (v : (main_v24 : Ref sig .tc).ty.Contents (Elt Ideal)) :
    (TRef.of main_v24 : TRef sig ⟨S500000x16, .f32⟩).ofBuf v = v := rfl
private theorem toBuf_v25 (v : (⟨S5000000x16, .f32⟩ : BufTy).Contents (Elt Ideal)) :
    (TRef.of main_v25 : TRef sig ⟨S5000000x16, .f32⟩).toBuf v = v := rfl
private theorem ofBuf_v40 (v : (main_v40 : Ref sig .tc).ty.Contents (Elt Ideal)) :
    (TRef.of main_v40 : TRef sig ⟨S500000x16, .f32⟩).ofBuf v = v := rfl
private theorem toBuf_v41 (v : (⟨S5000000x16, .f32⟩ : BufTy).Contents (Elt Ideal)) :
    (TRef.of main_v41 : TRef sig ⟨S5000000x16, .f32⟩).toBuf v = v := rfl

variable (U : Valuation τ sig (Elt Ideal))

theorem stageA_src : StableHlo.after (opsA (F := Ideal)) U (Proc.devRef .tc main_v1) = srcOf (U (Proc.devRef .tc main_arg1)) := by
  after_results; rfl
theorem stageA_dst : StableHlo.after (opsA (F := Ideal)) U (Proc.devRef .tc main_v3) = dstOf (U (Proc.devRef .tc main_arg1)) := by
  after_results; rfl

/- Each of the three stretches below is read off operation by operation: every intermediate buffer holds its
   operation's function of the buffers it reads, so the last buffer holds the composite of the twenty-seven functions
   at the three buffers the stretch consumes. That composite, once the identity transports at the typed references are
   removed, is the definition of the aggregate letter for letter: the wrapped index column, the range test reduced along
   the unit axis, the gather, the fill where the test fails, and the scatter-add from the zero array. -/

set_option maxRecDepth 8192 in
/-- Layer 1's gather and scatter-add. -/
theorem stageG1 : StableHlo.after (opsG1 (F := Ideal)) U (Proc.devRef .tc main_v12)
    = agg3 (U (Proc.devRef .tc main_v8)) (U (Proc.devRef .tc main_v1)) (U (Proc.devRef .tc main_v3)) := by
  after_results_simp
  simp only [cast_cast_self]
  rw [toBuf_v9, ofBuf_v8, ofBuf_v1]
  unfold agg3 take3 inRange wrapIdx
  rfl
set_option maxRecDepth 8192 in
/-- Layer 2's. -/
theorem stageG2 : StableHlo.after (opsG2 (F := Ideal)) U (Proc.devRef .tc main_v28)
    = agg16 (U (Proc.devRef .tc main_v24)) (U (Proc.devRef .tc main_v1)) (U (Proc.devRef .tc main_v3)) := by
  after_results_simp
  simp only [cast_cast_self]
  rw [toBuf_v25, ofBuf_v24, ofBuf_v1]
  unfold agg16 take16 inRange wrapIdx
  rfl
set_option maxRecDepth 8192 in
/-- Layer 3's. -/
theorem stageG3 : StableHlo.after (opsG3 (F := Ideal)) U (Proc.devRef .tc main_v44)
    = agg16 (U (Proc.devRef .tc main_v40)) (U (Proc.devRef .tc main_v1)) (U (Proc.devRef .tc main_v3)) := by
  after_results_simp
  simp only [cast_cast_self]
  rw [toBuf_v41, ofBuf_v40, ofBuf_v1]
  unfold agg16 take16 inRange wrapIdx
  rfl

end Cert.ReferenceIdeal.Val

end
-- ==== Proof.RDense.lean ====
/-
  The reference program's dense stages — a matrix product on the host, a bias row, a clamp at zero or the logistic
  function spelled out — each read, index by index, as the specification's function of what the stage consumes.

  A product's contraction index has one axis; its sum is re-indexed through that axis's coordinate to the sum over
  the shared dimension.  A bias row reaches an entry through two broadcasts (a new unit row axis, then along the rows),
  so it is read at the entry's column.  The three summands arrive grouped as (agg·lw + lb) + x·rw, which equals the
  specification's grouping because sums of extended reals commute and associate.
-/
import proofs.«412034_j25769804311_1_alg».proof.Proof.ROps
import proofs.«412034_j25769804311_1_alg».proof.Proof.SageSpec
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

namespace Cert.ReferenceIdeal.Val

open Idealize.ShloMosaic Idealize.ShloMosaic.TcCoe Idealize.SL.Sem Idealize.ShloMosaic.StableHlo
open Cert.ReferenceIdeal Cert.ReferenceIdeal.Gen

open Idealize.ShloMosaic.ValueIdx

theorem lhs33_0 (i : S500000x3.Idx) (q : dot_S500000x3_S3x3_S500000x3_1_0_0_1_n_n.contr.Idx) :
    (dot_S500000x3_S3x3_S500000x3_1_0_0_1_n_n.lhsIdx i q 0).val = (i 0).val := by
  unfold DotDims.lhsIdx
  rw [dif_neg (show ¬(0 : Fin S500000x3.rank) ∈ dot_S500000x3_S3x3_S500000x3_1_0_0_1_n_n.lhsBatch by decide), dif_pos (show (0 : Fin S500000x3.rank) ∈ dot_S500000x3_S3x3_S500000x3_1_0_0_1_n_n.lhsNonContracting by decide)]
  rfl
theorem lhs33_1 (i : S500000x3.Idx) (q : dot_S500000x3_S3x3_S500000x3_1_0_0_1_n_n.contr.Idx) :
    (dot_S500000x3_S3x3_S500000x3_1_0_0_1_n_n.lhsIdx i q 1).val = (q ⟨0, by decide⟩).val :=
  dot_S500000x3_S3x3_S500000x3_1_0_0_1_n_n.lhsIdx_val_of_single rfl i q
theorem rhs33_0 (i : S500000x3.Idx) (q : dot_S500000x3_S3x3_S500000x3_1_0_0_1_n_n.contr.Idx) :
    (dot_S500000x3_S3x3_S500000x3_1_0_0_1_n_n.rhsIdx i q 0).val = (q ⟨0, by decide⟩).val :=
  dot_S500000x3_S3x3_S500000x3_1_0_0_1_n_n.rhsIdx_val_of_single rfl i q
theorem rhs33_1 (i : S500000x3.Idx) (q : dot_S500000x3_S3x3_S500000x3_1_0_0_1_n_n.contr.Idx) :
    (dot_S500000x3_S3x3_S500000x3_1_0_0_1_n_n.rhsIdx i q 1).val = (i 1).val := by
  unfold DotDims.rhsIdx
  rw [dif_neg (show ¬(1 : Fin S3x3.rank) ∈ dot_S500000x3_S3x3_S500000x3_1_0_0_1_n_n.rhsBatch by decide), dif_pos (show (1 : Fin S3x3.rank) ∈ dot_S500000x3_S3x3_S500000x3_1_0_0_1_n_n.rhsNonContracting by decide)]
  rfl

/-- The host's product at an index is the specification's sum over the shared axis. -/
theorem mm33 (x : FVec Ideal S500000x3 .f32) (w : FVec Ideal S3x3 .f32) (i : S500000x3.Idx) :
    Host.dotGeneral dot_S500000x3_S3x3_S500000x3_1_0_0_1_n_n none x w i = Cert.Sage.mm x w i := by
  simp only [Host.dotGeneral]
  rw [Ideal.dotGeneral_apply, ← Equiv.sum_comp (ValueIdx.contrEquiv1 dot_S500000x3_S3x3_S500000x3_1_0_0_1_n_n 3 rfl rfl).symm]
  unfold Cert.Sage.mm
  refine Finset.sum_congr rfl fun k _ => ?_
  have hk := ValueIdx.contrEquiv1_symm_val dot_S500000x3_S3x3_S500000x3_1_0_0_1_n_n 3 rfl rfl k
  have el : dot_S500000x3_S3x3_S500000x3_1_0_0_1_n_n.lhsIdx i ((ValueIdx.contrEquiv1 dot_S500000x3_S3x3_S500000x3_1_0_0_1_n_n 3 rfl rfl).symm k) = ix2 (i 0) k := funext fun a => Fin.ext (by
    match a with
    | ⟨0, _⟩ => exact lhs33_0 _ _
    | ⟨1, _⟩ => exact (lhs33_1 _ _).trans hk)
  have er : dot_S500000x3_S3x3_S500000x3_1_0_0_1_n_n.rhsIdx i ((ValueIdx.contrEquiv1 dot_S500000x3_S3x3_S500000x3_1_0_0_1_n_n 3 rfl rfl).symm k) = ix2 k (i 1) := funext fun a => Fin.ext (by
    match a with
    | ⟨0, _⟩ => exact (rhs33_0 _ _).trans hk
    | ⟨1, _⟩ => exact rhs33_1 _ _)
  rw [el, er]
  rfl

theorem lhs316_0 (i : S500000x16.Idx) (q : dot_S500000x3_S3x16_S500000x16_1_0_0_1_n_n.contr.Idx) :
    (dot_S500000x3_S3x16_S500000x16_1_0_0_1_n_n.lhsIdx i q 0).val = (i 0).val := by
  unfold DotDims.lhsIdx
  rw [dif_neg (show ¬(0 : Fin S500000x3.rank) ∈ dot_S500000x3_S3x16_S500000x16_1_0_0_1_n_n.lhsBatch by decide), dif_pos (show (0 : Fin S500000x3.rank) ∈ dot_S500000x3_S3x16_S500000x16_1_0_0_1_n_n.lhsNonContracting by decide)]
  rfl
theorem lhs316_1 (i : S500000x16.Idx) (q : dot_S500000x3_S3x16_S500000x16_1_0_0_1_n_n.contr.Idx) :
    (dot_S500000x3_S3x16_S500000x16_1_0_0_1_n_n.lhsIdx i q 1).val = (q ⟨0, by decide⟩).val :=
  dot_S500000x3_S3x16_S500000x16_1_0_0_1_n_n.lhsIdx_val_of_single rfl i q
theorem rhs316_0 (i : S500000x16.Idx) (q : dot_S500000x3_S3x16_S500000x16_1_0_0_1_n_n.contr.Idx) :
    (dot_S500000x3_S3x16_S500000x16_1_0_0_1_n_n.rhsIdx i q 0).val = (q ⟨0, by decide⟩).val :=
  dot_S500000x3_S3x16_S500000x16_1_0_0_1_n_n.rhsIdx_val_of_single rfl i q
theorem rhs316_1 (i : S500000x16.Idx) (q : dot_S500000x3_S3x16_S500000x16_1_0_0_1_n_n.contr.Idx) :
    (dot_S500000x3_S3x16_S500000x16_1_0_0_1_n_n.rhsIdx i q 1).val = (i 1).val := by
  unfold DotDims.rhsIdx
  rw [dif_neg (show ¬(1 : Fin S3x16.rank) ∈ dot_S500000x3_S3x16_S500000x16_1_0_0_1_n_n.rhsBatch by decide), dif_pos (show (1 : Fin S3x16.rank) ∈ dot_S500000x3_S3x16_S500000x16_1_0_0_1_n_n.rhsNonContracting by decide)]
  rfl

/-- The host's product at an index is the specification's sum over the shared axis. -/
theorem mm316 (x : FVec Ideal S500000x3 .f32) (w : FVec Ideal S3x16 .f32) (i : S500000x16.Idx) :
    Host.dotGeneral dot_S500000x3_S3x16_S500000x16_1_0_0_1_n_n none x w i = Cert.Sage.mm x w i := by
  simp only [Host.dotGeneral]
  rw [Ideal.dotGeneral_apply, ← Equiv.sum_comp (ValueIdx.contrEquiv1 dot_S500000x3_S3x16_S500000x16_1_0_0_1_n_n 3 rfl rfl).symm]
  unfold Cert.Sage.mm
  refine Finset.sum_congr rfl fun k _ => ?_
  have hk := ValueIdx.contrEquiv1_symm_val dot_S500000x3_S3x16_S500000x16_1_0_0_1_n_n 3 rfl rfl k
  have el : dot_S500000x3_S3x16_S500000x16_1_0_0_1_n_n.lhsIdx i ((ValueIdx.contrEquiv1 dot_S500000x3_S3x16_S500000x16_1_0_0_1_n_n 3 rfl rfl).symm k) = ix2 (i 0) k := funext fun a => Fin.ext (by
    match a with
    | ⟨0, _⟩ => exact lhs316_0 _ _
    | ⟨1, _⟩ => exact (lhs316_1 _ _).trans hk)
  have er : dot_S500000x3_S3x16_S500000x16_1_0_0_1_n_n.rhsIdx i ((ValueIdx.contrEquiv1 dot_S500000x3_S3x16_S500000x16_1_0_0_1_n_n 3 rfl rfl).symm k) = ix2 k (i 1) := funext fun a => Fin.ext (by
    match a with
    | ⟨0, _⟩ => exact (rhs316_0 _ _).trans hk
    | ⟨1, _⟩ => exact rhs316_1 _ _)
  rw [el, er]
  rfl

theorem lhs1616_0 (i : S500000x16.Idx) (q : dot_S500000x16_S16x16_S500000x16_1_0_0_1_n_n.contr.Idx) :
    (dot_S500000x16_S16x16_S500000x16_1_0_0_1_n_n.lhsIdx i q 0).val = (i 0).val := by
  unfold DotDims.lhsIdx
  rw [dif_neg (show ¬(0 : Fin S500000x16.rank) ∈ dot_S500000x16_S16x16_S500000x16_1_0_0_1_n_n.lhsBatch by decide), dif_pos (show (0 : Fin S500000x16.rank) ∈ dot_S500000x16_S16x16_S500000x16_1_0_0_1_n_n.lhsNonContracting by decide)]
  rfl
theorem lhs1616_1 (i : S500000x16.Idx) (q : dot_S500000x16_S16x16_S500000x16_1_0_0_1_n_n.contr.Idx) :
    (dot_S500000x16_S16x16_S500000x16_1_0_0_1_n_n.lhsIdx i q 1).val = (q ⟨0, by decide⟩).val :=
  dot_S500000x16_S16x16_S500000x16_1_0_0_1_n_n.lhsIdx_val_of_single rfl i q
theorem rhs1616_0 (i : S500000x16.Idx) (q : dot_S500000x16_S16x16_S500000x16_1_0_0_1_n_n.contr.Idx) :
    (dot_S500000x16_S16x16_S500000x16_1_0_0_1_n_n.rhsIdx i q 0).val = (q ⟨0, by decide⟩).val :=
  dot_S500000x16_S16x16_S500000x16_1_0_0_1_n_n.rhsIdx_val_of_single rfl i q
theorem rhs1616_1 (i : S500000x16.Idx) (q : dot_S500000x16_S16x16_S500000x16_1_0_0_1_n_n.contr.Idx) :
    (dot_S500000x16_S16x16_S500000x16_1_0_0_1_n_n.rhsIdx i q 1).val = (i 1).val := by
  unfold DotDims.rhsIdx
  rw [dif_neg (show ¬(1 : Fin S16x16.rank) ∈ dot_S500000x16_S16x16_S500000x16_1_0_0_1_n_n.rhsBatch by decide), dif_pos (show (1 : Fin S16x16.rank) ∈ dot_S500000x16_S16x16_S500000x16_1_0_0_1_n_n.rhsNonContracting by decide)]
  rfl

/-- The host's product at an index is the specification's sum over the shared axis. -/
theorem mm1616 (x : FVec Ideal S500000x16 .f32) (w : FVec Ideal S16x16 .f32) (i : S500000x16.Idx) :
    Host.dotGeneral dot_S500000x16_S16x16_S500000x16_1_0_0_1_n_n none x w i = Cert.Sage.mm x w i := by
  simp only [Host.dotGeneral]
  rw [Ideal.dotGeneral_apply, ← Equiv.sum_comp (ValueIdx.contrEquiv1 dot_S500000x16_S16x16_S500000x16_1_0_0_1_n_n 16 rfl rfl).symm]
  unfold Cert.Sage.mm
  refine Finset.sum_congr rfl fun k _ => ?_
  have hk := ValueIdx.contrEquiv1_symm_val dot_S500000x16_S16x16_S500000x16_1_0_0_1_n_n 16 rfl rfl k
  have el : dot_S500000x16_S16x16_S500000x16_1_0_0_1_n_n.lhsIdx i ((ValueIdx.contrEquiv1 dot_S500000x16_S16x16_S500000x16_1_0_0_1_n_n 16 rfl rfl).symm k) = ix2 (i 0) k := funext fun a => Fin.ext (by
    match a with
    | ⟨0, _⟩ => exact lhs1616_0 _ _
    | ⟨1, _⟩ => exact (lhs1616_1 _ _).trans hk)
  have er : dot_S500000x16_S16x16_S500000x16_1_0_0_1_n_n.rhsIdx i ((ValueIdx.contrEquiv1 dot_S500000x16_S16x16_S500000x16_1_0_0_1_n_n 16 rfl rfl).symm k) = ix2 k (i 1) := funext fun a => Fin.ext (by
    match a with
    | ⟨0, _⟩ => exact (rhs1616_0 _ _).trans hk
    | ⟨1, _⟩ => exact rhs1616_1 _ _)
  rw [el, er]
  rfl

theorem lhs161_0 (i : S500000x1.Idx) (q : dot_S500000x16_S16x1_S500000x1_1_0_0_1_n_n.contr.Idx) :
    (dot_S500000x16_S16x1_S500000x1_1_0_0_1_n_n.lhsIdx i q 0).val = (i 0).val := by
  unfold DotDims.lhsIdx
  rw [dif_neg (show ¬(0 : Fin S500000x16.rank) ∈ dot_S500000x16_S16x1_S500000x1_1_0_0_1_n_n.lhsBatch by decide), dif_pos (show (0 : Fin S500000x16.rank) ∈ dot_S500000x16_S16x1_S500000x1_1_0_0_1_n_n.lhsNonContracting by decide)]
  rfl
theorem lhs161_1 (i : S500000x1.Idx) (q : dot_S500000x16_S16x1_S500000x1_1_0_0_1_n_n.contr.Idx) :
    (dot_S500000x16_S16x1_S500000x1_1_0_0_1_n_n.lhsIdx i q 1).val = (q ⟨0, by decide⟩).val :=
  dot_S500000x16_S16x1_S500000x1_1_0_0_1_n_n.lhsIdx_val_of_single rfl i q
theorem rhs161_0 (i : S500000x1.Idx) (q : dot_S500000x16_S16x1_S500000x1_1_0_0_1_n_n.contr.Idx) :
    (dot_S500000x16_S16x1_S500000x1_1_0_0_1_n_n.rhsIdx i q 0).val = (q ⟨0, by decide⟩).val :=
  dot_S500000x16_S16x1_S500000x1_1_0_0_1_n_n.rhsIdx_val_of_single rfl i q
theorem rhs161_1 (i : S500000x1.Idx) (q : dot_S500000x16_S16x1_S500000x1_1_0_0_1_n_n.contr.Idx) :
    (dot_S500000x16_S16x1_S500000x1_1_0_0_1_n_n.rhsIdx i q 1).val = (i 1).val := by
  unfold DotDims.rhsIdx
  rw [dif_neg (show ¬(1 : Fin S16x1.rank) ∈ dot_S500000x16_S16x1_S500000x1_1_0_0_1_n_n.rhsBatch by decide), dif_pos (show (1 : Fin S16x1.rank) ∈ dot_S500000x16_S16x1_S500000x1_1_0_0_1_n_n.rhsNonContracting by decide)]
  rfl

/-- The host's product at an index is the specification's sum over the shared axis. -/
theorem mm161 (x : FVec Ideal S500000x16 .f32) (w : FVec Ideal S16x1 .f32) (i : S500000x1.Idx) :
    Host.dotGeneral dot_S500000x16_S16x1_S500000x1_1_0_0_1_n_n none x w i = Cert.Sage.mm x w i := by
  simp only [Host.dotGeneral]
  rw [Ideal.dotGeneral_apply, ← Equiv.sum_comp (ValueIdx.contrEquiv1 dot_S500000x16_S16x1_S500000x1_1_0_0_1_n_n 16 rfl rfl).symm]
  unfold Cert.Sage.mm
  refine Finset.sum_congr rfl fun k _ => ?_
  have hk := ValueIdx.contrEquiv1_symm_val dot_S500000x16_S16x1_S500000x1_1_0_0_1_n_n 16 rfl rfl k
  have el : dot_S500000x16_S16x1_S500000x1_1_0_0_1_n_n.lhsIdx i ((ValueIdx.contrEquiv1 dot_S500000x16_S16x1_S500000x1_1_0_0_1_n_n 16 rfl rfl).symm k) = ix2 (i 0) k := funext fun a => Fin.ext (by
    match a with
    | ⟨0, _⟩ => exact lhs161_0 _ _
    | ⟨1, _⟩ => exact (lhs161_1 _ _).trans hk)
  have er : dot_S500000x16_S16x1_S500000x1_1_0_0_1_n_n.rhsIdx i ((ValueIdx.contrEquiv1 dot_S500000x16_S16x1_S500000x1_1_0_0_1_n_n 16 rfl rfl).symm k) = ix2 k (i 1) := funext fun a => Fin.ext (by
    match a with
    | ⟨0, _⟩ => exact (rhs161_0 _ _).trans hk
    | ⟨1, _⟩ => exact rhs161_1 _ _)
  rw [el, er]
  rfl

/-- The bias row broadcast along the rows, at an index, is the row at the column. -/
theorem bias3 (b : FVec Ideal S3 .f32) (i : S500000x3.Idx) :
    broadcastInDim S500000x3 ![0, 1] bcast_S1x3_S500000x3_0_1 (broadcastInDim S1x3 ![1] bcast_S3_S1x3_1 b) i = b (ix1 (i 1)) := by
  refine (broadcastInDim_apply _ _ _ i (ix2 (0 : Fin 1) (i 1)) (fun a => by
    match a with
    | ⟨0, _⟩ => rfl
    | ⟨1, _⟩ => rfl)).trans ?_
  exact broadcastInDim_apply _ _ _ _ (ix1 (i 1)) (fun a => by
    match a with
    | ⟨0, _⟩ => rfl)

/-- The bias row broadcast along the rows, at an index, is the row at the column. -/
theorem bias16 (b : FVec Ideal S16 .f32) (i : S500000x16.Idx) :
    broadcastInDim S500000x16 ![0, 1] bcast_S1x16_S500000x16_0_1 (broadcastInDim S1x16 ![1] bcast_S16_S1x16_1 b) i = b (ix1 (i 1)) := by
  refine (broadcastInDim_apply _ _ _ i (ix2 (0 : Fin 1) (i 1)) (fun a => by
    match a with
    | ⟨0, _⟩ => rfl
    | ⟨1, _⟩ => rfl)).trans ?_
  exact broadcastInDim_apply _ _ _ _ (ix1 (i 1)) (fun a => by
    match a with
    | ⟨0, _⟩ => rfl)

/-- The one-entry bias row broadcast along the rows, at an index, is the row at the column (the column is 0). -/
theorem bias1 (b : FVec Ideal S1 .f32) (i : S500000x1.Idx) :
    broadcastInDim S500000x1 ![0, 1] bcast_S1x1_S500000x1_0_1 (broadcastInDim S1x1 ![1] bcast_S1_S1x1_1 b) i = b (ix1 (i 1)) := by
  have h0 : (i 1).val = 0 := Nat.lt_one_iff.mp (i 1).isLt
  refine (broadcastInDim_apply _ _ _ i (ix2 (0 : Fin 1) (i 1)) (fun a => by
    match a with
    | ⟨0, _⟩ => rfl
    | ⟨1, _⟩ => exact h0)).trans ?_
  exact broadcastInDim_apply _ _ _ _ (ix1 (i 1)) (fun a => by
    match a with
    | ⟨0, _⟩ => exact h0)

/-- A project stage: the product, the bias row, the clamp at zero. -/
theorem proj3_eq (x : FVec Ideal S500000x3 .f32) (w : FVec Ideal S3x3 .f32) (b : FVec Ideal S3 .f32) :
    maximumf (addf (Host.dotGeneral dot_S500000x3_S3x3_S500000x3_1_0_0_1_n_n none x w)
        (broadcastInDim S500000x3 ![0, 1] bcast_S1x3_S500000x3_0_1 (broadcastInDim S1x3 ![1] bcast_S3_S1x3_1 b)))
      (broadcastInDim S500000x3 ![] bcast_S_S500000x3 (constant S_ .f32 0x00000000#32))
    = Cert.Sage.proj x w b := by
  funext i
  rw [ValueIdx.maximumf_apply, ValueIdx.addf_apply, mm33, bias3]
  rfl

/-- A project stage: the product, the bias row, the clamp at zero. -/
theorem proj16_eq (x : FVec Ideal S500000x16 .f32) (w : FVec Ideal S16x16 .f32) (b : FVec Ideal S16 .f32) :
    maximumf (addf (Host.dotGeneral dot_S500000x16_S16x16_S500000x16_1_0_0_1_n_n none x w)
        (broadcastInDim S500000x16 ![0, 1] bcast_S1x16_S500000x16_0_1 (broadcastInDim S1x16 ![1] bcast_S16_S1x16_1 b)))
      (broadcastInDim S500000x16 ![] bcast_S_S500000x16 (constant S_ .f32 0x00000000#32))
    = Cert.Sage.proj x w b := by
  funext i
  rw [ValueIdx.maximumf_apply, ValueIdx.addf_apply, mm1616, bias16]
  rfl

/-- A combine stage ending in the clamp at zero: the two products and the bias row, summed in the order
    (agg·lw + lb) + x·rw, which is the specification's by commutativity. -/
theorem comb316_eq (agg x : FVec Ideal S500000x3 .f32) (lw rw : FVec Ideal S3x16 .f32) (lb : FVec Ideal S16 .f32) :
    maximumf (addf (addf (Host.dotGeneral dot_S500000x3_S3x16_S500000x16_1_0_0_1_n_n none agg lw)
          (broadcastInDim S500000x16 ![0, 1] bcast_S1x16_S500000x16_0_1 (broadcastInDim S1x16 ![1] bcast_S16_S1x16_1 lb)))
        (Host.dotGeneral dot_S500000x3_S3x16_S500000x16_1_0_0_1_n_n none x rw))
      (broadcastInDim S500000x16 ![] bcast_S_S500000x16 (constant S_ .f32 0x00000000#32))
    = Cert.Sage.combRelu agg x lw lb rw := by
  funext i
  rw [ValueIdx.maximumf_apply, ValueIdx.addf_apply, ValueIdx.addf_apply, mm316, mm316, bias16]
  unfold Cert.Sage.combRelu
  rw [← Cert.Sage.lin2_comm]
  rfl

/-- A combine stage ending in the clamp at zero: the two products and the bias row, summed in the order
    (agg·lw + lb) + x·rw, which is the specification's by commutativity. -/
theorem comb1616_eq (agg x : FVec Ideal S500000x16 .f32) (lw rw : FVec Ideal S16x16 .f32) (lb : FVec Ideal S16 .f32) :
    maximumf (addf (addf (Host.dotGeneral dot_S500000x16_S16x16_S500000x16_1_0_0_1_n_n none agg lw)
          (broadcastInDim S500000x16 ![0, 1] bcast_S1x16_S500000x16_0_1 (broadcastInDim S1x16 ![1] bcast_S16_S1x16_1 lb)))
        (Host.dotGeneral dot_S500000x16_S16x16_S500000x16_1_0_0_1_n_n none x rw))
      (broadcastInDim S500000x16 ![] bcast_S_S500000x16 (constant S_ .f32 0x00000000#32))
    = Cert.Sage.combRelu agg x lw lb rw := by
  funext i
  rw [ValueIdx.maximumf_apply, ValueIdx.addf_apply, ValueIdx.addf_apply, mm1616, mm1616, bias16]
  unfold Cert.Sage.combRelu
  rw [← Cert.Sage.lin2_comm]
  rfl

/-- The f32 word of one is the extended real one. -/
theorem one_word : Ideal.ofBits .f32 0x3F800000#32 = 1 := IdealRules.sign_bit.ideal_onePat .f32

/-- The last combine stage: the same three summands, then 1 / (1 + e^(-y)) spelled out, which is the logistic function. -/
theorem sig161_eq (agg x : FVec Ideal S500000x16 .f32) (lw rw : FVec Ideal S16x1 .f32) (lb : FVec Ideal S1 .f32) :
    Host.divf (broadcastInDim S500000x1 ![] bcast_S_S500000x1 (constant S_ .f32 0x3F800000#32))
      (addf (broadcastInDim S500000x1 ![] bcast_S_S500000x1 (constant S_ .f32 0x3F800000#32))
        (Host.exp (Host.negf (addf (addf (Host.dotGeneral dot_S500000x16_S16x1_S500000x1_1_0_0_1_n_n none agg lw)
            (broadcastInDim S500000x1 ![0, 1] bcast_S1x1_S500000x1_0_1 (broadcastInDim S1x1 ![1] bcast_S1_S1x1_1 lb)))
          (Host.dotGeneral dot_S500000x16_S16x1_S500000x1_1_0_0_1_n_n none x rw)))))
    = Cert.Sage.combSig agg x lw lb rw := by
  funext i
  unfold Cert.Sage.combSig
  rw [← Cert.Sage.lin2_comm, ← mm161, ← mm161, ← bias1 lb i]
  show FloatOps.hostDivf (Ideal.ofBits .f32 0x3F800000#32) (FloatOps.addf (Ideal.ofBits .f32 0x3F800000#32) _) = _
  rw [one_word]
  rfl

variable (U : Valuation τ sig (Elt Ideal))

theorem stageP1 : StableHlo.after (opsP1 (F := Ideal)) U (Proc.devRef .tc main_v8)
    = Cert.Sage.proj (U (Proc.devRef .tc main_arg0)) (U (Proc.devRef .tc main_arg2)) (U (Proc.devRef .tc main_arg3)) := by
  after_results
  exact proj3_eq _ _ _
theorem stageC1 : StableHlo.after (opsC1 (F := Ideal)) U (Proc.devRef .tc main_v19)
    = Cert.Sage.combRelu (U (Proc.devRef .tc main_v12)) (U (Proc.devRef .tc main_arg0)) (U (Proc.devRef .tc main_arg4)) (U (Proc.devRef .tc main_arg5)) (U (Proc.devRef .tc main_arg6)) := by
  after_results
  exact comb316_eq _ _ _ _ _
theorem stageP2 : StableHlo.after (opsP2 (F := Ideal)) U (Proc.devRef .tc main_v24)
    = Cert.Sage.proj (U (Proc.devRef .tc main_v19)) (U (Proc.devRef .tc main_arg7)) (U (Proc.devRef .tc main_arg8)) := by
  after_results
  exact proj16_eq _ _ _
theorem stageC2 : StableHlo.after (opsC2 (F := Ideal)) U (Proc.devRef .tc main_v35)
    = Cert.Sage.combRelu (U (Proc.devRef .tc main_v28)) (U (Proc.devRef .tc main_v19)) (U (Proc.devRef .tc main_arg9)) (U (Proc.devRef .tc main_arg10)) (U (Proc.devRef .tc main_arg11)) := by
  after_results
  exact comb1616_eq _ _ _ _ _
theorem stageP3 : StableHlo.after (opsP3 (F := Ideal)) U (Proc.devRef .tc main_v40)
    = Cert.Sage.proj (U (Proc.devRef .tc main_v35)) (U (Proc.devRef .tc main_arg12)) (U (Proc.devRef .tc main_arg13)) := by
  after_results
  exact proj16_eq _ _ _
theorem stageC3 : StableHlo.after (opsC3 (F := Ideal)) U (Proc.devRef .tc main_v56)
    = Cert.Sage.combSig (U (Proc.devRef .tc main_v44)) (U (Proc.devRef .tc main_v35)) (U (Proc.devRef .tc main_arg14)) (U (Proc.devRef .tc main_arg15)) (U (Proc.devRef .tc main_arg16)) := by
  after_results
  exact sig161_eq _ _ _ _ _

end Cert.ReferenceIdeal.Val

end
-- ==== Proof.RChain.lean ====
/-
  The reference program's result array as one function of its argument arrays: the three stacked layers, read off
  the fold of its host operations chunk by chunk; and its argument arrays are written by no operation.
-/
import proofs.«412034_j25769804311_1_alg».proof.Proof.ROps
import proofs.«412034_j25769804311_1_alg».proof.Proof.RRun
import proofs.«412034_j25769804311_1_alg».proof.Proof.RHost
import proofs.«412034_j25769804311_1_alg».proof.Proof.RDense
import proofs.«412034_j25769804311_1_alg».proof.Proof.SageSpec

noncomputable section

namespace Cert.ReferenceIdeal.Val

open Idealize.ShloMosaic Idealize.ShloMosaic.TcCoe Idealize.SL.Sem Idealize.ShloMosaic.StableHlo
open Cert.ReferenceIdeal Cert.ReferenceIdeal.Gen

/-! ## The references each chunk writes

One list per chunk, in the order of its operations: the result reference of each. A reference outside a chunk's
list holds after the chunk what it held before. -/

abbrev WA : List (Ref sig .tc) := [main_v0, main_v1, main_v2, main_v3]
abbrev WP1 : List (Ref sig .tc) :=
  [main_v4, main_v5, main_v6, main_v7, main_call0.cst.ref, main_call0.v0.ref, main_call0.v1.ref]
abbrev WG1 : List (Ref sig .tc) :=
  [main_call1.c.ref, main_call1.v0.ref, main_call1.v1.ref, main_call1.c_0.ref, main_call1.v2.ref, main_call1.v3.ref,
   main_call1.call0.v0.ref, main_call1.v5.ref, main_call1.c_1.ref, main_call1.c_2.ref, main_call1.v6.ref,
   main_call1.v7.ref, main_call1.v8.ref, main_call1.v9.ref, main_call1.v10.ref, main_call1.v11.ref,
   main_call1.c_3.ref, main_call1.v12.ref, main_call1.v13.ref, main_call1.v14.ref, main_call1.cst.ref,
   main_call1.v15.ref, main_call1.v16.ref, main_cst, main_v10, main_v11, main_v12]
abbrev WC1 : List (Ref sig .tc) :=
  [main_v13, main_v14, main_v15, main_v16, main_v17, main_v18, main_call2.cst.ref, main_call2.v0.ref, main_call2.v1.ref]
abbrev WP2 : List (Ref sig .tc) :=
  [main_v20, main_v21, main_v22, main_v23, main_call3.cst.ref, main_call3.v0.ref, main_call3.v1.ref]
abbrev WG2 : List (Ref sig .tc) :=
  [main_call4.c.ref, main_call4.v0.ref, main_call4.v1.ref, main_call4.c_0.ref, main_call4.v2.ref, main_call4.v3.ref,
   main_call4.call0.v0.ref, main_call4.v5.ref, main_call4.c_1.ref, main_call4.c_2.ref, main_call4.v6.ref,
   main_call4.v7.ref, main_call4.v8.ref, main_call4.v9.ref, main_call4.v10.ref, main_call4.v11.ref,
   main_call4.c_3.ref, main_call4.v12.ref, main_call4.v13.ref, main_call4.v14.ref, main_call4.cst.ref,
   main_call4.v15.ref, main_call4.v16.ref, main_cst_0, main_v26, main_v27, main_v28]
abbrev WC2 : List (Ref sig .tc) :=
  [main_v29, main_v30, main_v31, main_v32, main_v33, main_v34, main_call5.cst.ref, main_call5.v0.ref, main_call5.v1.ref]
abbrev WP3 : List (Ref sig .tc) :=
  [main_v36, main_v37, main_v38, main_v39, main_call6.cst.ref, main_call6.v0.ref, main_call6.v1.ref]
abbrev WG3 : List (Ref sig .tc) :=
  [main_call7.c.ref, main_call7.v0.ref, main_call7.v1.ref, main_call7.c_0.ref, main_call7.v2.ref, main_call7.v3.ref,
   main_call7.call0.v0.ref, main_call7.v5.ref, main_call7.c_1.ref, main_call7.c_2.ref, main_call7.v6.ref,
   main_call7.v7.ref, main_call7.v8.ref, main_call7.v9.ref, main_call7.v10.ref, main_call7.v11.ref,
   main_call7.c_3.ref, main_call7.v12.ref, main_call7.v13.ref, main_call7.v14.ref, main_call7.cst.ref,
   main_call7.v15.ref, main_call7.v16.ref, main_cst_1, main_v42, main_v43, main_v44]
abbrev WC3 : List (Ref sig .tc) :=
  [main_v45, main_v46, main_v47, main_v48, main_v49, main_v50, main_v51, main_v52, main_cst_2, main_v53, main_v54,
   main_cst_3, main_v55, main_v56]

/-- An operation whose one written buffer is a member of the list writes inside the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The shape of "this chunk writes inside this list". -/
abbrev WritesIn (l : List (HloOp τ sig (Elt Ideal))) (W : List (Ref sig .tc)) : Prop :=
  l.Forall fun op => op.writes ⊆ (W.map (Proc.devRef (τ := τ) .tc)).toFinset

theorem hWA : WritesIn opsA WA := by
  simp only [WritesIn, opsA, List.Forall, nullary_writes, unary_writes, binary_writes, ternary_writes, reshape_writes]
  repeat' apply And.intro
  all_goals exact sub_of_mem (by decide)

theorem hWP1 : WritesIn opsP1 WP1 := by
  simp only [WritesIn, opsP1, List.Forall, nullary_writes, unary_writes, binary_writes, ternary_writes, reshape_writes]
  repeat' apply And.intro
  all_goals exact sub_of_mem (by decide)
theorem hWG1 : WritesIn opsG1 WG1 := by
  simp only [WritesIn, opsG1, List.Forall, nullary_writes, unary_writes, binary_writes, ternary_writes, reshape_writes]
  repeat' apply And.intro
  all_goals exact sub_of_mem (by decide)
theorem hWC1 : WritesIn opsC1 WC1 := by
  simp only [WritesIn, opsC1, List.Forall, nullary_writes, unary_writes, binary_writes, ternary_writes, reshape_writes]
  repeat' apply And.intro
  all_goals exact sub_of_mem (by decide)
theorem hWP2 : WritesIn opsP2 WP2 := by
  simp only [WritesIn, opsP2, List.Forall, nullary_writes, unary_writes, binary_writes, ternary_writes, reshape_writes]
  repeat' apply And.intro
  all_goals exact sub_of_mem (by decide)
theorem hWG2 : WritesIn opsG2 WG2 := by
  simp only [WritesIn, opsG2, List.Forall, nullary_writes, unary_writes, binary_writes, ternary_writes, reshape_writes]
  repeat' apply And.intro
  all_goals exact sub_of_mem (by decide)
theorem hWC2 : WritesIn opsC2 WC2 := by
  simp only [WritesIn, opsC2, List.Forall, nullary_writes, unary_writes, binary_writes, ternary_writes, reshape_writes]
  repeat' apply And.intro
  all_goals exact sub_of_mem (by decide)
theorem hWP3 : WritesIn opsP3 WP3 := by
  simp only [WritesIn, opsP3, List.Forall, nullary_writes, unary_writes, binary_writes, ternary_writes, reshape_writes]
  repeat' apply And.intro
  all_goals exact sub_of_mem (by decide)
theorem hWG3 : WritesIn opsG3 WG3 := by
  simp only [WritesIn, opsG3, List.Forall, nullary_writes, unary_writes, binary_writes, ternary_writes, reshape_writes]
  repeat' apply And.intro
  all_goals exact sub_of_mem (by decide)
theorem hWC3 : WritesIn opsC3 WC3 := by
  simp only [WritesIn, opsC3, List.Forall, nullary_writes, unary_writes, binary_writes, ternary_writes, reshape_writes]
  repeat' apply And.intro
  all_goals exact sub_of_mem (by decide)

/-! ## A reference a chunk does not write keeps its contents across the chunk -/

theorem keptA (r : Ref sig .tc) (hr : r ∉ WA) (V : Valuation τ sig (Elt Ideal)) :
    StableHlo.after (opsA (F := Ideal)) V (Proc.devRef .tc r) = V (Proc.devRef .tc r) := after_of_writes_sub _ V hWA hr
theorem keptP1 (r : Ref sig .tc) (hr : r ∉ WP1) (V : Valuation τ sig (Elt Ideal)) :
    StableHlo.after (opsP1 (F := Ideal)) V (Proc.devRef .tc r) = V (Proc.devRef .tc r) := after_of_writes_sub _ V hWP1 hr
theorem keptG1 (r : Ref sig .tc) (hr : r ∉ WG1) (V : Valuation τ sig (Elt Ideal)) :
    StableHlo.after (opsG1 (F := Ideal)) V (Proc.devRef .tc r) = V (Proc.devRef .tc r) := after_of_writes_sub _ V hWG1 hr
theorem keptC1 (r : Ref sig .tc) (hr : r ∉ WC1) (V : Valuation τ sig (Elt Ideal)) :
    StableHlo.after (opsC1 (F := Ideal)) V (Proc.devRef .tc r) = V (Proc.devRef .tc r) := after_of_writes_sub _ V hWC1 hr
theorem keptP2 (r : Ref sig .tc) (hr : r ∉ WP2) (V : Valuation τ sig (Elt Ideal)) :
    StableHlo.after (opsP2 (F := Ideal)) V (Proc.devRef .tc r) = V (Proc.devRef .tc r) := after_of_writes_sub _ V hWP2 hr
theorem keptG2 (r : Ref sig .tc) (hr : r ∉ WG2) (V : Valuation τ sig (Elt Ideal)) :
    StableHlo.after (opsG2 (F := Ideal)) V (Proc.devRef .tc r) = V (Proc.devRef .tc r) := after_of_writes_sub _ V hWG2 hr
theorem keptC2 (r : Ref sig .tc) (hr : r ∉ WC2) (V : Valuation τ sig (Elt Ideal)) :
    StableHlo.after (opsC2 (F := Ideal)) V (Proc.devRef .tc r) = V (Proc.devRef .tc r) := after_of_writes_sub _ V hWC2 hr
theorem keptP3 (r : Ref sig .tc) (hr : r ∉ WP3) (V : Valuation τ sig (Elt Ideal)) :
    StableHlo.after (opsP3 (F := Ideal)) V (Proc.devRef .tc r) = V (Proc.devRef .tc r) := after_of_writes_sub _ V hWP3 hr
theorem keptG3 (r : Ref sig .tc) (hr : r ∉ WG3) (V : Valuation τ sig (Elt Ideal)) :
    StableHlo.after (opsG3 (F := Ideal)) V (Proc.devRef .tc r) = V (Proc.devRef .tc r) := after_of_writes_sub _ V hWG3 hr
theorem keptC3 (r : Ref sig .tc) (hr : r ∉ WC3) (V : Valuation τ sig (Elt Ideal)) :
    StableHlo.after (opsC3 (F := Ideal)) V (Proc.devRef .tc r) = V (Proc.devRef .tc r) := after_of_writes_sub _ V hWC3 hr

/-! ## The fold over the ten chunks, one chunk at a time -/

/-- Over any ten lists: the fold over their concatenation is the ten folds nested, first list innermost. -/
theorem after_ten (a b c d e f g h i j : List (HloOp τ sig (Elt Ideal))) (V : Valuation τ sig (Elt Ideal)) :
    StableHlo.after (a ++ b ++ c ++ d ++ e ++ f ++ g ++ h ++ i ++ j) V
      = StableHlo.after j (StableHlo.after i (StableHlo.after h (StableHlo.after g (StableHlo.after f
          (StableHlo.after e (StableHlo.after d (StableHlo.after c (StableHlo.after b (StableHlo.after a V))))))))) := by
  simp only [after_append]

/-- The seventeen argument references. -/
abbrev argList : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- No chunk writes an argument. -/
theorem args_free : ∀ b ∈ argList, b ∉ WA ∧ b ∉ WP1 ∧ b ∉ WG1 ∧ b ∉ WC1 ∧ b ∉ WP2 ∧ b ∉ WG2 ∧ b ∉ WC2 ∧ b ∉ WP3
    ∧ b ∉ WG3 ∧ b ∉ WC3 := by decide
/-- The two edge lists are written by the first chunk only (read here: by none of the next seven). -/
theorem edges_free : ∀ b ∈ [main_v1, main_v3], b ∉ WP1 ∧ b ∉ WG1 ∧ b ∉ WC1 ∧ b ∉ WP2 ∧ b ∉ WG2 ∧ b ∉ WC2 ∧ b ∉ WP3 := by
  decide

section Walk

variable (V : Valuation τ sig (Elt Ideal))

/- The contents at the ten chunk boundaries, from contents `V`. -/
local notation "U₁" => StableHlo.after (opsA (F := Ideal)) V
local notation "U₂" => StableHlo.after (opsP1 (F := Ideal)) U₁
local notation "U₃" => StableHlo.after (opsG1 (F := Ideal)) U₂
local notation "U₄" => StableHlo.after (opsC1 (F := Ideal)) U₃
local notation "U₅" => StableHlo.after (opsP2 (F := Ideal)) U₄
local notation "U₆" => StableHlo.after (opsG2 (F := Ideal)) U₅
local notation "U₇" => StableHlo.after (opsC2 (F := Ideal)) U₆
local notation "U₈" => StableHlo.after (opsP3 (F := Ideal)) U₇
local notation "U₉" => StableHlo.after (opsG3 (F := Ideal)) U₈
local notation "U₁₀" => StableHlo.after (opsC3 (F := Ideal)) U₉

theorem ops_fold : StableHlo.after (ops (F := Ideal)) V = U₁₀ := after_ten opsA opsP1 opsG1 opsC1 opsP2 opsG2 opsC2 opsP3 opsG3 opsC3 V

/-! ### An argument holds at every boundary what it held at the start -/

theorem argsAt1 (b : Ref sig .tc) (hb : b ∈ argList) : U₁ (Proc.devRef .tc b) = V (Proc.devRef .tc b) :=
  keptA b (args_free b hb).1 V
theorem argsAt2 (b : Ref sig .tc) (hb : b ∈ argList) : U₂ (Proc.devRef .tc b) = V (Proc.devRef .tc b) :=
  (keptP1 b (args_free b hb).2.1 _).trans (argsAt1 V b hb)
theorem argsAt3 (b : Ref sig .tc) (hb : b ∈ argList) : U₃ (Proc.devRef .tc b) = V (Proc.devRef .tc b) :=
  (keptG1 b (args_free b hb).2.2.1 _).trans (argsAt2 V b hb)
theorem argsAt4 (b : Ref sig .tc) (hb : b ∈ argList) : U₄ (Proc.devRef .tc b) = V (Proc.devRef .tc b) :=
  (keptC1 b (args_free b hb).2.2.2.1 _).trans (argsAt3 V b hb)
theorem argsAt5 (b : Ref sig .tc) (hb : b ∈ argList) : U₅ (Proc.devRef .tc b) = V (Proc.devRef .tc b) :=
  (keptP2 b (args_free b hb).2.2.2.2.1 _).trans (argsAt4 V b hb)
theorem argsAt6 (b : Ref sig .tc) (hb : b ∈ argList) : U₆ (Proc.devRef .tc b) = V (Proc.devRef .tc b) :=
  (keptG2 b (args_free b hb).2.2.2.2.2.1 _).trans (argsAt5 V b hb)
theorem argsAt7 (b : Ref sig .tc) (hb : b ∈ argList) : U₇ (Proc.devRef .tc b) = V (Proc.devRef .tc b) :=
  (keptC2 b (args_free b hb).2.2.2.2.2.2.1 _).trans (argsAt6 V b hb)
theorem argsAt8 (b : Ref sig .tc) (hb : b ∈ argList) : U₈ (Proc.devRef .tc b) = V (Proc.devRef .tc b) :=
  (keptP3 b (args_free b hb).2.2.2.2.2.2.2.1 _).trans (argsAt7 V b hb)
theorem argsAt9 (b : Ref sig .tc) (hb : b ∈ argList) : U₉ (Proc.devRef .tc b) = V (Proc.devRef .tc b) :=
  (keptG3 b (args_free b hb).2.2.2.2.2.2.2.2.1 _).trans (argsAt8 V b hb)
theorem argsAt10 (b : Ref sig .tc) (hb : b ∈ argList) : U₁₀ (Proc.devRef .tc b) = V (Proc.devRef .tc b) :=
  (keptC3 b (args_free b hb).2.2.2.2.2.2.2.2.2 _).trans (argsAt9 V b hb)

/-! ### An edge list holds at the later boundaries what the first chunk left -/

theorem edgeAt2 (b : Ref sig .tc) (hb : b ∈ [main_v1, main_v3]) : U₂ (Proc.devRef .tc b) = U₁ (Proc.devRef .tc b) :=
  keptP1 b (edges_free b hb).1 _
theorem edgeAt3 (b : Ref sig .tc) (hb : b ∈ [main_v1, main_v3]) : U₃ (Proc.devRef .tc b) = U₁ (Proc.devRef .tc b) :=
  (keptG1 b (edges_free b hb).2.1 _).trans (edgeAt2 V b hb)
theorem edgeAt4 (b : Ref sig .tc) (hb : b ∈ [main_v1, main_v3]) : U₄ (Proc.devRef .tc b) = U₁ (Proc.devRef .tc b) :=
  (keptC1 b (edges_free b hb).2.2.1 _).trans (edgeAt3 V b hb)
theorem edgeAt5 (b : Ref sig .tc) (hb : b ∈ [main_v1, main_v3]) : U₅ (Proc.devRef .tc b) = U₁ (Proc.devRef .tc b) :=
  (keptP2 b (edges_free b hb).2.2.2.1 _).trans (edgeAt4 V b hb)
theorem edgeAt6 (b : Ref sig .tc) (hb : b ∈ [main_v1, main_v3]) : U₆ (Proc.devRef .tc b) = U₁ (Proc.devRef .tc b) :=
  (keptG2 b (edges_free b hb).2.2.2.2.1 _).trans (edgeAt5 V b hb)
theorem edgeAt7 (b : Ref sig .tc) (hb : b ∈ [main_v1, main_v3]) : U₇ (Proc.devRef .tc b) = U₁ (Proc.devRef .tc b) :=
  (keptC2 b (edges_free b hb).2.2.2.2.2.1 _).trans (edgeAt6 V b hb)
theorem edgeAt8 (b : Ref sig .tc) (hb : b ∈ [main_v1, main_v3]) : U₈ (Proc.devRef .tc b) = U₁ (Proc.devRef .tc b) :=
  (keptP3 b (edges_free b hb).2.2.2.2.2.2 _).trans (edgeAt7 V b hb)

/-! ### The result, read back chunk by chunk

From the last chunk inwards: each stage's result is its function of what it consumes; a consumed argument walks
back to the start, a consumed edge list to the first chunk, and a layer's output consumed two chunks later walks
back across the two chunks that do not write it. -/

theorem value_of :
    StableHlo.after (ops (F := Ideal)) V (Proc.devRef .tc main_v56)
      = Cert.Sage.net agg3 agg16 (srcOf (V (Proc.devRef .tc main_arg1))) (dstOf (V (Proc.devRef .tc main_arg1)))
          (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ops_fold V,
    -- layer 3: combine
    stageC3, argsAt9 V main_arg14 (by decide), argsAt9 V main_arg15 (by decide), argsAt9 V main_arg16 (by decide),
    keptG3 main_v35 (by decide), keptP3 main_v35 (by decide),
    -- layer 3: gather and scatter-add, project
    stageG3, edgeAt8 V main_v1 (by decide), edgeAt8 V main_v3 (by decide), stageA_src, stageA_dst,
    stageP3, argsAt7 V main_arg12 (by decide), argsAt7 V main_arg13 (by decide),
    -- layer 2: combine
    stageC2, argsAt6 V main_arg9 (by decide), argsAt6 V main_arg10 (by decide), argsAt6 V main_arg11 (by decide),
    keptG2 main_v19 (by decide), keptP2 main_v19 (by decide),
    -- layer 2: gather and scatter-add, project
    stageG2, edgeAt5 V main_v1 (by decide), edgeAt5 V main_v3 (by decide), stageA_src, stageA_dst,
    stageP2, argsAt4 V main_arg7 (by decide), argsAt4 V main_arg8 (by decide),
    -- layer 1: combine
    stageC1, argsAt3 V main_arg0 (by decide), argsAt3 V main_arg4 (by decide), argsAt3 V main_arg5 (by decide),
    argsAt3 V main_arg6 (by decide),
    -- layer 1: gather and scatter-add, project
    stageG1, edgeAt2 V main_v1 (by decide), edgeAt2 V main_v3 (by decide), stageA_src, stageA_dst,
    stageP1, argsAt1 V main_arg0 (by decide), argsAt1 V main_arg2 (by decide), argsAt1 V main_arg3 (by decide)]
  rfl

/-- No operation writes an argument. -/
theorem kept_of (b : Ref sig .tc) (hb : b ∈ argList) :
    StableHlo.after (ops (F := Ideal)) V (Proc.devRef .tc b) = V (Proc.devRef .tc b) := by
  rw [ops_fold V]; exact argsAt10 V b hb

end Walk

theorem reference_value (m : (ℓ : Loc nD τ sig) → Buf (Elt Ideal) ℓ) (c : Dev nD) :
    StableHlo.after (ops (F := Ideal)) (launchContents m c) (Proc.devRef .tc main_v56)
      = Cert.Sage.net agg3 agg16 (srcOf (m ((c.tc : Thread nD τ).loc main_arg1))) (dstOf (m ((c.tc : Thread nD τ).loc main_arg1)))
        (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  value_of (launchContents m c)

theorem reference_kept (m : (ℓ : Loc nD τ sig) → Buf (Elt Ideal) ℓ) (c : Dev nD) (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16]) :
    StableHlo.after (ops (F := Ideal)) (launchContents m c) (Proc.devRef .tc b) = m ((c.tc : Thread nD τ).loc b) :=
  kept_of (launchContents m c) b hb

end Cert.ReferenceIdeal.Val

end
-- ==== Proof.lean ====
/-
  Three stacked SAGE layers on 500000 nodes and 5000000 edges: per layer, node features are projected
  (relu (x · pw + pb)), the projected rows are gathered at the edge sources and summed into the edge targets, and the
  sums are combined with the layer's own input (act (agg · lw + x · rw + lb)), act being relu, relu, and the logistic
  function.  The kernel program computes the two dense steps of every layer in row blocks of 5000 (six launches of 100
  blocks each) and leaves the gather and the scatter-add to the host; the reference computes everything on the host.

  Over the extended reals the two programs are one function of the arguments (Proof/SageSpec.lean's `net`):
    * a block's matrix product into a zero accumulator is the rows' share of the whole product, and the blocks tile
      the rows (Proof/KRegion0..5.lean);
    * the kernel adds the bias last, the reference in the middle: addition of extended reals commutes and associates
      with no side condition, so no finiteness of the inputs is used anywhere;
    * the kernel's logistic operation is 1 / (1 + e^(-y)), which the reference spells out;
    * the gather and the scatter-add are the same host operations in both programs, applied to equal arrays, and are
      never opened (Proof/KHost.lean, Proof/RHost.lean).
  The kernel program's run with its result named is Proof/KRun.lean over Proof/KChain.lean; the reference's is
  Proof/RRun.lean over Proof/RChain.lean.  The idealization rewrote no operation, so `preserves` is `True`.
-/
import proofs.«412034_j25769804311_1_alg».proof.Defs
import proofs.«412034_j25769804311_1_alg».proof.Proof.Gen.Kernel
import proofs.«412034_j25769804311_1_alg».proof.Proof.Gen.Kernel.Skeleton
import proofs.«412034_j25769804311_1_alg».proof.Proof.Gen.Kernel.Launch
import proofs.«412034_j25769804311_1_alg».proof.Proof.Gen.Kernel.Points
import proofs.«412034_j25769804311_1_alg».proof.Proof.Gen.Kernel.Frame
import proofs.«412034_j25769804311_1_alg».proof.Proof.Gen.KernelIdeal
import proofs.«412034_j25769804311_1_alg».proof.Proof.Gen.KernelIdeal.Skeleton
import proofs.«412034_j25769804311_1_alg».proof.Proof.Gen.KernelIdeal.Launch
import proofs.«412034_j25769804311_1_alg».proof.Proof.Gen.KernelIdeal.Points
import proofs.«412034_j25769804311_1_alg».proof.Proof.Gen.KernelIdeal.Frame
import proofs.«412034_j25769804311_1_alg».proof.Proof.Gen.ReferenceIdeal
import proofs.«412034_j25769804311_1_alg».proof.Proof.Gen.Pre_finite_inputs
import proofs.«412034_j25769804311_1_alg».proof.Proof.KRun
import proofs.«412034_j25769804311_1_alg».proof.Proof.KChain
import proofs.«412034_j25769804311_1_alg».proof.Proof.RRun
import proofs.«412034_j25769804311_1_alg».proof.Proof.RChain
import Idealize.ShloMosaic.Adequacy
import Idealize.ShloMosaic.Init

set_option maxRecDepth 16384

noncomputable section

namespace Cert.Proof

open Idealize.ShloMosaic Idealize.ShloMosaic.TcCoe Idealize.SL.Sem

/-! ## The host steps the two programs share are the same functions -/

theorem srcOf_eq : Cert.ReferenceIdeal.Val.srcOf = Cert.KernelIdeal.Val.srcOf := rfl
theorem dstOf_eq : Cert.ReferenceIdeal.Val.dstOf = Cert.KernelIdeal.Val.dstOf := rfl
theorem agg3_eq : Cert.ReferenceIdeal.Val.agg3 = Cert.KernelIdeal.Val.agg3 := rfl
theorem agg16_eq : Cert.ReferenceIdeal.Val.agg16 = Cert.KernelIdeal.Val.agg16 := rfl

/-! ## The claims -/

theorem frame_k : Cert.frame_Kernel := fun m ρ _ => Cert.Kernel.Gen.frame m ρ
theorem frame_ki : Cert.frame_KernelIdeal := fun m ρ _ => Cert.KernelIdeal.Gen.frame m ρ

/-- The reference writes none of its arguments: its run, with everything but the arguments dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.Val.reference_kept m c Cert.ReferenceIdeal.main_arg0 (by decide)),
      (h c Cert.ReferenceIdeal.main_arg1).trans (Cert.ReferenceIdeal.Val.reference_kept m c Cert.ReferenceIdeal.main_arg1 (by decide)),
      (h c Cert.ReferenceIdeal.main_arg2).trans (Cert.ReferenceIdeal.Val.reference_kept m c Cert.ReferenceIdeal.main_arg2 (by decide)),
      (h c Cert.ReferenceIdeal.main_arg3).trans (Cert.ReferenceIdeal.Val.reference_kept m c Cert.ReferenceIdeal.main_arg3 (by decide)),
      (h c Cert.ReferenceIdeal.main_arg4).trans (Cert.ReferenceIdeal.Val.reference_kept m c Cert.ReferenceIdeal.main_arg4 (by decide)),
      (h c Cert.ReferenceIdeal.main_arg5).trans (Cert.ReferenceIdeal.Val.reference_kept m c Cert.ReferenceIdeal.main_arg5 (by decide)),
      (h c Cert.ReferenceIdeal.main_arg6).trans (Cert.ReferenceIdeal.Val.reference_kept m c Cert.ReferenceIdeal.main_arg6 (by decide)),
      (h c Cert.ReferenceIdeal.main_arg7).trans (Cert.ReferenceIdeal.Val.reference_kept m c Cert.ReferenceIdeal.main_arg7 (by decide)),
      (h c Cert.ReferenceIdeal.main_arg8).trans (Cert.ReferenceIdeal.Val.reference_kept m c Cert.ReferenceIdeal.main_arg8 (by decide)),
      (h c Cert.ReferenceIdeal.main_arg9).trans (Cert.ReferenceIdeal.Val.reference_kept m c Cert.ReferenceIdeal.main_arg9 (by decide)),
      (h c Cert.ReferenceIdeal.main_arg10).trans (Cert.ReferenceIdeal.Val.reference_kept m c Cert.ReferenceIdeal.main_arg10 (by decide)),
      (h c Cert.ReferenceIdeal.main_arg11).trans (Cert.ReferenceIdeal.Val.reference_kept m c Cert.ReferenceIdeal.main_arg11 (by decide)),
      (h c Cert.ReferenceIdeal.main_arg12).trans (Cert.ReferenceIdeal.Val.reference_kept m c Cert.ReferenceIdeal.main_arg12 (by decide)),
      (h c Cert.ReferenceIdeal.main_arg13).trans (Cert.ReferenceIdeal.Val.reference_kept m c Cert.ReferenceIdeal.main_arg13 (by decide)),
      (h c Cert.ReferenceIdeal.main_arg14).trans (Cert.ReferenceIdeal.Val.reference_kept m c Cert.ReferenceIdeal.main_arg14 (by decide)),
      (h c Cert.ReferenceIdeal.main_arg15).trans (Cert.ReferenceIdeal.Val.reference_kept m c Cert.ReferenceIdeal.main_arg15 (by decide)),
      (h c Cert.ReferenceIdeal.main_arg16).trans (Cert.ReferenceIdeal.Val.reference_kept m c Cert.ReferenceIdeal.main_arg16 (by decide))⟩)
    (Cert.ReferenceIdeal.Val.run_main (F := Ideal) m ρ)

/-- Both programs end with the three stacked layers of the arguments in their result array. -/
theorem algebraic : Cert.algebraic_KernelIdeal_ReferenceIdeal := by
  intro m ρ m' ρ' _ hagree
  refine ⟨fun c => Cert.Sage.net Cert.KernelIdeal.Val.agg3 Cert.KernelIdeal.Val.agg16 (Cert.KernelIdeal.Val.srcOf (m ((c.tc : Thread Cert.KernelIdeal.nD Cert.KernelIdeal.τ).loc Cert.KernelIdeal.main_arg1))) (Cert.KernelIdeal.Val.dstOf (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Val.kernel_value m ρ c), (h c).2⟩)
      (Cert.KernelIdeal.Gen.run_named (F := Ideal) m ρ)
  · refine (θ_run Cert.ReferenceIdeal.defs _ _).mono (fun r h c => ⟨?_,
      (h c Cert.ReferenceIdeal.main_arg0).trans (Cert.ReferenceIdeal.Val.reference_kept m' c Cert.ReferenceIdeal.main_arg0 (by decide)),
        (h c Cert.ReferenceIdeal.main_arg1).trans (Cert.ReferenceIdeal.Val.reference_kept m' c Cert.ReferenceIdeal.main_arg1 (by decide)),
        (h c Cert.ReferenceIdeal.main_arg2).trans (Cert.ReferenceIdeal.Val.reference_kept m' c Cert.ReferenceIdeal.main_arg2 (by decide)),
        (h c Cert.ReferenceIdeal.main_arg3).trans (Cert.ReferenceIdeal.Val.reference_kept m' c Cert.ReferenceIdeal.main_arg3 (by decide)),
        (h c Cert.ReferenceIdeal.main_arg4).trans (Cert.ReferenceIdeal.Val.reference_kept m' c Cert.ReferenceIdeal.main_arg4 (by decide)),
        (h c Cert.ReferenceIdeal.main_arg5).trans (Cert.ReferenceIdeal.Val.reference_kept m' c Cert.ReferenceIdeal.main_arg5 (by decide)),
        (h c Cert.ReferenceIdeal.main_arg6).trans (Cert.ReferenceIdeal.Val.reference_kept m' c Cert.ReferenceIdeal.main_arg6 (by decide)),
        (h c Cert.ReferenceIdeal.main_arg7).trans (Cert.ReferenceIdeal.Val.reference_kept m' c Cert.ReferenceIdeal.main_arg7 (by decide)),
        (h c Cert.ReferenceIdeal.main_arg8).trans (Cert.ReferenceIdeal.Val.reference_kept m' c Cert.ReferenceIdeal.main_arg8 (by decide)),
        (h c Cert.ReferenceIdeal.main_arg9).trans (Cert.ReferenceIdeal.Val.reference_kept m' c Cert.ReferenceIdeal.main_arg9 (by decide)),
        (h c Cert.ReferenceIdeal.main_arg10).trans (Cert.ReferenceIdeal.Val.reference_kept m' c Cert.ReferenceIdeal.main_arg10 (by decide)),
        (h c Cert.ReferenceIdeal.main_arg11).trans (Cert.ReferenceIdeal.Val.reference_kept m' c Cert.ReferenceIdeal.main_arg11 (by decide)),
        (h c Cert.ReferenceIdeal.main_arg12).trans (Cert.ReferenceIdeal.Val.reference_kept m' c Cert.ReferenceIdeal.main_arg12 (by decide)),
        (h c Cert.ReferenceIdeal.main_arg13).trans (Cert.ReferenceIdeal.Val.reference_kept m' c Cert.ReferenceIdeal.main_arg13 (by decide)),
        (h c Cert.ReferenceIdeal.main_arg14).trans (Cert.ReferenceIdeal.Val.reference_kept m' c Cert.ReferenceIdeal.main_arg14 (by decide)),
        (h c Cert.ReferenceIdeal.main_arg15).trans (Cert.ReferenceIdeal.Val.reference_kept m' c Cert.ReferenceIdeal.main_arg15 (by decide)),
        (h c Cert.ReferenceIdeal.main_arg16).trans (Cert.ReferenceIdeal.Val.reference_kept m' c Cert.ReferenceIdeal.main_arg16 (by decide))⟩)
      (Cert.ReferenceIdeal.Val.run_main (F := Ideal) m' ρ')
    rw [h c Cert.ReferenceIdeal.main_v56, Cert.ReferenceIdeal.Val.reference_value m' c, srcOf_eq, dstOf_eq, agg3_eq, agg16_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
